-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x128 : S_.BroadcastsInDim S160000x128 (![] : Fin 0 → Fin S160000x128.rank)
  reducesTo_S160000x128_S_d0_1 : S160000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S512x256 : S_.BroadcastsInDim S512x256 (![] : Fin 0 → Fin S512x256.rank)
  reducesTo_S512x256_S_d0_1 : S512x256.ReducesTo [0, 1] S_
  bcast_S_S768x256 : S_.BroadcastsInDim S768x256 (![] : Fin 0 → Fin S768x256.rank)
  reducesTo_S768x256_S_d0_1 : S768x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S768x256 .f32) (main_arg14 : FVec F S256 .f32) (main_v48 : IVec S_ 1) (main_v49 : FVec F S768x256 .f32) (main_v50 : FVec F S768x256 .f32) : IVec S_ 1 :=
  let main_v51 : IVec S768x256 1 := cmpf .olt main_v49 main_v50
  let main_c_19 : IVec S_ 1 := constantI S_ 1 1#1
  let main_v52 : IVec S_ 1 := (fun x v => Host.reduce IntOp.andi x v reducesTo_S768x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S768x256 .f32 := Host.absf main_arg13
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S768x256 .f32 := Host.absf main_arg11
  let main_cst_18 : FVec F S_ .f32 := constant S_ .f32 0x7F800000#32
  let main_v50 : FVec F S768x256 .f32 := broadcastInDim S768x256 ![] bcast_S_S768x256 main_cst_18
  fn_part3 (F := F) main_arg12 main_arg13 main_arg14 main_v48 main_v49 main_v50

def fn_part1 {F : FTy → Type} [FloatOps F] (main_arg5 : FVec F S128x256 .f32) (main_arg6 : FVec F S256 .f32) (main_arg7 : FVec F S512x256 .f32) (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S10000x256 .f32) (main_arg1 : FVec F S160000x128 .f32) (main_arg2 : IVec S2x160000 32) (main_arg3 : FVec F S256x256 .f32) (main_arg4 : FVec F S256 .f32) (main_arg5 : FVec F S128x256 .f32) (main_arg6 : FVec F S256 .f32) (main_arg7 : FVec F S512x256 .f32) (main_arg8 : FVec F S256 .f32) (main_arg9 : FVec F S512x256 .f32) (main_arg10 : FVec F S256 .f32) (main_arg11 : FVec F S768x256 .f32) (main_arg12 : FVec F S256 .f32) (main_arg13 : FVec F S768x256 .f32) (main_arg14 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x128 .f32 := Host.absf main_arg1
  let main_cst_0 : FVec F S_ .f32 := constant S_ .f32 0x7F800000#32
  let main_v5 : FVec F S160000x128 .f32 := broadcastInDim S160000x128 ![] bcast_S_S160000x128 main_cst_0
  let main_v6 : IVec S160000x128 1 := cmpf .olt main_v4 main_v5
  let main_c_1 : IVec S_ 1 := constantI S_ 1 1#1
  let main_v7 : IVec S_ 1 := (fun x v => Host.reduce IntOp.andi x v reducesTo_S160000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S1x160000 : Shape := ⟨2, ![1, 160000]⟩
abbrev S160000 : Shape := ⟨1, ![160000]⟩
abbrev S1x256 : Shape := ⟨2, ![1, 256]⟩
abbrev S1000x256 : Shape := ⟨2, ![1000, 256]⟩
abbrev S160000x256 : Shape := ⟨2, ![160000, 256]⟩
abbrev S4000x128 : Shape := ⟨2, ![4000, 128]⟩
abbrev S4000x256 : Shape := ⟨2, ![4000, 256]⟩
abbrev S_ : Shape := ⟨0, ![]⟩
abbrev S160000x1 : Shape := ⟨2, ![160000, 1]⟩
abbrev S10000 : Shape := ⟨1, ![10000]⟩
abbrev S160000x512 : Shape := ⟨2, ![160000, 512]⟩
abbrev S2000x512 : Shape := ⟨2, ![2000, 512]⟩
abbrev S2000x256 : Shape := ⟨2, ![2000, 256]⟩
abbrev S10000x1 : Shape := ⟨2, ![10000, 1]⟩
abbrev S10000x768 : Shape := ⟨2, ![10000, 768]⟩
abbrev S1000x768 : Shape := ⟨2, ![1000, 768]⟩
abbrev S160000x768 : Shape := ⟨2, ![160000, 768]⟩
abbrev S2000x768 : Shape := ⟨2, ![2000, 768]⟩

abbrev nBuf : Space → Nat
  | .hbm => 83
  | .vmem => 36
  | .smem => 0
  | _ => 0

abbrev bufTy : (tb : Table) → Fin (tcTables nBuf tb) → BufTy
  | .hbm, ⟨0, _⟩ => ⟨S10000x256, .f32⟩
  | .hbm, ⟨1, _⟩ => ⟨S160000x128, .f32⟩
  | .hbm, ⟨2, _⟩ => ⟨S2x160000, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S768x256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S1x256, .f32⟩
  | .hbm, ⟨20, _⟩ => ⟨S10000x256, .f32⟩
  | .hbm, ⟨21, _⟩ => ⟨S1x256, .f32⟩
  | .hbm, ⟨22, _⟩ => ⟨S160000x256, .f32⟩
  | .hbm, ⟨23, _⟩ => ⟨S_, .i32⟩
  | .hbm, ⟨24, _⟩ => ⟨S160000, .i32⟩
  | .hbm, ⟨25, _⟩ => ⟨S160000, .i1⟩
  | .hbm, ⟨26, _⟩ => ⟨S_, .i32⟩
  | .hbm, ⟨27, _⟩ => ⟨S160000, .i32⟩
  | .hbm, ⟨28, _⟩ => ⟨S160000, .i32⟩
  | .hbm, ⟨29, _⟩ => ⟨S160000, .i32⟩
  | .hbm, ⟨30, _⟩ => ⟨S160000x1, .i32⟩
  | .hbm, ⟨31, _⟩ => ⟨S160000x256, .f32⟩
  | .hbm, ⟨32, _⟩ => ⟨S_, .i32⟩
  | .hbm, ⟨33, _⟩ => ⟨S160000, .i32⟩
  | .hbm, ⟨34, _⟩ => ⟨S160000, .i1⟩
  | .hbm, ⟨35, _⟩ => ⟨S_, .i32⟩
  | .hbm, ⟨36, _⟩ => ⟨S160000, .i32⟩
  | .hbm, ⟨37, _⟩ => ⟨S160000, .i32⟩
  | .hbm, ⟨38, _⟩ => ⟨S160000, .i32⟩
  | .hbm, ⟨39, _⟩ => ⟨S160000x1, .i32⟩
  | .hbm, ⟨40, _⟩ => ⟨S160000x256, .f32⟩
  | .hbm, ⟨41, _⟩ => ⟨S_, .f32⟩
  | .hbm, ⟨42, _⟩ => ⟨S160000, .f32⟩
  | .hbm, ⟨43, _⟩ => ⟨S_, .f32⟩
  | .hbm, ⟨44, _⟩ => ⟨S10000, .f32⟩
  | .hbm, ⟨45, _⟩ => ⟨S160000x1, .i32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S160000x1, .i32⟩
  | .hbm, ⟨50, _⟩ => ⟨S10000, .f32⟩
  | .hbm, ⟨51, _⟩ => ⟨S160000x512, .f32⟩
  | .hbm, ⟨52, _⟩ => ⟨S1x256, .f32⟩
  | .hbm, ⟨53, _⟩ => ⟨S160000x256, .f32⟩
  | .hbm, ⟨54, _⟩ => ⟨S_, .f32⟩
  | .hbm, ⟨55, _⟩ => ⟨S10000x256, .f32⟩
  | .hbm, ⟨56, _⟩ => ⟨S160000x1, .i32⟩
  | .hbm, ⟨57, _⟩ => ⟨S10000x256, .f32⟩
  | .hbm, ⟨58, _⟩ => ⟨S_, .f32⟩
  | .hbm, ⟨59, _⟩ => ⟨S10000, .f32⟩
  | .hbm, ⟨60, _⟩ => ⟨S10000, .f32⟩
  | .hbm, ⟨61, _⟩ => ⟨S10000x1, .f32⟩
  | .hbm, ⟨62, _⟩ => ⟨S10000x256, .f32⟩
  | .hbm, ⟨63, _⟩ => ⟨S10000x256, .f32⟩
  | .hbm, ⟨64, _⟩ => ⟨S160000x512, .f32⟩
  | .hbm, ⟨65, _⟩ => ⟨S1x256, .f32⟩
  | .hbm, ⟨66, _⟩ => ⟨S160000x256, .f32⟩
  | .hbm, ⟨67, _⟩ => ⟨S_, .f32⟩
  | .hbm, ⟨68, _⟩ => ⟨S10000x256, .f32⟩
  | .hbm, ⟨69, _⟩ => ⟨S160000x1, .i32⟩
  | .hbm, ⟨70, _⟩ => ⟨S10000x256, .f32⟩
  | .hbm, ⟨71, _⟩ => ⟨S_, .f32⟩
  | .hbm, ⟨72, _⟩ => ⟨S10000, .f32⟩
  | .hbm, ⟨73, _⟩ => ⟨S10000, .f32⟩
  | .hbm, ⟨74, _⟩ => ⟨S10000x1, .f32⟩
  | .hbm, ⟨75, _⟩ => ⟨S10000x256, .f32⟩
  | .hbm, ⟨76, _⟩ => ⟨S10000x256, .f32⟩
  | .hbm, ⟨77, _⟩ => ⟨S10000x768, .f32⟩
  | .hbm, ⟨78, _⟩ => ⟨S1x256, .f32⟩
  | .hbm, ⟨79, _⟩ => ⟨S10000x256, .f32⟩
  | .hbm, ⟨80, _⟩ => ⟨S160000x768, .f32⟩
  | .hbm, ⟨81, _⟩ => ⟨S1x256, .f32⟩
  | .hbm, ⟨82, _⟩ => ⟨S160000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S4000x128, .f32⟩
  | .local _ .vmem, ⟨7, _⟩ => ⟨S4000x128, .f32⟩
  | .local _ .vmem, ⟨8, _⟩ => ⟨S128x256, .f32⟩
  | .local _ .vmem, ⟨9, _⟩ => ⟨S1x256, .f32⟩
  | .local _ .vmem, ⟨10, _⟩ => ⟨S4000x256, .f32⟩
  | .local _ .vmem, ⟨11, _⟩ => ⟨S4000x256, .f32⟩
  | .local _ .vmem, ⟨12, _⟩ => ⟨S2000x512, .f32⟩
  | .local _ .vmem, ⟨13, _⟩ => ⟨S2000x512, .f32⟩
  | .local _ .vmem, ⟨14, _⟩ => ⟨S512x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x512, .f32⟩
  | .local _ .vmem, ⟨19, _⟩ => ⟨S2000x512, .f32⟩
  | .local _ .vmem, ⟨20, _⟩ => ⟨S512x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S1000x768, .f32⟩
  | .local _ .vmem, ⟨25, _⟩ => ⟨S1000x768, .f32⟩
  | .local _ .vmem, ⟨26, _⟩ => ⟨S768x256, .f32⟩
  | .local _ .vmem, ⟨27, _⟩ => ⟨S1x256, .f32⟩
  | .local _ .vmem, ⟨28, _⟩ => ⟨S1000x256, .f32⟩
  | .local _ .vmem, ⟨29, _⟩ => ⟨S1000x256, .f32⟩
  | .local _ .vmem, ⟨30, _⟩ => ⟨S2000x768, .f32⟩
  | .local _ .vmem, ⟨31, _⟩ => ⟨S2000x768, .f32⟩
  | .local _ .vmem, ⟨32, _⟩ => ⟨S768x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S768x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S4000x128_S4000x128_0_0 : ∀ a, (![0, 0] : Fin 2 → Nat) a + S4000x128.size a ≤ S4000x128.size a
  h_S4000x128 : 0 < S4000x128.numel
  inb_S128x256_S128x256_0_0 : ∀ a, (![0, 0] : Fin 2 → Nat) a + S128x256.size a ≤ S128x256.size a
  h_S128x256 : 0 < S128x256.numel
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S160000 : S_.BroadcastsInDim S160000 (![] : Fin 0 → Fin S160000.rank)
  bcast_S160000_S160000x1_0 : S160000.BroadcastsInDim S160000x1 (![0] : Fin 1 → Fin S160000x1.rank)
  bcast_S_S10000 : S_.BroadcastsInDim S10000 (![] : Fin 0 → Fin S10000.rank)
  concatenates_S160000x256_S160000x256_S160000x512_d1 : Shape.Concatenates [S160000x256, S160000x256] S160000x512 1
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x256_S10000x768_d1 : Shape.Concatenates [S10000x256, S10000x256, S10000x256] S10000x768 1
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  inb_S768x256_S768x256_0_0 : ∀ a, (![0, 0] : Fin 2 → Nat) a + S768x256.size a ≤ S768x256.size a
  h_S768x256 : 0 < S768x256.numel
  concatenates_S160000x256_S160000x256_S160000x256_S160000x768_d1 : Shape.Concatenates [S160000x256, S160000x256, S160000x256] S160000x768 1
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  dot_S1000x256_S256x256_S1000x256_1_0_0_1_n_n_wf : DotDims.WF S1000x256 S256x256 S1000x256 [1] [0] [0] [1] [] []
  dot_S4000x128_S128x256_S4000x256_1_0_0_1_n_n_wf : DotDims.WF S4000x128 S128x256 S4000x256 [1] [0] [0] [1] [] []
  gather_S10000x256_S160000x1_S160000x256_1_0_n_n_0_1_1256_wf : GatherDims.WF S10000x256 S160000x1 S160000x256 [1] [0] [] [0] [] 1 ![1, 256]
  scatter_S10000_S160000x1_S160000_n_0_0_1_wf : ScatterDims.WF S10000 S160000x1 S160000 [] [0] [0] 1
  dot_S2000x512_S512x256_S2000x256_1_0_0_1_n_n_wf : DotDims.WF S2000x512 S512x256 S2000x256 [1] [0] [0] [1] [] []
  scatter_S10000x256_S160000x1_S160000x256_1_0_0_1_wf : ScatterDims.WF S10000x256 S160000x1 S160000x256 [1] [0] [0] 1
  dot_S1000x768_S768x256_S1000x256_1_0_0_1_n_n_wf : DotDims.WF S1000x768 S768x256 S1000x256 [1] [0] [0] [1] [] []
  dot_S2000x768_S768x256_S2000x256_1_0_0_1_n_n_wf : DotDims.WF S2000x768 S768x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S160000x128.size a
  hwx1_0 : ∀ i : grid1.Coords, EltTy.bits .f32 = 32 ∨ (Rect.block (s := S160000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S160000x256.size a
  hwx1_3 : ∀ i : grid1.Coords, EltTy.bits .f32 = 32 ∨ (Rect.block (s := S160000x256) S4000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S160000x512.size a
  hwx2_0 : ∀ i : grid2.Coords, EltTy.bits .f32 = 32 ∨ (Rect.block (s := S160000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S160000x256.size a
  hwx2_3 : ∀ i : grid2.Coords, EltTy.bits .f32 = 32 ∨ (Rect.block (s := S160000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S160000x512.size a
  hwx3_0 : ∀ i : grid3.Coords, EltTy.bits .f32 = 32 ∨ (Rect.block (s := S160000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S160000x256.size a
  hwx3_3 : ∀ i : grid3.Coords, EltTy.bits .f32 = 32 ∨ (Rect.block (s := S160000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x768.size a ≤ S10000x768.size a
  hwx4_0 : ∀ i : grid4.Coords, EltTy.bits .f32 = 32 ∨ (Rect.block (s := S10000x768) S1000x768.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x256.size a ≤ S768x256.size a
  hwx4_1 : ∀ i : grid4.Coords, EltTy.bits .f32 = 32 ∨ (Rect.block (s := S768x256) S768x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x256.size a ≤ S10000x256.size a
  hwx4_3 : ∀ i : grid4.Coords, EltTy.bits .f32 = 32 ∨ (Rect.block (s := S10000x256) S1000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x768.size a ≤ S160000x768.size a
  hwx5_0 : ∀ i : grid5.Coords, EltTy.bits .f32 = 32 ∨ (Rect.block (s := S160000x768) S2000x768.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S768x256.size a ≤ S768x256.size a
  hwx5_1 : ∀ i : grid5.Coords, EltTy.bits .f32 = 32 ∨ (Rect.block (s := S768x256) S768x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S160000x256.size a
  hwx5_3 : ∀ i : grid5.Coords, EltTy.bits .f32 = 32 ∨ (Rect.block (s := S160000x256) S2000x256.size (cc5_transform_3 i) (hinb5_3 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S1000x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S768x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S2000x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S768x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x256 : Shape := ⟨2, ![10000, 256]⟩
abbrev S160000x128 : Shape := ⟨2, ![160000, 128]⟩
abbrev S2x160000 : Shape := ⟨2, ![2, 160000]⟩
abbrev S256x256 : Shape := ⟨2, ![256, 256]⟩
abbrev S256 : Shape := ⟨1, ![256]⟩
abbrev S128x256 : Shape := ⟨2, ![128, 256]⟩
abbrev S512x256 : Shape := ⟨2, ![512, 256]⟩
abbrev S768x256 : Shape := ⟨2, ![768, 256]⟩
abbrev S1x160000 : Shape := ⟨2, ![1, 160000]⟩
abbrev S160000 : Shape := ⟨1, ![160000]⟩
abbrev S1x256 : Shape := ⟨2, ![1, 256]⟩
abbrev S_ : Shape := ⟨0, ![]⟩
abbrev S160000x256 : Shape := ⟨2, ![160000, 256]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S10000x768 : Shape := ⟨2, ![10000, 768]⟩
abbrev S160000x768 : Shape := ⟨2, ![160000, 768]⟩

abbrev nBuf : Space → Nat
  | .hbm => 125
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S160000x128, .f32⟩
  | .hbm, ⟨2, _⟩ => ⟨S2x160000, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S512x256, .f32⟩
  | .hbm, ⟨10, _⟩ => ⟨S256, .f32⟩
  | .hbm, ⟨11, _⟩ => ⟨S768x256, .f32⟩
  | .hbm, ⟨12, _⟩ => ⟨S256, .f32⟩
  | .hbm, ⟨13, _⟩ => ⟨S768x256, .f32⟩
  | .hbm, ⟨14, _⟩ => ⟨S256, .f32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S160000x256, .f32⟩
  | .hbm, ⟨27, _⟩ => ⟨S1x256, .f32⟩
  | .hbm, ⟨28, _⟩ => ⟨S160000x256, .f32⟩
  | .hbm, ⟨29, _⟩ => ⟨S160000x256, .f32⟩
  | .hbm, ⟨30, _⟩ => ⟨S_, .f32⟩
  | .hbm, ⟨31, _⟩ => ⟨S160000x256, .f32⟩
  | .hbm, ⟨32, _⟩ => ⟨S160000x256, .f32⟩
  | .hbm, ⟨33, _⟩ => ⟨S_, .f32⟩
  | .hbm, ⟨34, _⟩ => ⟨S160000, .f32⟩
  | .hbm, ⟨35, _⟩ => ⟨S_, .f32⟩
  | .hbm, ⟨36, _⟩ => ⟨S10000, .f32⟩
  | .hbm, ⟨37, _⟩ => ⟨S160000x1, .i32⟩
  | .hbm, ⟨38, _⟩ => ⟨S10000, .f32⟩
  | .hbm, ⟨39, _⟩ => ⟨S_, .f32⟩
  | .hbm, ⟨40, _⟩ => ⟨S10000, .f32⟩
  | .hbm, ⟨41, _⟩ => ⟨S160000x1, .i32⟩
  | .hbm, ⟨42, _⟩ => ⟨S10000, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000x256, .f32⟩
  | .hbm, ⟨52, _⟩ => ⟨S160000x512, .f32⟩
  | .hbm, ⟨53, _⟩ => ⟨S160000x256, .f32⟩
  | .hbm, ⟨54, _⟩ => ⟨S1x256, .f32⟩
  | .hbm, ⟨55, _⟩ => ⟨S160000x256, .f32⟩
  | .hbm, ⟨56, _⟩ => ⟨S160000x256, .f32⟩
  | .hbm, ⟨57, _⟩ => ⟨S_, .f32⟩
  | .hbm, ⟨58, _⟩ => ⟨S160000x256, .f32⟩
  | .hbm, ⟨59, _⟩ => ⟨S160000x256, .f32⟩
  | .hbm, ⟨60, _⟩ => ⟨S_, .f32⟩
  | .hbm, ⟨61, _⟩ => ⟨S10000x256, .f32⟩
  | .hbm, ⟨62, _⟩ => ⟨S160000x1, .i32⟩
  | .hbm, ⟨63, _⟩ => ⟨S10000x256, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x256, .f32⟩
  | .hbm, ⟨69, _⟩ => ⟨S10000x256, .f32⟩
  | .hbm, ⟨70, _⟩ => ⟨S_, .i32⟩
  | .hbm, ⟨71, _⟩ => ⟨S160000, .i32⟩
  | .hbm, ⟨72, _⟩ => ⟨S160000, .i1⟩
  | .hbm, ⟨73, _⟩ => ⟨S_, .i32⟩
  | .hbm, ⟨74, _⟩ => ⟨S160000, .i32⟩
  | .hbm, ⟨75, _⟩ => ⟨S160000, .i32⟩
  | .hbm, ⟨76, _⟩ => ⟨S160000, .i32⟩
  | .hbm, ⟨77, _⟩ => ⟨S160000x1, .i32⟩
  | .hbm, ⟨78, _⟩ => ⟨S160000x256, .f32⟩
  | .hbm, ⟨79, _⟩ => ⟨S160000x512, .f32⟩
  | .hbm, ⟨80, _⟩ => ⟨S160000x256, .f32⟩
  | .hbm, ⟨81, _⟩ => ⟨S1x256, .f32⟩
  | .hbm, ⟨82, _⟩ => ⟨S160000x256, .f32⟩
  | .hbm, ⟨83, _⟩ => ⟨S160000x256, .f32⟩
  | .hbm, ⟨84, _⟩ => ⟨S_, .f32⟩
  | .hbm, ⟨85, _⟩ => ⟨S160000x256, .f32⟩
  | .hbm, ⟨86, _⟩ => ⟨S160000x256, .f32⟩
  | .hbm, ⟨87, _⟩ => ⟨S_, .f32⟩
  | .hbm, ⟨88, _⟩ => ⟨S10000x256, .f32⟩
  | .hbm, ⟨89, _⟩ => ⟨S160000x1, .i32⟩
  | .hbm, ⟨90, _⟩ => ⟨S10000x256, .f32⟩
  | .hbm, ⟨91, _⟩ => ⟨S_, .f32⟩
  | .hbm, ⟨92, _⟩ => ⟨S10000, .f32⟩
  | .hbm, ⟨93, _⟩ => ⟨S10000, .f32⟩
  | .hbm, ⟨94, _⟩ => ⟨S10000x1, .f32⟩
  | .hbm, ⟨95, _⟩ => ⟨S10000x256, .f32⟩
  | .hbm, ⟨96, _⟩ => ⟨S10000x256, .f32⟩
  | .hbm, ⟨97, _⟩ => ⟨S10000x768, .f32⟩
  | .hbm, ⟨98, _⟩ => ⟨S10000x256, .f32⟩
  | .hbm, ⟨99, _⟩ => ⟨S1x256, .f32⟩
  | .hbm, ⟨100, _⟩ => ⟨S10000x256, .f32⟩
  | .hbm, ⟨101, _⟩ => ⟨S10000x256, .f32⟩
  | .hbm, ⟨102, _⟩ => ⟨S_, .i32⟩
  | .hbm, ⟨103, _⟩ => ⟨S160000, .i32⟩
  | .hbm, ⟨104, _⟩ => ⟨S160000, .i1⟩
  | .hbm, ⟨105, _⟩ => ⟨S_, .i32⟩
  | .hbm, ⟨106, _⟩ => ⟨S160000, .i32⟩
  | .hbm, ⟨107, _⟩ => ⟨S160000, .i32⟩
  | .hbm, ⟨108, _⟩ => ⟨S160000, .i32⟩
  | .hbm, ⟨109, _⟩ => ⟨S160000x1, .i32⟩
  | .hbm, ⟨110, _⟩ => ⟨S160000x256, .f32⟩
  | .hbm, ⟨111, _⟩ => ⟨S_, .i32⟩
  | .hbm, ⟨112, _⟩ => ⟨S160000, .i32⟩
  | .hbm, ⟨113, _⟩ => ⟨S160000, .i1⟩
  | .hbm, ⟨114, _⟩ => ⟨S_, .i32⟩
  | .hbm, ⟨115, _⟩ => ⟨S160000, .i32⟩
  | .hbm, ⟨116, _⟩ => ⟨S160000, .i32⟩
  | .hbm, ⟨117, _⟩ => ⟨S160000, .i32⟩
  | .hbm, ⟨118, _⟩ => ⟨S160000x1, .i32⟩
  | .hbm, ⟨119, _⟩ => ⟨S160000x256, .f32⟩
  | .hbm, ⟨120, _⟩ => ⟨S160000x768, .f32⟩
  | .hbm, ⟨121, _⟩ => ⟨S160000x256, .f32⟩
  | .hbm, ⟨122, _⟩ => ⟨S1x256, .f32⟩
  | .hbm, ⟨123, _⟩ => ⟨S160000x256, .f32⟩
  | .hbm, ⟨124, _⟩ => ⟨S160000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_5 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call3_cst : Ref sig .tc := ⟨.hbm, 84, rfl⟩
abbrev main_call3_v0 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_9 : Ref sig .tc := ⟨.hbm, 102, rfl⟩
abbrev main_v68 : Ref sig .tc := ⟨.hbm, 103, rfl⟩
abbrev main_v69 : Ref sig .tc := ⟨.hbm, 104, rfl⟩
abbrev main_c_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_11 : Ref sig .tc := ⟨.hbm, 111, rfl⟩
abbrev main_v75 : Ref sig .tc := ⟨.hbm, 112, rfl⟩
abbrev main_v76 : Ref sig .tc := ⟨.hbm, 113, rfl⟩
abbrev main_c_12 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  concatenates_S160000x256_S160000x256_S160000x512_d1 : Shape.Concatenates [S160000x256, S160000x256] S160000x512 1
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x256_S10000x768_d1 : Shape.Concatenates [S10000x256, S10000x256, S10000x256] S10000x768 1
  concatenates_S160000x256_S160000x256_S160000x256_S160000x768_d1 : Shape.Concatenates [S160000x256, S160000x256, S160000x256] S160000x768 1
  dot_S10000x256_S256x256_S10000x256_1_0_0_1_n_n_wf : DotDims.WF S10000x256 S256x256 S10000x256 [1] [0] [0] [1] [] []
  dot_S160000x128_S128x256_S160000x256_1_0_0_1_n_n_wf : DotDims.WF S160000x128 S128x256 S160000x256 [1] [0] [0] [1] [] []
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  dot_S160000x512_S512x256_S160000x256_1_0_0_1_n_n_wf : DotDims.WF S160000x512 S512x256 S160000x256 [1] [0] [0] [1] [] []
  scatter_S10000x256_S160000x1_S160000x256_1_0_0_1_wf : ScatterDims.WF S10000x256 S160000x1 S160000x256 [1] [0] [0] 1
  dot_S10000x768_S768x256_S10000x256_1_0_0_1_n_n_wf : DotDims.WF S10000x768 S768x256 S10000x256 [1] [0] [0] [1] [] []
  dot_S160000x768_S768x256_S160000x256_1_0_0_1_n_n_wf : DotDims.WF S160000x768 S768x256 S160000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S160000x128_S128x256_S160000x256_1_0_0_1_n_n : DotDims S160000x128 S128x256 S160000x256 where
  lhsContracting := [1]
  rhsContracting := [0]
  lhsNonContracting := [0]
  rhsNonContracting := [1]
  lhsBatch := []
  rhsBatch := []
  wf := dot_S160000x128_S128x256_S160000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x512_S512x256_S160000x256_1_0_0_1_n_n : DotDims S160000x512 S512x256 S160000x256 where
  lhsContracting := [1]
  rhsContracting := [0]
  lhsNonContracting := [0]
  rhsNonContracting := [1]
  lhsBatch := []
  rhsBatch := []
  wf := dot_S160000x512_S512x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S160000x768_S768x256_S160000x256_1_0_0_1_n_n : DotDims S160000x768 S768x256 S160000x256 where
  lhsContracting := [1]
  rhsContracting := [0]
  lhsNonContracting := [0]
  rhsNonContracting := [1]
  lhsBatch := []
  rhsBatch := []
  wf := dot_S160000x768_S768x256_S160000x256_1_0_0_1_n_n_wf

class Facts : Prop extends Facts₀ where

variable [Facts]
-- ==== Proof.RegionK0.lean ====
/- Region 0 of the program computes the node pre-transform, `relu (x · Wn + bn)` over a grid of 10 points: point `t` reads rows `1000 t … 1000 t + 999` of the 10000 × 256 operand, the whole 256 × 256 weight and the 1 × 256 bias row, and writes the same rows of the 10000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the point's rows at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight: fetched once, its block index never moves, so its buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row: likewise fetched once and never moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_a : Rect S1000x256 := Rect.unit (s := S1000x256) ![0, 0] S1000x256.size inb_S1000x256_S1000x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
abbrev r0_o : Rect S1000x256 := Rect.unit (s := S1000x256) ![0, 0] S1000x256.size inb_S1000x256_S1000x256_0_0

/-! ## What the body leaves in the result's buffer -/

/-- The result's staging buffer after the body: its one store, of the body's arithmetic on the three operands. -/
def out0_3 (x0 : Vec F S1000x256 .f32) (x1 : Vec F S256x256 .f32) (x2 : Vec F S1x256 .f32) : Vec F S1000x256 .f32 :=
  View.canon [⟨r0_o, k0_pay1 (View.ld x0 r0_a) (View.ld x1 r0_w) (View.ld x2 r0_b)⟩]

/-- That store is of the whole buffer, so it covers it. -/
theorem cover0_3 (p0 : Vec F S1000x256 .f32) (y : S1000x256.Idx) :
    ∃ pc ∈ ([⟨r0_o, p0⟩] : List (View.Piece (Elt F) S1000x256 .f32)), y ∈ pc.1.set :=
  View.cover_of_tiled [⟨r0_o, p0⟩] S1000x256.size (by rfl) y

/-! ## The body's triple -/

set_option maxHeartbeats 1000000 in
/-- The body on whole staging memrefs, the operands' at `x0`, `x1`, `x2` and the result's at anything, runs to the
    continuation with the operands' as they were and the result's at `out0_3 x0 x1 x2`. -/
theorem sound_kernel0 (c : Dev nD) (E : Set ℕ) (i : grid0.Coords) (arg0 : Memref sig .tc .vmem S1000x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1000x256 .f32) (harg3 : arg3.IsWhole)
    (x0 : Vec F S1000x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.RegionK1.lean ====
/- Region 1 of the program computes the edge pre-transform, `relu (edge_feat · We + be)` over a grid of 40 points: point `t` reads rows `4000 t … 4000 t + 3999` of the 160000 × 128 operand, the whole 128 × 256 weight and the 1 × 256 bias row, and writes the same rows of the 160000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block: its staging buffer holds the point's rows at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight: fetched once, its block index never moves, so its buffer holds the whole weight at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row: likewise fetched once and never moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole buffer -/

abbrev r1_a : Rect S4000x128 := Rect.unit (s := S4000x128) ![0, 0] S4000x128.size inb_S4000x128_S4000x128_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0
abbrev r1_o : Rect S4000x256 := Rect.unit (s := S4000x256) ![0, 0] S4000x256.size inb_S4000x256_S4000x256_0_0

/-! ## What the body leaves in the result's buffer -/

/-- The result's staging buffer after the body: its one store, of the body's arithmetic on the three operands. -/
def out1_3 (x0 : Vec F S4000x128 .f32) (x1 : Vec F S128x256 .f32) (x2 : Vec F S1x256 .f32) : Vec F S4000x256 .f32 :=
  View.canon [⟨r1_o, k1_pay1 (View.ld x0 r1_a) (View.ld x1 r1_w) (View.ld x2 r1_b)⟩]

/-- That store is of the whole buffer, so it covers it. -/
theorem cover1_3 (p0 : Vec F S4000x256 .f32) (y : S4000x256.Idx) :
    ∃ pc ∈ ([⟨r1_o, p0⟩] : List (View.Piece (Elt F) S4000x256 .f32)), y ∈ pc.1.set :=
  View.cover_of_tiled [⟨r1_o, p0⟩] S4000x256.size (by rfl) y

/-! ## The body's triple -/

set_option maxHeartbeats 1000000 in
/-- The body on whole staging memrefs, the operands' at `x0`, `x1`, `x2` and the result's at anything, runs to the
    continuation with the operands' as they were and the result's at `out1_3 x0 x1 x2`. -/
theorem sound_kernel1 (c : Dev nD) (E : Set ℕ) (i : grid1.Coords) (arg0 : Memref sig .tc .vmem S4000x128 .f32) (harg0 : arg0.IsWhole) (arg1 : Memref sig .tc .vmem S128x256 .f32) (harg1 : arg1.IsWhole) (arg2 : Memref sig .tc .vmem S1x256 .f32) (harg2 : arg2.IsWhole) (arg3 : Memref sig .tc .vmem S4000x256 .f32) (harg3 : arg3.IsWhole)
    (x0 : Vec F S4000x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__matmul_bias_kernel i arg0 harg0 arg1 harg1 arg2 harg2 arg3 harg3) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.RegionK2.lean ====
/- Region 2 of the program computes the predecessor-side messages, `relu ([pre_n[src], pre_e] · Wpa + bpa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block: its staging buffer holds the point's rows at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight: fetched once, its block index never moves, so its buffer holds the whole weight at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row: likewise fetched once and never moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_a : Rect S2000x512 := Rect.unit (s := S2000x512) ![0, 0] S2000x512.size inb_S2000x512_S2000x512_0_0
abbrev r2_w : Rect S512x256 := Rect.unit (s := S512x256) ![0, 0] S512x256.size inb_S512x256_S512x256_0_0
abbrev r2_b : Rect S1x256 := Rect.unit (s := S1x256) ![0, 0] S1x256.size inb_S1x256_S1x256_0_0
abbrev r2_o : Rect S2000x256 := Rect.unit (s := S2000x256) ![0, 0] S2000x256.size inb_S2000x256_S2000x256_0_0

/-! ## What the body leaves in the result's buffer -/

/-- The result's staging buffer after the body: its one store, of the body's arithmetic on the three operands. -/
def out2_3 (x0 : Vec F S2000x512 .f32) (x1 : Vec F S512x256 .f32) (x2 : Vec F S1x256 .f32) : Vec F S2000x256 .f32 :=
  View.canon [⟨r2_o, k2_pay1 (View.ld x0 r2_a) (View.ld x1 r2_w) (View.ld x2 r2_b)⟩]

/-- That store is of the whole buffer, so it covers it. -/
theorem cover2_3 (p0 : Vec F S2000x256 .f32) (y : S2000x256.Idx) :
    ∃ pc ∈ ([⟨r2_o, p0⟩] : List (View.Piece (Elt F) S2000x256 .f32)), y ∈ pc.1.set :=
  View.cover_of_tiled [⟨r2_o, p0⟩] S2000x256.size (by rfl) y

/-! ## The body's triple -/

set_option maxHeartbeats 1000000 in
/-- The body on whole staging memrefs, the operands' at `x0`, `x1`, `x2` and the result's at anything, runs to the
    continuation with the operands' as they were and the result's at `out2_3 x0 x1 x2`. -/
theorem sound_kernel2 (c : Dev nD) (E : Set ℕ) (i : grid2.Coords) (arg0 : Memref sig .tc .vmem S2000x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x512 .f32) (x1 : Vec F S512x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the operands' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.RegionK3.lean ====
/- Region 3 of the program computes the successor-side messages, `relu ([pre_n[dst], pre_e] · Wsa + bsa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block: its staging buffer holds the point's rows at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight: fetched once, its block index never moves, so its buffer holds the whole weight at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row: likewise fetched once and never moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_a : Rect S2000x512 := Rect.unit (s := S2000x512) ![0, 0] S2000x512.size inb_S2000x512_S2000x512_0_0
abbrev r3_w : Rect S512x256 := Rect.unit (s := S512x256) ![0, 0] S512x256.size inb_S512x256_S512x256_0_0
abbrev r3_b : Rect S1x256 := Rect.unit (s := S1x256) ![0, 0] S1x256.size inb_S1x256_S1x256_0_0
abbrev r3_o : Rect S2000x256 := Rect.unit (s := S2000x256) ![0, 0] S2000x256.size inb_S2000x256_S2000x256_0_0

/-! ## What the body leaves in the result's buffer -/

/-- The result's staging buffer after the body: its one store, of the body's arithmetic on the three operands. -/
def out3_3 (x0 : Vec F S2000x512 .f32) (x1 : Vec F S512x256 .f32) (x2 : Vec F S1x256 .f32) : Vec F S2000x256 .f32 :=
  View.canon [⟨r3_o, k3_pay1 (View.ld x0 r3_a) (View.ld x1 r3_w) (View.ld x2 r3_b)⟩]

/-- That store is of the whole buffer, so it covers it. -/
theorem cover3_3 (p0 : Vec F S2000x256 .f32) (y : S2000x256.Idx) :
    ∃ pc ∈ ([⟨r3_o, p0⟩] : List (View.Piece (Elt F) S2000x256 .f32)), y ∈ pc.1.set :=
  View.cover_of_tiled [⟨r3_o, p0⟩] S2000x256.size (by rfl) y

/-! ## The body's triple -/

set_option maxHeartbeats 1000000 in
/-- The body on whole staging memrefs, the operands' at `x0`, `x1`, `x2` and the result's at anything, runs to the
    continuation with the operands' as they were and the result's at `out3_3 x0 x1 x2`. -/
theorem sound_kernel3 (c : Dev nD) (E : Set ℕ) (i : grid3.Coords) (arg0 : Memref sig .tc .vmem S2000x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x512 .f32) (x1 : Vec F S512x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__matmul_bias_kernel i arg0 harg0 arg1 harg1 arg2 harg2 arg3 harg3) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- Its arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the operands' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.RegionK4.lean ====
/- Region 4 of the program computes the node output, `[agg_p, pre_n, agg_s] · Wnt + bnt` (no relu) over a grid of 10 points: point `t` reads rows `1000 t … 1000 t + 999` of the 10000 × 768 operand, the whole 768 × 256 weight and the 1 × 256 bias row, and writes the same rows of the 10000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block: its staging buffer holds the point's rows at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weight: fetched once, its block index never moves, so its buffer holds the whole weight at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The bias row: likewise fetched once and never moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_a : Rect S1000x768 := Rect.unit (s := S1000x768) ![0, 0] S1000x768.size inb_S1000x768_S1000x768_0_0
abbrev r4_w : Rect S768x256 := Rect.unit (s := S768x256) ![0, 0] S768x256.size inb_S768x256_S768x256_0_0
abbrev r4_b : Rect S1x256 := Rect.unit (s := S1x256) ![0, 0] S1x256.size inb_S1x256_S1x256_0_0
abbrev r4_o : Rect S1000x256 := Rect.unit (s := S1000x256) ![0, 0] S1000x256.size inb_S1000x256_S1000x256_0_0

/-! ## What the body leaves in the result's buffer -/

/-- The result's staging buffer after the body: its one store, of the body's arithmetic on the three operands. -/
def out4_3 (x0 : Vec F S1000x768 .f32) (x1 : Vec F S768x256 .f32) (x2 : Vec F S1x256 .f32) : Vec F S1000x256 .f32 :=
  View.canon [⟨r4_o, k4_pay1 (View.ld x0 r4_a) (View.ld x1 r4_w) (View.ld x2 r4_b)⟩]

/-- That store is of the whole buffer, so it covers it. -/
theorem cover4_3 (p0 : Vec F S1000x256 .f32) (y : S1000x256.Idx) :
    ∃ pc ∈ ([⟨r4_o, p0⟩] : List (View.Piece (Elt F) S1000x256 .f32)), y ∈ pc.1.set :=
  View.cover_of_tiled [⟨r4_o, p0⟩] S1000x256.size (by rfl) y

/-! ## The body's triple -/

set_option maxHeartbeats 1000000 in
/-- The body on whole staging memrefs, the operands' at `x0`, `x1`, `x2` and the result's at anything, runs to the
    continuation with the operands' as they were and the result's at `out4_3 x0 x1 x2`. -/
theorem sound_kernel4 (c : Dev nD) (E : Set ℕ) (i : grid4.Coords) (arg0 : Memref sig .tc .vmem S1000x768 .f32) (harg0 : arg0.IsWhole) (arg1 : Memref sig .tc .vmem S768x256 .f32) (harg1 : arg1.IsWhole) (arg2 : Memref sig .tc .vmem S1x256 .f32) (harg2 : arg2.IsWhole) (arg3 : Memref sig .tc .vmem S1000x256 .f32) (harg3 : arg3.IsWhole)
    (x0 : Vec F S1000x768 .f32) (x1 : Vec F S768x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the operands' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.RegionK5.lean ====
/- Region 5 of the program computes the edge output, `[pre_n[src], pre_e, pre_n[dst]] · Wet + bet` (no relu) over a grid of 80 points: point `t` reads rows `2000 t … 2000 t + 1999` of the 160000 × 768 operand, the whole 768 × 256 weight and the 1 × 256 bias row, and writes the same rows of the 160000 × 256 result.
  The text below is region 1's with the names and sizes of this region. -/
import proofs.«139872_j38732015076057_1_alg».proof.Proof.LaunchKernel
import proofs.«139872_j38732015076057_1_alg».proof.Proof.Gen.Kernel.Skeleton
import proofs.«139872_j38732015076057_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block: its staging buffer holds the point's rows at every point, for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weight: fetched once, its block index never moves, so its buffer holds the whole weight at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The bias row: likewise fetched once and never moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_a : Rect S2000x768 := Rect.unit (s := S2000x768) ![0, 0] S2000x768.size inb_S2000x768_S2000x768_0_0
abbrev r5_w : Rect S768x256 := Rect.unit (s := S768x256) ![0, 0] S768x256.size inb_S768x256_S768x256_0_0
abbrev r5_b : Rect S1x256 := Rect.unit (s := S1x256) ![0, 0] S1x256.size inb_S1x256_S1x256_0_0
abbrev r5_o : Rect S2000x256 := Rect.unit (s := S2000x256) ![0, 0] S2000x256.size inb_S2000x256_S2000x256_0_0

/-! ## What the body leaves in the result's buffer -/

/-- The result's staging buffer after the body: its one store, of the body's arithmetic on the three operands. -/
def out5_3 (x0 : Vec F S2000x768 .f32) (x1 : Vec F S768x256 .f32) (x2 : Vec F S1x256 .f32) : Vec F S2000x256 .f32 :=
  View.canon [⟨r5_o, k5_pay1 (View.ld x0 r5_a) (View.ld x1 r5_w) (View.ld x2 r5_b)⟩]

/-- That store is of the whole buffer, so it covers it. -/
theorem cover5_3 (p0 : Vec F S2000x256 .f32) (y : S2000x256.Idx) :
    ∃ pc ∈ ([⟨r5_o, p0⟩] : List (View.Piece (Elt F) S2000x256 .f32)), y ∈ pc.1.set :=
  View.cover_of_tiled [⟨r5_o, p0⟩] S2000x256.size (by rfl) y

/-! ## The body's triple -/

set_option maxHeartbeats 1000000 in
/-- The body on whole staging memrefs, the operands' at `x0`, `x1`, `x2` and the result's at anything, runs to the
    continuation with the operands' as they were and the result's at `out5_3 x0 x1 x2`. -/
theorem sound_kernel5 (c : Dev nD) (E : Set ℕ) (i : grid5.Coords) (arg0 : Memref sig .tc .vmem S2000x768 .f32) (harg0 : arg0.IsWhole) (arg1 : Memref sig .tc .vmem S768x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x768 .f32) (x1 : Vec F S768x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__matmul_bias_kernel i arg0 harg0 arg1 harg1 arg2 harg2 arg3 harg3) K := by
  simp only [cc5__matmul_bias_kernel_eq_skeleton]; unfold cc5__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- Its arrays are the region-entry contents. -/
theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the operands' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.FoldK.lean ====
/- The contents of a core's buffers between the items of the program, as a fold from the launch memory `m`.
  The program is six calls (regions 0 … 5) with a stretch of host operations before each.  `W0` is the launch
  memory; `W(2K+1)` is `W(2K)` after the host stretch before region `K`; `W(2K+2)` is `W(2K+1)` with region `K`'s arrays
  at what the region's grid leaves in them (its three operands as they were, its result at the fold of its blocks'
  write-backs).  `WInK`, `WOutK` (`VInK`, `VOutK` read at a core's references) name region `K`'s entry and exit.

  Two facts carry everything that is later read through the fold: a host stretch changes only the buffers its
  operations write (`W(2K+1)_keep`), and a region changes only its result (`W(2K+2)_keep`: an operand is staged in and
  never written back; any other buffer is not the region's at all).  `pdats` is the six regions' proof data, each at
  its region's entry contents.
-/
import proofs.«139872_j38732015076057_1_alg».proof.Proof.RegionK0
import proofs.«139872_j38732015076057_1_alg».proof.Proof.RegionK1
import proofs.«139872_j38732015076057_1_alg».proof.Proof.RegionK2
import proofs.«139872_j38732015076057_1_alg».proof.Proof.RegionK3
import proofs.«139872_j38732015076057_1_alg».proof.Proof.RegionK4
import proofs.«139872_j38732015076057_1_alg».proof.Proof.RegionK5
import proofs.«139872_j38732015076057_1_alg».proof.Proof.RegionsKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev W0 : Dev nD → Valuation τ sig (Elt F) := fun c b => m ((c : Dev nD), b)

/-! ### Region 0 -/

/-- After the host stretch before region 0: region 0's entry. -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At region 0's exit: its arrays at what its grid leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
abbrev WIn0 : Dev nD → Valuation τ sig (Elt F) := W1 m
abbrev WOut0 : Dev nD → Valuation τ sig (Elt F) := W2 m
abbrev VIn0 : (c : Dev nD) → (b : Ref sig .tc) → Buf (Elt F) ((c : Thread nD τ).loc b) := V1 m
abbrev VOut0 : (c : Dev nD) → (b : Ref sig .tc) → Buf (Elt F) ((c : Thread nD τ).loc b) := V2 m
/-- At the exit each of the region's arrays holds what its grid leaves, and every other buffer what it held at entry. -/
theorem hF0 (c : Dev nD) (w : Fin cfg0.W) : (dat0 (VIn0 m) c).arrAt w cfg0.N = VOut0 m c (Pipeline.arrRef spec0 w) :=
  (W2_arr m c w).symm
theorem hrest0 (c : Dev nD) : ∀ b, b ∉ Finset.univ.image (Pipeline.arrRef spec0) → VOut0 m c b = VIn0 m c b :=
  fun b hb => W2_of_ne m c b fun w e => hb (Finset.mem_image.mpr ⟨w, Finset.mem_univ _, e⟩)
/-- The host stretch before region 0 changes only what its operations write. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h
/-- Region 0 changes only its result `main_v5`: an operand's array ends as it was entered, any other buffer is untouched. -/
theorem W2_keep (c : Dev nD) (b : Ref sig .tc) (hb : b ≠ main_v5) :
    W2 m c (Proc.devRef .tc b) = W1 m c (Proc.devRef .tc b) := by
  by_cases h : ∃ w, Pipeline.arrRef spec0 w = b
  · obtain ⟨w, rfl⟩ := h
    refine (W2_arr m c w).trans ?_
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, _ => exact ((dat0 (V1 m) c).arrAt_in 2 rfl _).trans (A_eq0 (V1 m) c 2)
    | ⟨3, _⟩, hb => exact absurd rfl hb
  · exact W2_of_ne m c b fun w e => h ⟨w, e⟩

/-! ### Region 1 -/

/-- After the host stretch before region 1: region 1's entry. -/
abbrev W3 : Dev nD → Valuation τ sig (Elt F) := fun c => StableHlo.after hostOps1 (W2 m c)
/-- The same read at the core's references. -/
abbrev V3 : (c : Dev nD) → (b : Ref sig .tc) → Buf (Elt F) ((c : Thread nD τ).loc b) := fun c b => W3 m c b
/-- At region 1's exit: its arrays at what its grid leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
abbrev WIn1 : Dev nD → Valuation τ sig (Elt F) := W3 m
abbrev WOut1 : Dev nD → Valuation τ sig (Elt F) := W4 m
abbrev VIn1 : (c : Dev nD) → (b : Ref sig .tc) → Buf (Elt F) ((c : Thread nD τ).loc b) := V3 m
abbrev VOut1 : (c : Dev nD) → (b : Ref sig .tc) → Buf (Elt F) ((c : Thread nD τ).loc b) := V4 m
/-- At the exit each of the region's arrays holds what its grid leaves, and every other buffer what it held at entry. -/
theorem hF1 (c : Dev nD) (w : Fin cfg1.W) : (dat1 (VIn1 m) c).arrAt w cfg1.N = VOut1 m c (Pipeline.arrRef spec1 w) :=
  (W4_arr m c w).symm
theorem hrest1 (c : Dev nD) : ∀ b, b ∉ Finset.univ.image (Pipeline.arrRef spec1) → VOut1 m c b = VIn1 m c b :=
  fun b hb => W4_of_ne m c b fun w e => hb (Finset.mem_image.mpr ⟨w, Finset.mem_univ _, e⟩)
/-- The host stretch before region 1 changes only what its operations write. -/
theorem W3_keep (c : Dev nD) (b : Ref sig .tc) (h : b ∉ hostOps1_W) :
    W3 m c (Proc.devRef .tc b) = W2 m c (Proc.devRef .tc b) :=
  StableHlo.after_of_writes_sub hostOps1 _ hostOps1_writes h
/-- Region 1 changes only its result `main_v7`: an operand's array ends as it was entered, any other buffer is untouched. -/
theorem W4_keep (c : Dev nD) (b : Ref sig .tc) (hb : b ≠ main_v7) :
    W4 m c (Proc.devRef .tc b) = W3 m c (Proc.devRef .tc b) := by
  by_cases h : ∃ w, Pipeline.arrRef spec1 w = b
  · obtain ⟨w, rfl⟩ := h
    refine (W4_arr m c w).trans ?_
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, _ => exact ((dat1 (V3 m) c).arrAt_in 2 rfl _).trans (A_eq1 (V3 m) c 2)
    | ⟨3, _⟩, hb => exact absurd rfl hb
  · exact W4_of_ne m c b fun w e => h ⟨w, e⟩

/-! ### Region 2 -/

/-- After the host stretch before region 2: region 2's entry. -/
abbrev W5 : Dev nD → Valuation τ sig (Elt F) := fun c => StableHlo.after hostOps2 (W4 m c)
/-- The same read at the core's references. -/
abbrev V5 : (c : Dev nD) → (b : Ref sig .tc) → Buf (Elt F) ((c : Thread nD τ).loc b) := fun c b => W5 m c b
/-- At region 2's exit: its arrays at what its grid leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
abbrev WIn2 : Dev nD → Valuation τ sig (Elt F) := W5 m
abbrev WOut2 : Dev nD → Valuation τ sig (Elt F) := W6 m
abbrev VIn2 : (c : Dev nD) → (b : Ref sig .tc) → Buf (Elt F) ((c : Thread nD τ).loc b) := V5 m
abbrev VOut2 : (c : Dev nD) → (b : Ref sig .tc) → Buf (Elt F) ((c : Thread nD τ).loc b) := V6 m
/-- At the exit each of the region's arrays holds what its grid leaves, and every other buffer what it held at entry. -/
theorem hF2 (c : Dev nD) (w : Fin cfg2.W) : (dat2 (VIn2 m) c).arrAt w cfg2.N = VOut2 m c (Pipeline.arrRef spec2 w) :=
  (W6_arr m c w).symm
theorem hrest2 (c : Dev nD) : ∀ b, b ∉ Finset.univ.image (Pipeline.arrRef spec2) → VOut2 m c b = VIn2 m c b :=
  fun b hb => W6_of_ne m c b fun w e => hb (Finset.mem_image.mpr ⟨w, Finset.mem_univ _, e⟩)
/-- The host stretch before region 2 changes only what its operations write. -/
theorem W5_keep (c : Dev nD) (b : Ref sig .tc) (h : b ∉ hostOps2_W) :
    W5 m c (Proc.devRef .tc b) = W4 m c (Proc.devRef .tc b) :=
  StableHlo.after_of_writes_sub hostOps2 _ hostOps2_writes h
/-- Region 2 changes only its result `main_v31`: an operand's array ends as it was entered, any other buffer is untouched. -/
theorem W6_keep (c : Dev nD) (b : Ref sig .tc) (hb : b ≠ main_v31) :
    W6 m c (Proc.devRef .tc b) = W5 m c (Proc.devRef .tc b) := by
  by_cases h : ∃ w, Pipeline.arrRef spec2 w = b
  · obtain ⟨w, rfl⟩ := h
    refine (W6_arr m c w).trans ?_
    match w, hb with
    | ⟨0, _⟩, _ => exact ((dat2 (V5 m) c).arrAt_in 0 rfl _).trans (A_eq2 (V5 m) c 0)
    | ⟨1, _⟩, _ => exact ((dat2 (V5 m) c).arrAt_in 1 rfl _).trans (A_eq2 (V5 m) c 1)
    | ⟨2, _⟩, _ => exact ((dat2 (V5 m) c).arrAt_in 2 rfl _).trans (A_eq2 (V5 m) c 2)
    | ⟨3, _⟩, hb => exact absurd rfl hb
  · exact W6_of_ne m c b fun w e => h ⟨w, e⟩

/-! ### Region 3 -/

/-- After the host stretch before region 3: region 3's entry. -/
abbrev W7 : Dev nD → Valuation τ sig (Elt F) := fun c => StableHlo.after hostOps3 (W6 m c)
/-- The same read at the core's references. -/
abbrev V7 : (c : Dev nD) → (b : Ref sig .tc) → Buf (Elt F) ((c : Thread nD τ).loc b) := fun c b => W7 m c b
/-- At region 3's exit: its arrays at what its grid leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
abbrev WIn3 : Dev nD → Valuation τ sig (Elt F) := W7 m
abbrev WOut3 : Dev nD → Valuation τ sig (Elt F) := W8 m
abbrev VIn3 : (c : Dev nD) → (b : Ref sig .tc) → Buf (Elt F) ((c : Thread nD τ).loc b) := V7 m
abbrev VOut3 : (c : Dev nD) → (b : Ref sig .tc) → Buf (Elt F) ((c : Thread nD τ).loc b) := V8 m
/-- At the exit each of the region's arrays holds what its grid leaves, and every other buffer what it held at entry. -/
theorem hF3 (c : Dev nD) (w : Fin cfg3.W) : (dat3 (VIn3 m) c).arrAt w cfg3.N = VOut3 m c (Pipeline.arrRef spec3 w) :=
  (W8_arr m c w).symm
theorem hrest3 (c : Dev nD) : ∀ b, b ∉ Finset.univ.image (Pipeline.arrRef spec3) → VOut3 m c b = VIn3 m c b :=
  fun b hb => W8_of_ne m c b fun w e => hb (Finset.mem_image.mpr ⟨w, Finset.mem_univ _, e⟩)
/-- The host stretch before region 3 changes only what its operations write. -/
theorem W7_keep (c : Dev nD) (b : Ref sig .tc) (h : b ∉ hostOps3_W) :
    W7 m c (Proc.devRef .tc b) = W6 m c (Proc.devRef .tc b) :=
  StableHlo.after_of_writes_sub hostOps3 _ hostOps3_writes h
/-- Region 3 changes only its result `main_v42`: an operand's array ends as it was entered, any other buffer is untouched. -/
theorem W8_keep (c : Dev nD) (b : Ref sig .tc) (hb : b ≠ main_v42) :
    W8 m c (Proc.devRef .tc b) = W7 m c (Proc.devRef .tc b) := by
  by_cases h : ∃ w, Pipeline.arrRef spec3 w = b
  · obtain ⟨w, rfl⟩ := h
    refine (W8_arr m c w).trans ?_
    match w, hb with
    | ⟨0, _⟩, _ => exact ((dat3 (V7 m) c).arrAt_in 0 rfl _).trans (A_eq3 (V7 m) c 0)
    | ⟨1, _⟩, _ => exact ((dat3 (V7 m) c).arrAt_in 1 rfl _).trans (A_eq3 (V7 m) c 1)
    | ⟨2, _⟩, _ => exact ((dat3 (V7 m) c).arrAt_in 2 rfl _).trans (A_eq3 (V7 m) c 2)
    | ⟨3, _⟩, hb => exact absurd rfl hb
  · exact W8_of_ne m c b fun w e => h ⟨w, e⟩

/-! ### Region 4 -/

/-- After the host stretch before region 4: region 4's entry. -/
abbrev W9 : Dev nD → Valuation τ sig (Elt F) := fun c => StableHlo.after hostOps4 (W8 m c)
/-- The same read at the core's references. -/
abbrev V9 : (c : Dev nD) → (b : Ref sig .tc) → Buf (Elt F) ((c : Thread nD τ).loc b) := fun c b => W9 m c b
/-- At region 4's exit: its arrays at what its grid leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
abbrev WIn4 : Dev nD → Valuation τ sig (Elt F) := W9 m
abbrev WOut4 : Dev nD → Valuation τ sig (Elt F) := W10 m
abbrev VIn4 : (c : Dev nD) → (b : Ref sig .tc) → Buf (Elt F) ((c : Thread nD τ).loc b) := V9 m
abbrev VOut4 : (c : Dev nD) → (b : Ref sig .tc) → Buf (Elt F) ((c : Thread nD τ).loc b) := V10 m
/-- At the exit each of the region's arrays holds what its grid leaves, and every other buffer what it held at entry. -/
theorem hF4 (c : Dev nD) (w : Fin cfg4.W) : (dat4 (VIn4 m) c).arrAt w cfg4.N = VOut4 m c (Pipeline.arrRef spec4 w) :=
  (W10_arr m c w).symm
theorem hrest4 (c : Dev nD) : ∀ b, b ∉ Finset.univ.image (Pipeline.arrRef spec4) → VOut4 m c b = VIn4 m c b :=
  fun b hb => W10_of_ne m c b fun w e => hb (Finset.mem_image.mpr ⟨w, Finset.mem_univ _, e⟩)
/-- The host stretch before region 4 changes only what its operations write. -/
theorem W9_keep (c : Dev nD) (b : Ref sig .tc) (h : b ∉ hostOps4_W) :
    W9 m c (Proc.devRef .tc b) = W8 m c (Proc.devRef .tc b) :=
  StableHlo.after_of_writes_sub hostOps4 _ hostOps4_writes h
/-- Region 4 changes only its result `main_v53`: an operand's array ends as it was entered, any other buffer is untouched. -/
theorem W10_keep (c : Dev nD) (b : Ref sig .tc) (hb : b ≠ main_v53) :
    W10 m c (Proc.devRef .tc b) = W9 m c (Proc.devRef .tc b) := by
  by_cases h : ∃ w, Pipeline.arrRef spec4 w = b
  · obtain ⟨w, rfl⟩ := h
    refine (W10_arr m c w).trans ?_
    match w, hb with
    | ⟨0, _⟩, _ => exact ((dat4 (V9 m) c).arrAt_in 0 rfl _).trans (A_eq4 (V9 m) c 0)
    | ⟨1, _⟩, _ => exact ((dat4 (V9 m) c).arrAt_in 1 rfl _).trans (A_eq4 (V9 m) c 1)
    | ⟨2, _⟩, _ => exact ((dat4 (V9 m) c).arrAt_in 2 rfl _).trans (A_eq4 (V9 m) c 2)
    | ⟨3, _⟩, hb => exact absurd rfl hb
  · exact W10_of_ne m c b fun w e => h ⟨w, e⟩

/-! ### Region 5 -/

/-- After the host stretch before region 5: region 5's entry. -/
abbrev W11 : Dev nD → Valuation τ sig (Elt F) := fun c => StableHlo.after hostOps5 (W10 m c)
/-- The same read at the core's references. -/
abbrev V11 : (c : Dev nD) → (b : Ref sig .tc) → Buf (Elt F) ((c : Thread nD τ).loc b) := fun c b => W11 m c b
/-- At region 5's exit: its arrays at what its grid leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
abbrev WIn5 : Dev nD → Valuation τ sig (Elt F) := W11 m
abbrev WOut5 : Dev nD → Valuation τ sig (Elt F) := W12 m
abbrev VIn5 : (c : Dev nD) → (b : Ref sig .tc) → Buf (Elt F) ((c : Thread nD τ).loc b) := V11 m
abbrev VOut5 : (c : Dev nD) → (b : Ref sig .tc) → Buf (Elt F) ((c : Thread nD τ).loc b) := V12 m
/-- At the exit each of the region's arrays holds what its grid leaves, and every other buffer what it held at entry. -/
theorem hF5 (c : Dev nD) (w : Fin cfg5.W) : (dat5 (VIn5 m) c).arrAt w cfg5.N = VOut5 m c (Pipeline.arrRef spec5 w) :=
  (W12_arr m c w).symm
theorem hrest5 (c : Dev nD) : ∀ b, b ∉ Finset.univ.image (Pipeline.arrRef spec5) → VOut5 m c b = VIn5 m c b :=
  fun b hb => W12_of_ne m c b fun w e => hb (Finset.mem_image.mpr ⟨w, Finset.mem_univ _, e⟩)
/-- The host stretch before region 5 changes only what its operations write. -/
theorem W11_keep (c : Dev nD) (b : Ref sig .tc) (h : b ∉ hostOps5_W) :
    W11 m c (Proc.devRef .tc b) = W10 m c (Proc.devRef .tc b) :=
  StableHlo.after_of_writes_sub hostOps5 _ hostOps5_writes h
/-- Region 5 changes only its result `main_v56`: an operand's array ends as it was entered, any other buffer is untouched. -/
theorem W12_keep (c : Dev nD) (b : Ref sig .tc) (hb : b ≠ main_v56) :
    W12 m c (Proc.devRef .tc b) = W11 m c (Proc.devRef .tc b) := by
  by_cases h : ∃ w, Pipeline.arrRef spec5 w = b
  · obtain ⟨w, rfl⟩ := h
    refine (W12_arr m c w).trans ?_
    match w, hb with
    | ⟨0, _⟩, _ => exact ((dat5 (V11 m) c).arrAt_in 0 rfl _).trans (A_eq5 (V11 m) c 0)
    | ⟨1, _⟩, _ => exact ((dat5 (V11 m) c).arrAt_in 1 rfl _).trans (A_eq5 (V11 m) c 1)
    | ⟨2, _⟩, _ => exact ((dat5 (V11 m) c).arrAt_in 2 rfl _).trans (A_eq5 (V11 m) c 2)
    | ⟨3, _⟩, hb => exact absurd rfl hb
  · exact W12_of_ne m c b fun w e => h ⟨w, e⟩

/-! ## The proof data family and the thread state -/

/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W12`, the generator register at some state. -/
abbrev Tₙ (c : Dev nD) : sProp 𝕄 := iprop(StableHlo.held (c : Thread nD τ) (Pipeline.ucRefs τ sig) (W12 m c) ∗ ∃ r, prngReg c r)

/-! ## What is read through the whole fold -/

/-- A buffer no host stretch writes and that is no region's result ends as launched. -/
theorem W12_untouched (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (o0 : b ≠ main_v5) (o1 : b ≠ main_v7) (o2 : b ≠ main_v31) (o3 : b ≠ main_v42) (o4 : b ≠ main_v53) (o5 : b ≠ main_v56) :
    W12 m c (Proc.devRef .tc b) = m ((c : Thread nD τ).loc b) :=
  (W12_keep m c b o5).trans <| (W11_keep m c b h5).trans <| (W10_keep m c b o4).trans <| (W9_keep m c b h4).trans <|
    (W8_keep m c b o3).trans <| (W7_keep m c b h3).trans <| (W6_keep m c b o2).trans <| (W5_keep m c b h2).trans <|
    (W4_keep m c b o1).trans <| (W3_keep m c b h1).trans <| (W2_keep m c b o0).trans <| (W1_keep m c b h0).trans rfl

end Cert.Kernel.Reg

end
-- ==== Proof.SegK0.lean ====
/- Region 0 of the program computes the node pre-transform, `relu (x · Wn + bn)` over a grid of 10 points: point `t` reads rows `1000 t … 1000 t + 999` of the 10000 × 256 operand, the whole 256 × 256 weight and the 1 × 256 bias row, and writes the same rows of the 10000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn0`, left with them at `WOut0`. -/
def reg0 : Pipeline.RegionSeg (pcfgs (F := F)) adm (pdats m) () defs₀ 𝒱₀ L lv (0 : Fin 6) where
  win := launch0.win.to₀
  block_pos := launch0.block_pos
  stage_whole := launch0.stage_whole
  K := PEmpty
  osem k := k.elim
  ho := Pipeline.OwnSemFacts.none _
  hbody c := (body_obligation0 (VIn0 m) c).loose
  hwaits := Pipeline.hwaits_of_owed_zero _ _ _ _ L lv (0 : Fin 6) fun _ _ => rfl
  pre c := iprop(StableHlo.held (c : Thread nD τ) (Pipeline.ucRefs τ sig) (WIn0 m c) ∗ R c)
  post c := iprop(StableHlo.held (c : Thread nD τ) (Pipeline.ucRefs τ sig) (WOut0 m c) ∗ R c)
  X c := iprop(∃ r, prngReg c r)
  Y c := iprop(∃ r, prngReg c r)
  Z c := Pipeline.unscopedRest (Ix := Unit) (Name := ℕ) (U := UR sig nD τ) (Lvl := ℕ) spec0 c (VIn0 m c)
  hentry c := by
    rw [Pipeline.ownSems0_none]
    have hsplit := Pipeline.arrays_of_unscopedBufs (p := (0 : Fin 6)) (pcfgs (F := F)) adm (pdats m) launch0.win launch0.arr_whole c
      ((pdats m (0 : Fin 6) c).share_full fun _ => rfl) (VIn0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m) ((pdats m (0 : Fin 6) c).share_full fun _ => rfl)
      (VIn0 m c) (VOut0 m c) ((pdats m (0 : Fin 6) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.SegK1.lean ====
/- Region 1 of the program computes the edge pre-transform, `relu (edge_feat · We + be)` over a grid of 40 points: point `t` reads rows `4000 t … 4000 t + 3999` of the 160000 × 128 operand, the whole 128 × 256 weight and the 1 × 256 bias row, and writes the same rows of the 160000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn1`, left with them at `WOut1`. -/
def reg1 : Pipeline.RegionSeg (pcfgs (F := F)) adm (pdats m) () defs₀ 𝒱₀ L lv (1 : Fin 6) where
  win := launch1.win.to₀
  block_pos := launch1.block_pos
  stage_whole := launch1.stage_whole
  K := PEmpty
  osem k := k.elim
  ho := Pipeline.OwnSemFacts.none _
  hbody c := (body_obligation1 (VIn1 m) c).loose
  hwaits := Pipeline.hwaits_of_owed_zero _ _ _ _ L lv (1 : Fin 6) fun _ _ => rfl
  pre c := iprop(StableHlo.held (c : Thread nD τ) (Pipeline.ucRefs τ sig) (WIn1 m c) ∗ R c)
  post c := iprop(StableHlo.held (c : Thread nD τ) (Pipeline.ucRefs τ sig) (WOut1 m c) ∗ R c)
  X c := iprop(∃ r, prngReg c r)
  Y c := iprop(∃ r, prngReg c r)
  Z c := Pipeline.unscopedRest (Ix := Unit) (Name := ℕ) (U := UR sig nD τ) (Lvl := ℕ) spec1 c (VIn1 m c)
  hentry c := by
    rw [Pipeline.ownSems0_none]
    have hsplit := Pipeline.arrays_of_unscopedBufs (p := (1 : Fin 6)) (pcfgs (F := F)) adm (pdats m) launch1.win launch1.arr_whole c
      ((pdats m (1 : Fin 6) c).share_full fun _ => rfl) (VIn1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m) ((pdats m (1 : Fin 6) c).share_full fun _ => rfl)
      (VIn1 m c) (VOut1 m c) ((pdats m (1 : Fin 6) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.SegK2.lean ====
/- Region 2 of the program computes the predecessor-side messages, `relu ([pre_n[src], pre_e] · Wpa + bpa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn2`, left with them at `WOut2`. -/
def reg2 : Pipeline.RegionSeg (pcfgs (F := F)) adm (pdats m) () defs₀ 𝒱₀ L lv (2 : Fin 6) where
  win := launch2.win.to₀
  block_pos := launch2.block_pos
  stage_whole := launch2.stage_whole
  K := PEmpty
  osem k := k.elim
  ho := Pipeline.OwnSemFacts.none _
  hbody c := (body_obligation2 (VIn2 m) c).loose
  hwaits := Pipeline.hwaits_of_owed_zero _ _ _ _ L lv (2 : Fin 6) fun _ _ => rfl
  pre c := iprop(StableHlo.held (c : Thread nD τ) (Pipeline.ucRefs τ sig) (WIn2 m c) ∗ R c)
  post c := iprop(StableHlo.held (c : Thread nD τ) (Pipeline.ucRefs τ sig) (WOut2 m c) ∗ R c)
  X c := iprop(∃ r, prngReg c r)
  Y c := iprop(∃ r, prngReg c r)
  Z c := Pipeline.unscopedRest (Ix := Unit) (Name := ℕ) (U := UR sig nD τ) (Lvl := ℕ) spec2 c (VIn2 m c)
  hentry c := by
    rw [Pipeline.ownSems0_none]
    have hsplit := Pipeline.arrays_of_unscopedBufs (p := (2 : Fin 6)) (pcfgs (F := F)) adm (pdats m) launch2.win launch2.arr_whole c
      ((pdats m (2 : Fin 6) c).share_full fun _ => rfl) (VIn2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m) ((pdats m (2 : Fin 6) c).share_full fun _ => rfl)
      (VIn2 m c) (VOut2 m c) ((pdats m (2 : Fin 6) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.SegK3.lean ====
/- Region 3 of the program computes the successor-side messages, `relu ([pre_n[dst], pre_e] · Wsa + bsa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn3`, left with them at `WOut3`. -/
def reg3 : Pipeline.RegionSeg (pcfgs (F := F)) adm (pdats m) () defs₀ 𝒱₀ L lv (3 : Fin 6) where
  win := launch3.win.to₀
  block_pos := launch3.block_pos
  stage_whole := launch3.stage_whole
  K := PEmpty
  osem k := k.elim
  ho := Pipeline.OwnSemFacts.none _
  hbody c := (body_obligation3 (VIn3 m) c).loose
  hwaits := Pipeline.hwaits_of_owed_zero _ _ _ _ L lv (3 : Fin 6) fun _ _ => rfl
  pre c := iprop(StableHlo.held (c : Thread nD τ) (Pipeline.ucRefs τ sig) (WIn3 m c) ∗ R c)
  post c := iprop(StableHlo.held (c : Thread nD τ) (Pipeline.ucRefs τ sig) (WOut3 m c) ∗ R c)
  X c := iprop(∃ r, prngReg c r)
  Y c := iprop(∃ r, prngReg c r)
  Z c := Pipeline.unscopedRest (Ix := Unit) (Name := ℕ) (U := UR sig nD τ) (Lvl := ℕ) spec3 c (VIn3 m c)
  hentry c := by
    rw [Pipeline.ownSems0_none]
    have hsplit := Pipeline.arrays_of_unscopedBufs (p := (3 : Fin 6)) (pcfgs (F := F)) adm (pdats m) launch3.win launch3.arr_whole c
      ((pdats m (3 : Fin 6) c).share_full fun _ => rfl) (VIn3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m) ((pdats m (3 : Fin 6) c).share_full fun _ => rfl)
      (VIn3 m c) (VOut3 m c) ((pdats m (3 : Fin 6) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.SegK4.lean ====
/- Region 4 of the program computes the node output, `[agg_p, pre_n, agg_s] · Wnt + bnt` (no relu) over a grid of 10 points: point `t` reads rows `1000 t … 1000 t + 999` of the 10000 × 768 operand, the whole 768 × 256 weight and the 1 × 256 bias row, and writes the same rows of the 10000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn4`, left with them at `WOut4`. -/
def reg4 : Pipeline.RegionSeg (pcfgs (F := F)) adm (pdats m) () defs₀ 𝒱₀ L lv (4 : Fin 6) where
  win := launch4.win.to₀
  block_pos := launch4.block_pos
  stage_whole := launch4.stage_whole
  K := PEmpty
  osem k := k.elim
  ho := Pipeline.OwnSemFacts.none _
  hbody c := (body_obligation4 (VIn4 m) c).loose
  hwaits := Pipeline.hwaits_of_owed_zero _ _ _ _ L lv (4 : Fin 6) fun _ _ => rfl
  pre c := iprop(StableHlo.held (c : Thread nD τ) (Pipeline.ucRefs τ sig) (WIn4 m c) ∗ R c)
  post c := iprop(StableHlo.held (c : Thread nD τ) (Pipeline.ucRefs τ sig) (WOut4 m c) ∗ R c)
  X c := iprop(∃ r, prngReg c r)
  Y c := iprop(∃ r, prngReg c r)
  Z c := Pipeline.unscopedRest (Ix := Unit) (Name := ℕ) (U := UR sig nD τ) (Lvl := ℕ) spec4 c (VIn4 m c)
  hentry c := by
    rw [Pipeline.ownSems0_none]
    have hsplit := Pipeline.arrays_of_unscopedBufs (p := (4 : Fin 6)) (pcfgs (F := F)) adm (pdats m) launch4.win launch4.arr_whole c
      ((pdats m (4 : Fin 6) c).share_full fun _ => rfl) (VIn4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m) ((pdats m (4 : Fin 6) c).share_full fun _ => rfl)
      (VIn4 m c) (VOut4 m c) ((pdats m (4 : Fin 6) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.SegK5.lean ====
/- Region 5 of the program computes the edge output, `[pre_n[src], pre_e, pre_n[dst]] · Wet + bet` (no relu) over a grid of 80 points: point `t` reads rows `2000 t … 2000 t + 1999` of the 160000 × 768 operand, the whole 768 × 256 weight and the 1 × 256 bias row, and writes the same rows of the 160000 × 256 result.
  The text below is region 1's with the names and sizes of this region. -/
import proofs.«139872_j38732015076057_1_alg».proof.Proof.FoldK

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn5`, left with them at `WOut5`. -/
def reg5 : Pipeline.RegionSeg (pcfgs (F := F)) adm (pdats m) () defs₀ 𝒱₀ L lv (5 : Fin 6) where
  win := launch5.win.to₀
  block_pos := launch5.block_pos
  stage_whole := launch5.stage_whole
  K := PEmpty
  osem k := k.elim
  ho := Pipeline.OwnSemFacts.none _
  hbody c := (body_obligation5 (VIn5 m) c).loose
  hwaits := Pipeline.hwaits_of_owed_zero _ _ _ _ L lv (5 : Fin 6) fun _ _ => rfl
  pre c := iprop(StableHlo.held (c : Thread nD τ) (Pipeline.ucRefs τ sig) (WIn5 m c) ∗ R c)
  post c := iprop(StableHlo.held (c : Thread nD τ) (Pipeline.ucRefs τ sig) (WOut5 m c) ∗ R c)
  X c := iprop(∃ r, prngReg c r)
  Y c := iprop(∃ r, prngReg c r)
  Z c := Pipeline.unscopedRest (Ix := Unit) (Name := ℕ) (U := UR sig nD τ) (Lvl := ℕ) spec5 c (VIn5 m c)
  hentry c := by
    rw [Pipeline.ownSems0_none]
    have hsplit := Pipeline.arrays_of_unscopedBufs (p := (5 : Fin 6)) (pcfgs (F := F)) adm (pdats m) launch5.win launch5.arr_whole c
      ((pdats m (5 : Fin 6) c).share_full fun _ => rfl) (VIn5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m) ((pdats m (5 : Fin 6) c).share_full fun _ => rfl)
      (VIn5 m c) (VOut5 m c) ((pdats m (5 : Fin 6) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.RunK.lean ====
/- The program's run.  `@main` is twelve items in order: the host stretch before each region, then the region.  Each is
  a segment over the thread state "every unscoped buffer at the fold's contents, the generator register at some state,
  nothing owed"; consecutive segments meet at the fold's next contents.  The launch deals that state at the launch memory,
  and at the end every unscoped buffer is read at the fold's last contents `W12` (`run`).  The frame follows: no host
  operation writes an argument and no region has one as its result, so `W12` holds each argument as launched.
-/
import proofs.«139872_j38732015076057_1_alg».proof.Proof.SegK0
import proofs.«139872_j38732015076057_1_alg».proof.Proof.SegK1
import proofs.«139872_j38732015076057_1_alg».proof.Proof.SegK2
import proofs.«139872_j38732015076057_1_alg».proof.Proof.SegK3
import proofs.«139872_j38732015076057_1_alg».proof.Proof.SegK4
import proofs.«139872_j38732015076057_1_alg».proof.Proof.SegK5

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `@main`'s twelve items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

/-- `@main` is the run of those items. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- From any memory with zero counters every weakly fair execution of `@main` terminates, nothing faulting, and in every
    final state each unscoped buffer of each core holds the fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (WOut5 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- An argument ends as launched: no host stretch writes it and it is no region's result. -/
theorem arg_kept {r : PUnit × MemSt nD τ sig (Elt F)} (h : ∀ c : Dev nD, ∀ b ∈ Pipeline.ucRefs τ sig, r.2.mem (((c : Thread nD τ)).1, b) = W12 m c b)
    (c : Dev nD) (b : Ref sig .tc) (hs : ¬ (Proc.devRef .tc b : DevRef τ sig).isScoped)
    (h0 : b ∉ hostOps0_W) (h1 : b ∉ hostOps1_W) (h2 : b ∉ hostOps2_W) (h3 : b ∉ hostOps3_W) (h4 : b ∉ hostOps4_W) (h5 : b ∉ hostOps5_W)
    (o0 : b ≠ main_v5) (o1 : b ≠ main_v7) (o2 : b ≠ main_v31) (o3 : b ≠ main_v42) (o4 : b ≠ main_v53) (o5 : b ≠ main_v56) :
    r.2.mem ((c.tc : Thread nD τ).loc b) = m ((c.tc : Thread nD τ).loc b) :=
  (h c _ (mem_uc b hs)).trans (W12_untouched m c b h0 h1 h2 h3 h4 h5 o0 o1 o2 o3 o4 o5)

/-- The frame: the run terminates, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨arg_kept m h c main_arg0 (by decide) (by decide) (by decide) (by decide) (by decide) (by decide) (by decide) (by decide) (by decide) (by decide) (by decide) (by decide) (by decide),
     arg_kept m h c main_arg1 (by decide) (by decide) (by decide) (by decide) (by decide) (by decide) (by decide) (by decide) (by decide) (by decide) (by decide) (by decide) (by decide),
     arg_kept m h c main_arg2 (by decide) (by decide) (by decide) (by decide) (by decide) (by decide) (by decide) (by decide) (by decide) (by decide) (by decide) (by decide) (by decide),
     arg_kept m h c main_arg3 (by decide) (by decide) (by decide) (by decide) (by decide) (by decide) (by decide) (by decide) (by decide) (by decide) (by decide) (by decide) (by decide),
     arg_kept m h c main_arg4 (by decide) (by decide) (by decide) (by decide) (by decide) (by decide) (by decide) (by decide) (by decide) (by decide) (by decide) (by decide) (by decide),
     arg_kept m h c main_arg5 (by decide) (by decide) (by decide) (by decide) (by decide) (by decide) (by decide) (by decide) (by decide) (by decide) (by decide) (by decide) (by decide),
     arg_kept m h c main_arg6 (by decide) (by decide) (by decide) (by decide) (by decide) (by decide) (by decide) (by decide) (by decide) (by decide) (by decide) (by decide) (by decide),
     arg_kept m h c main_arg7 (by decide) (by decide) (by decide) (by decide) (by decide) (by decide) (by decide) (by decide) (by decide) (by decide) (by decide) (by decide) (by decide),
     arg_kept m h c main_arg8 (by decide) (by decide) (by decide) (by decide) (by decide) (by decide) (by decide) (by decide) (by decide) (by decide) (by decide) (by decide) (by decide),
     arg_kept m h c main_arg9 (by decide) (by decide) (by decide) (by decide) (by decide) (by decide) (by decide) (by decide) (by decide) (by decide) (by decide) (by decide) (by decide),
     arg_kept m h c main_arg10 (by decide) (by decide) (by decide) (by decide) (by decide) (by decide) (by decide) (by decide) (by decide) (by decide) (by decide) (by decide) (by decide),
     arg_kept m h c main_arg11 (by decide) (by decide) (by decide) (by decide) (by decide) (by decide) (by decide) (by decide) (by decide) (by decide) (by decide) (by decide) (by decide),
     arg_kept m h c main_arg12 (by decide) (by decide) (by decide) (by decide) (by decide) (by decide) (by decide) (by decide) (by decide) (by decide) (by decide) (by decide) (by decide),
     arg_kept m h c main_arg13 (by decide) (by decide) (by decide) (by decide) (by decide) (by decide) (by decide) (by decide) (by decide) (by decide) (by decide) (by decide) (by decide),
     arg_kept m h c main_arg14 (by decide) (by decide) (by decide) (by decide) (by decide) (by decide) (by decide) (by decide) (by decide) (by decide) (by decide) (by decide) (by decide)⟩)
    (run m ρ)

end Cert.Kernel.Reg

end
-- ==== Proof.RegionKI0.lean ====
/- Region 0 of the program computes the node pre-transform, `relu (x · Wn + bn)` over a grid of 10 points: point `t` reads rows `1000 t … 1000 t + 999` of the 10000 × 256 operand, the whole 256 × 256 weight and the 1 × 256 bias row, and writes the same rows of the 10000 × 256 result.
  The text below is region 1's with the names and sizes of this region. -/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block: its staging buffer holds the point's rows at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight: fetched once, its block index never moves, so its buffer holds the whole weight at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row: likewise fetched once and never moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_a : Rect S1000x256 := Rect.unit (s := S1000x256) ![0, 0] S1000x256.size inb_S1000x256_S1000x256_0_0
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
abbrev r0_o : Rect S1000x256 := Rect.unit (s := S1000x256) ![0, 0] S1000x256.size inb_S1000x256_S1000x256_0_0

/-! ## What the body leaves in the result's buffer -/

/-- The result's staging buffer after the body: its one store, of the body's arithmetic on the three operands. -/
def out0_3 (x0 : Vec F S1000x256 .f32) (x1 : Vec F S256x256 .f32) (x2 : Vec F S1x256 .f32) : Vec F S1000x256 .f32 :=
  View.canon [⟨r0_o, k0_pay1 (View.ld x0 r0_a) (View.ld x1 r0_w) (View.ld x2 r0_b)⟩]

/-- That store is of the whole buffer, so it covers it. -/
theorem cover0_3 (p0 : Vec F S1000x256 .f32) (y : S1000x256.Idx) :
    ∃ pc ∈ ([⟨r0_o, p0⟩] : List (View.Piece (Elt F) S1000x256 .f32)), y ∈ pc.1.set :=
  View.cover_of_tiled [⟨r0_o, p0⟩] S1000x256.size (by rfl) y

/-! ## The body's triple -/

set_option maxHeartbeats 1000000 in
/-- The body on whole staging memrefs, the operands' at `x0`, `x1`, `x2` and the result's at anything, runs to the
    continuation with the operands' as they were and the result's at `out0_3 x0 x1 x2`. -/
theorem sound_kernel0 (c : Dev nD) (E : Set ℕ) (i : grid0.Coords) (arg0 : Memref sig .tc .vmem S1000x256 .f32) (harg0 : arg0.IsWhole) (arg1 : Memref sig .tc .vmem S256x256 .f32) (harg1 : arg1.IsWhole) (arg2 : Memref sig .tc .vmem S1x256 .f32) (harg2 : arg2.IsWhole) (arg3 : Memref sig .tc .vmem S1000x256 .f32) (harg3 : arg3.IsWhole)
    (x0 : Vec F S1000x256 .f32) (x1 : Vec F S256x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Its arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.RegionKI1.lean ====
/-
  Region 1 of the program: the call that computes the edge pre-transform, `relu (edge_feat · We + be)`, over a grid of
  40 points.  Point `t` reads rows `4000 t … 4000 t + 3999` of the 160000 × 128 operand, the whole 128 × 256 weight and
  the 1 × 256 bias row, and writes the same rows of the 160000 × 256 result.  Everything here is stated at a parameter
  `V`, the contents of the core's buffers when the region is entered.

  * `iblk1 V c w t` is window `w`'s block at point `t` read off `V`.
  * `out1_3 x0 x1 x2` is what the body leaves in the result's staging buffer when its three operands hold
    `x0`, `x1`, `x2`: the one whole-block store of the body's arithmetic (`k1_pay1`).
  * `sound_kernel1` runs the body: four whole-block loads (the last of the result buffer, unused) and that one store.
  * `dat1 V c` is the pipeline's proof data: the arrays as `V` has them, each operand's buffer left at its block,
    the result's at `out1_3` of the three blocks; nothing owed, full shares.
  * `body_obligation1` is the obligation at every point.
-/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block: its staging buffer holds the point's rows at every point, for any proof data whose array is `V`'s and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight: fetched once, its block index never moves, so its buffer holds the whole weight at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias row: likewise fetched once and never moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is a whole buffer -/

abbrev r1_a : Rect S4000x128 := Rect.unit (s := S4000x128) ![0, 0] S4000x128.size inb_S4000x128_S4000x128_0_0
abbrev r1_w : Rect S128x256 := Rect.unit (s := S128x256) ![0, 0] S128x256.size inb_S128x256_S128x256_0_0
abbrev r1_b : Rect S1x256 := Rect.unit (s := S1x256) ![0, 0] S1x256.size inb_S1x256_S1x256_0_0
abbrev r1_o : Rect S4000x256 := Rect.unit (s := S4000x256) ![0, 0] S4000x256.size inb_S4000x256_S4000x256_0_0

/-! ## What the body leaves in the result's buffer -/

/-- The result's staging buffer after the body: its one store, of the body's arithmetic on the three operands. -/
def out1_3 (x0 : Vec F S4000x128 .f32) (x1 : Vec F S128x256 .f32) (x2 : Vec F S1x256 .f32) : Vec F S4000x256 .f32 :=
  View.canon [⟨r1_o, k1_pay1 (View.ld x0 r1_a) (View.ld x1 r1_w) (View.ld x2 r1_b)⟩]

/-- That store is of the whole buffer, so it covers it. -/
theorem cover1_3 (p0 : Vec F S4000x256 .f32) (y : S4000x256.Idx) :
    ∃ pc ∈ ([⟨r1_o, p0⟩] : List (View.Piece (Elt F) S4000x256 .f32)), y ∈ pc.1.set :=
  View.cover_of_tiled [⟨r1_o, p0⟩] S4000x256.size (by rfl) y

/-! ## The body's triple -/

set_option maxHeartbeats 1000000 in
/-- The body on whole staging memrefs, the operands' at `x0`, `x1`, `x2` and the result's at anything, runs to the
    continuation with the operands' as they were and the result's at `out1_3 x0 x1 x2`. -/
theorem sound_kernel1 (c : Dev nD) (E : Set ℕ) (i : grid1.Coords) (arg0 : Memref sig .tc .vmem S4000x128 .f32) (harg0 : arg0.IsWhole) (arg1 : Memref sig .tc .vmem S128x256 .f32) (harg1 : arg1.IsWhole) (arg2 : Memref sig .tc .vmem S1x256 .f32) (harg2 : arg2.IsWhole) (arg3 : Memref sig .tc .vmem S4000x256 .f32) (harg3 : arg3.IsWhole)
    (x0 : Vec F S4000x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__matmul_bias_kernel i arg0 harg0 arg1 harg1 arg2 harg2 arg3 harg3) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of this pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Its arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.RegionKI2.lean ====
/- Region 2 of the program computes the predecessor-side messages, `relu ([pre_n[src], pre_e] · Wpa + bpa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block: its staging buffer holds the point's rows at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight: fetched once, its block index never moves, so its buffer holds the whole weight at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row: likewise fetched once and never moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_a : Rect S2000x512 := Rect.unit (s := S2000x512) ![0, 0] S2000x512.size inb_S2000x512_S2000x512_0_0
abbrev r2_w : Rect S512x256 := Rect.unit (s := S512x256) ![0, 0] S512x256.size inb_S512x256_S512x256_0_0
abbrev r2_b : Rect S1x256 := Rect.unit (s := S1x256) ![0, 0] S1x256.size inb_S1x256_S1x256_0_0
abbrev r2_o : Rect S2000x256 := Rect.unit (s := S2000x256) ![0, 0] S2000x256.size inb_S2000x256_S2000x256_0_0

/-! ## What the body leaves in the result's buffer -/

/-- The result's staging buffer after the body: its one store, of the body's arithmetic on the three operands. -/
def out2_3 (x0 : Vec F S2000x512 .f32) (x1 : Vec F S512x256 .f32) (x2 : Vec F S1x256 .f32) : Vec F S2000x256 .f32 :=
  View.canon [⟨r2_o, k2_pay1 (View.ld x0 r2_a) (View.ld x1 r2_w) (View.ld x2 r2_b)⟩]

/-- That store is of the whole buffer, so it covers it. -/
theorem cover2_3 (p0 : Vec F S2000x256 .f32) (y : S2000x256.Idx) :
    ∃ pc ∈ ([⟨r2_o, p0⟩] : List (View.Piece (Elt F) S2000x256 .f32)), y ∈ pc.1.set :=
  View.cover_of_tiled [⟨r2_o, p0⟩] S2000x256.size (by rfl) y

/-! ## The body's triple -/

set_option maxHeartbeats 1000000 in
/-- The body on whole staging memrefs, the operands' at `x0`, `x1`, `x2` and the result's at anything, runs to the
    continuation with the operands' as they were and the result's at `out2_3 x0 x1 x2`. -/
theorem sound_kernel2 (c : Dev nD) (E : Set ℕ) (i : grid2.Coords) (arg0 : Memref sig .tc .vmem S2000x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x512 .f32) (x1 : Vec F S512x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the operands' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.RegionKI3.lean ====
/- Region 3 of the program computes the successor-side messages, `relu ([pre_n[dst], pre_e] · Wsa + bsa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block: its staging buffer holds the point's rows at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight: fetched once, its block index never moves, so its buffer holds the whole weight at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row: likewise fetched once and never moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is a whole buffer -/

abbrev r3_a : Rect S2000x512 := Rect.unit (s := S2000x512) ![0, 0] S2000x512.size inb_S2000x512_S2000x512_0_0
abbrev r3_w : Rect S512x256 := Rect.unit (s := S512x256) ![0, 0] S512x256.size inb_S512x256_S512x256_0_0
abbrev r3_b : Rect S1x256 := Rect.unit (s := S1x256) ![0, 0] S1x256.size inb_S1x256_S1x256_0_0
abbrev r3_o : Rect S2000x256 := Rect.unit (s := S2000x256) ![0, 0] S2000x256.size inb_S2000x256_S2000x256_0_0

/-! ## What the body leaves in the result's buffer -/

/-- The result's staging buffer after the body: its one store, of the body's arithmetic on the three operands. -/
def out3_3 (x0 : Vec F S2000x512 .f32) (x1 : Vec F S512x256 .f32) (x2 : Vec F S1x256 .f32) : Vec F S2000x256 .f32 :=
  View.canon [⟨r3_o, k3_pay1 (View.ld x0 r3_a) (View.ld x1 r3_w) (View.ld x2 r3_b)⟩]

/-- That store is of the whole buffer, so it covers it. -/
theorem cover3_3 (p0 : Vec F S2000x256 .f32) (y : S2000x256.Idx) :
    ∃ pc ∈ ([⟨r3_o, p0⟩] : List (View.Piece (Elt F) S2000x256 .f32)), y ∈ pc.1.set :=
  View.cover_of_tiled [⟨r3_o, p0⟩] S2000x256.size (by rfl) y

/-! ## The body's triple -/

set_option maxHeartbeats 1000000 in
/-- The body on whole staging memrefs, the operands' at `x0`, `x1`, `x2` and the result's at anything, runs to the
    continuation with the operands' as they were and the result's at `out3_3 x0 x1 x2`. -/
theorem sound_kernel3 (c : Dev nD) (E : Set ℕ) (i : grid3.Coords) (arg0 : Memref sig .tc .vmem S2000x512 .f32) (harg0 : arg0.IsWhole) (arg1 : Memref sig .tc .vmem S512x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x512 .f32) (x1 : Vec F S512x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__matmul_bias_kernel i arg0 harg0 arg1 harg1 arg2 harg2 arg3 harg3) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- Its arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the operands' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.RegionKI4.lean ====
/- Region 4 of the program computes the node output, `[agg_p, pre_n, agg_s] · Wnt + bnt` (no relu) over a grid of 10 points: point `t` reads rows `1000 t … 1000 t + 999` of the 10000 × 768 operand, the whole 768 × 256 weight and the 1 × 256 bias row, and writes the same rows of the 10000 × 256 result.
  The text below is region 1's with the names and sizes of this region. -/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block: its staging buffer holds the point's rows at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The weight: fetched once, its block index never moves, so its buffer holds the whole weight at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The bias row: likewise fetched once and never moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is a whole buffer -/

abbrev r4_a : Rect S1000x768 := Rect.unit (s := S1000x768) ![0, 0] S1000x768.size inb_S1000x768_S1000x768_0_0
abbrev r4_w : Rect S768x256 := Rect.unit (s := S768x256) ![0, 0] S768x256.size inb_S768x256_S768x256_0_0
abbrev r4_b : Rect S1x256 := Rect.unit (s := S1x256) ![0, 0] S1x256.size inb_S1x256_S1x256_0_0
abbrev r4_o : Rect S1000x256 := Rect.unit (s := S1000x256) ![0, 0] S1000x256.size inb_S1000x256_S1000x256_0_0

/-! ## What the body leaves in the result's buffer -/

/-- The result's staging buffer after the body: its one store, of the body's arithmetic on the three operands. -/
def out4_3 (x0 : Vec F S1000x768 .f32) (x1 : Vec F S768x256 .f32) (x2 : Vec F S1x256 .f32) : Vec F S1000x256 .f32 :=
  View.canon [⟨r4_o, k4_pay1 (View.ld x0 r4_a) (View.ld x1 r4_w) (View.ld x2 r4_b)⟩]

/-- That store is of the whole buffer, so it covers it. -/
theorem cover4_3 (p0 : Vec F S1000x256 .f32) (y : S1000x256.Idx) :
    ∃ pc ∈ ([⟨r4_o, p0⟩] : List (View.Piece (Elt F) S1000x256 .f32)), y ∈ pc.1.set :=
  View.cover_of_tiled [⟨r4_o, p0⟩] S1000x256.size (by rfl) y

/-! ## The body's triple -/

set_option maxHeartbeats 1000000 in
/-- The body on whole staging memrefs, the operands' at `x0`, `x1`, `x2` and the result's at anything, runs to the
    continuation with the operands' as they were and the result's at `out4_3 x0 x1 x2`. -/
theorem sound_kernel4 (c : Dev nD) (E : Set ℕ) (i : grid4.Coords) (arg0 : Memref sig .tc .vmem S1000x768 .f32) (harg0 : arg0.IsWhole) (arg1 : Memref sig .tc .vmem S768x256 .f32) (harg1 : arg1.IsWhole) (arg2 : Memref sig .tc .vmem S1x256 .f32) (harg2 : arg2.IsWhole) (arg3 : Memref sig .tc .vmem S1000x256 .f32) (harg3 : arg3.IsWhole)
    (x0 : Vec F S1000x768 .f32) (x1 : Vec F S768x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__matmul_bias_kernel i arg0 harg0 arg1 harg1 arg2 harg2 arg3 harg3) K := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the operands' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.RegionKI5.lean ====
/- Region 5 of the program computes the edge output, `[pre_n[src], pre_e, pre_n[dst]] · Wet + bet` (no relu) over a grid of 80 points: point `t` reads rows `2000 t … 2000 t + 1999` of the 160000 × 768 operand, the whole 768 × 256 weight and the 1 × 256 bias row, and writes the same rows of the 160000 × 256 result.
  The text below is region 1's with the names and sizes of this region. -/
import proofs.«139872_j38732015076057_1_alg».proof.Proof.LaunchKernelIdeal
import proofs.«139872_j38732015076057_1_alg».proof.Proof.Gen.KernelIdeal.Skeleton
import proofs.«139872_j38732015076057_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block: its staging buffer holds the point's rows at every point, for any proof data whose array is `V`'s and
    whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The weight: fetched once, its block index never moves, so its buffer holds the whole weight at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The bias row: likewise fetched once and never moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_a : Rect S2000x768 := Rect.unit (s := S2000x768) ![0, 0] S2000x768.size inb_S2000x768_S2000x768_0_0
abbrev r5_w : Rect S768x256 := Rect.unit (s := S768x256) ![0, 0] S768x256.size inb_S768x256_S768x256_0_0
abbrev r5_b : Rect S1x256 := Rect.unit (s := S1x256) ![0, 0] S1x256.size inb_S1x256_S1x256_0_0
abbrev r5_o : Rect S2000x256 := Rect.unit (s := S2000x256) ![0, 0] S2000x256.size inb_S2000x256_S2000x256_0_0

/-! ## What the body leaves in the result's buffer -/

/-- The result's staging buffer after the body: its one store, of the body's arithmetic on the three operands. -/
def out5_3 (x0 : Vec F S2000x768 .f32) (x1 : Vec F S768x256 .f32) (x2 : Vec F S1x256 .f32) : Vec F S2000x256 .f32 :=
  View.canon [⟨r5_o, k5_pay1 (View.ld x0 r5_a) (View.ld x1 r5_w) (View.ld x2 r5_b)⟩]

/-- That store is of the whole buffer, so it covers it. -/
theorem cover5_3 (p0 : Vec F S2000x256 .f32) (y : S2000x256.Idx) :
    ∃ pc ∈ ([⟨r5_o, p0⟩] : List (View.Piece (Elt F) S2000x256 .f32)), y ∈ pc.1.set :=
  View.cover_of_tiled [⟨r5_o, p0⟩] S2000x256.size (by rfl) y

/-! ## The body's triple -/

set_option maxHeartbeats 1000000 in
/-- The body on whole staging memrefs, the operands' at `x0`, `x1`, `x2` and the result's at anything, runs to the
    continuation with the operands' as they were and the result's at `out5_3 x0 x1 x2`. -/
theorem sound_kernel5 (c : Dev nD) (E : Set ℕ) (i : grid5.Coords) (arg0 : Memref sig .tc .vmem S2000x768 .f32) (harg0 : arg0.IsWhole) (arg1 : Memref sig .tc .vmem S768x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x768 .f32) (x1 : Vec F S768x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__matmul_bias_kernel i arg0 harg0 arg1 harg1 arg2 harg2 arg3 harg3) K := by
  simp only [cc5__matmul_bias_kernel_eq_skeleton]; unfold cc5__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of this pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- Its arrays are the region-entry contents. -/
theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the operands' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.FoldKI.lean ====
/- The contents of a core's buffers between the items of the program, as a fold from the launch memory `m`.
  The program is six calls (regions 0 … 5) with a stretch of host operations before each.  `W0` is the launch
  memory; `W(2K+1)` is `W(2K)` after the host stretch before region `K`; `W(2K+2)` is `W(2K+1)` with region `K`'s arrays
  at what the region's grid leaves in them (its three operands as they were, its result at the fold of its blocks'
  write-backs).  `WInK`, `WOutK` (`VInK`, `VOutK` read at a core's references) name region `K`'s entry and exit.

  Two facts carry everything that is later read through the fold: a host stretch changes only the buffers its
  operations write (`W(2K+1)_keep`), and a region changes only its result (`W(2K+2)_keep`: an operand is staged in and
  never written back; any other buffer is not the region's at all).  `pdats` is the six regions' proof data, each at
  its region's entry contents.
-/
import proofs.«139872_j38732015076057_1_alg».proof.Proof.RegionKI0
import proofs.«139872_j38732015076057_1_alg».proof.Proof.RegionKI1
import proofs.«139872_j38732015076057_1_alg».proof.Proof.RegionKI2
import proofs.«139872_j38732015076057_1_alg».proof.Proof.RegionKI3
import proofs.«139872_j38732015076057_1_alg».proof.Proof.RegionKI4
import proofs.«139872_j38732015076057_1_alg».proof.Proof.RegionKI5
import proofs.«139872_j38732015076057_1_alg».proof.Proof.RegionsKernelIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The fold -/

/-- Core `c`'s buffers at launch. -/
abbrev W0 : Dev nD → Valuation τ sig (Elt F) := fun c b => m ((c : Dev nD), b)

/-! ### Region 0 -/

/-- After the host stretch before region 0: region 0's entry. -/
abbrev W1 : Dev nD → Valuation τ sig (Elt F) := fun c => StableHlo.after hostOps0 (W0 m c)
/-- The same read at the core's references. -/
abbrev V1 : (c : Dev nD) → (b : Ref sig .tc) → Buf (Elt F) ((c : Thread nD τ).loc b) := fun c b => W1 m c b
/-- At region 0's exit: its arrays at what its grid leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
abbrev WIn0 : Dev nD → Valuation τ sig (Elt F) := W1 m
abbrev WOut0 : Dev nD → Valuation τ sig (Elt F) := W2 m
abbrev VIn0 : (c : Dev nD) → (b : Ref sig .tc) → Buf (Elt F) ((c : Thread nD τ).loc b) := V1 m
abbrev VOut0 : (c : Dev nD) → (b : Ref sig .tc) → Buf (Elt F) ((c : Thread nD τ).loc b) := V2 m
/-- At the exit each of the region's arrays holds what its grid leaves, and every other buffer what it held at entry. -/
theorem hF0 (c : Dev nD) (w : Fin cfg0.W) : (dat0 (VIn0 m) c).arrAt w cfg0.N = VOut0 m c (Pipeline.arrRef spec0 w) :=
  (W2_arr m c w).symm
theorem hrest0 (c : Dev nD) : ∀ b, b ∉ Finset.univ.image (Pipeline.arrRef spec0) → VOut0 m c b = VIn0 m c b :=
  fun b hb => W2_of_ne m c b fun w e => hb (Finset.mem_image.mpr ⟨w, Finset.mem_univ _, e⟩)
/-- The host stretch before region 0 changes only what its operations write. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h
/-- Region 0 changes only its result `main_v5`: an operand's array ends as it was entered, any other buffer is untouched. -/
theorem W2_keep (c : Dev nD) (b : Ref sig .tc) (hb : b ≠ main_v5) :
    W2 m c (Proc.devRef .tc b) = W1 m c (Proc.devRef .tc b) := by
  by_cases h : ∃ w, Pipeline.arrRef spec0 w = b
  · obtain ⟨w, rfl⟩ := h
    refine (W2_arr m c w).trans ?_
    match w, hb with
    | ⟨0, _⟩, _ => exact ((dat0 (V1 m) c).arrAt_in 0 rfl _).trans (A_eq0 (V1 m) c 0)
    | ⟨1, _⟩, _ => exact ((dat0 (V1 m) c).arrAt_in 1 rfl _).trans (A_eq0 (V1 m) c 1)
    | ⟨2, _⟩, _ => exact ((dat0 (V1 m) c).arrAt_in 2 rfl _).trans (A_eq0 (V1 m) c 2)
    | ⟨3, _⟩, hb => exact absurd rfl hb
  · exact W2_of_ne m c b fun w e => h ⟨w, e⟩

/-! ### Region 1 -/

/-- After the host stretch before region 1: region 1's entry. -/
abbrev W3 : Dev nD → Valuation τ sig (Elt F) := fun c => StableHlo.after hostOps1 (W2 m c)
/-- The same read at the core's references. -/
abbrev V3 : (c : Dev nD) → (b : Ref sig .tc) → Buf (Elt F) ((c : Thread nD τ).loc b) := fun c b => W3 m c b
/-- At region 1's exit: its arrays at what its grid leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
abbrev WIn1 : Dev nD → Valuation τ sig (Elt F) := W3 m
abbrev WOut1 : Dev nD → Valuation τ sig (Elt F) := W4 m
abbrev VIn1 : (c : Dev nD) → (b : Ref sig .tc) → Buf (Elt F) ((c : Thread nD τ).loc b) := V3 m
abbrev VOut1 : (c : Dev nD) → (b : Ref sig .tc) → Buf (Elt F) ((c : Thread nD τ).loc b) := V4 m
/-- At the exit each of the region's arrays holds what its grid leaves, and every other buffer what it held at entry. -/
theorem hF1 (c : Dev nD) (w : Fin cfg1.W) : (dat1 (VIn1 m) c).arrAt w cfg1.N = VOut1 m c (Pipeline.arrRef spec1 w) :=
  (W4_arr m c w).symm
theorem hrest1 (c : Dev nD) : ∀ b, b ∉ Finset.univ.image (Pipeline.arrRef spec1) → VOut1 m c b = VIn1 m c b :=
  fun b hb => W4_of_ne m c b fun w e => hb (Finset.mem_image.mpr ⟨w, Finset.mem_univ _, e⟩)
/-- The host stretch before region 1 changes only what its operations write. -/
theorem W3_keep (c : Dev nD) (b : Ref sig .tc) (h : b ∉ hostOps1_W) :
    W3 m c (Proc.devRef .tc b) = W2 m c (Proc.devRef .tc b) :=
  StableHlo.after_of_writes_sub hostOps1 _ hostOps1_writes h
/-- Region 1 changes only its result `main_v7`: an operand's array ends as it was entered, any other buffer is untouched. -/
theorem W4_keep (c : Dev nD) (b : Ref sig .tc) (hb : b ≠ main_v7) :
    W4 m c (Proc.devRef .tc b) = W3 m c (Proc.devRef .tc b) := by
  by_cases h : ∃ w, Pipeline.arrRef spec1 w = b
  · obtain ⟨w, rfl⟩ := h
    refine (W4_arr m c w).trans ?_
    match w, hb with
    | ⟨0, _⟩, _ => exact ((dat1 (V3 m) c).arrAt_in 0 rfl _).trans (A_eq1 (V3 m) c 0)
    | ⟨1, _⟩, _ => exact ((dat1 (V3 m) c).arrAt_in 1 rfl _).trans (A_eq1 (V3 m) c 1)
    | ⟨2, _⟩, _ => exact ((dat1 (V3 m) c).arrAt_in 2 rfl _).trans (A_eq1 (V3 m) c 2)
    | ⟨3, _⟩, hb => exact absurd rfl hb
  · exact W4_of_ne m c b fun w e => h ⟨w, e⟩

/-! ### Region 2 -/

/-- After the host stretch before region 2: region 2's entry. -/
abbrev W5 : Dev nD → Valuation τ sig (Elt F) := fun c => StableHlo.after hostOps2 (W4 m c)
/-- The same read at the core's references. -/
abbrev V5 : (c : Dev nD) → (b : Ref sig .tc) → Buf (Elt F) ((c : Thread nD τ).loc b) := fun c b => W5 m c b
/-- At region 2's exit: its arrays at what its grid leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
abbrev WIn2 : Dev nD → Valuation τ sig (Elt F) := W5 m
abbrev WOut2 : Dev nD → Valuation τ sig (Elt F) := W6 m
abbrev VIn2 : (c : Dev nD) → (b : Ref sig .tc) → Buf (Elt F) ((c : Thread nD τ).loc b) := V5 m
abbrev VOut2 : (c : Dev nD) → (b : Ref sig .tc) → Buf (Elt F) ((c : Thread nD τ).loc b) := V6 m
/-- At the exit each of the region's arrays holds what its grid leaves, and every other buffer what it held at entry. -/
theorem hF2 (c : Dev nD) (w : Fin cfg2.W) : (dat2 (VIn2 m) c).arrAt w cfg2.N = VOut2 m c (Pipeline.arrRef spec2 w) :=
  (W6_arr m c w).symm
theorem hrest2 (c : Dev nD) : ∀ b, b ∉ Finset.univ.image (Pipeline.arrRef spec2) → VOut2 m c b = VIn2 m c b :=
  fun b hb => W6_of_ne m c b fun w e => hb (Finset.mem_image.mpr ⟨w, Finset.mem_univ _, e⟩)
/-- The host stretch before region 2 changes only what its operations write. -/
theorem W5_keep (c : Dev nD) (b : Ref sig .tc) (h : b ∉ hostOps2_W) :
    W5 m c (Proc.devRef .tc b) = W4 m c (Proc.devRef .tc b) :=
  StableHlo.after_of_writes_sub hostOps2 _ hostOps2_writes h
/-- Region 2 changes only its result `main_v31`: an operand's array ends as it was entered, any other buffer is untouched. -/
theorem W6_keep (c : Dev nD) (b : Ref sig .tc) (hb : b ≠ main_v31) :
    W6 m c (Proc.devRef .tc b) = W5 m c (Proc.devRef .tc b) := by
  by_cases h : ∃ w, Pipeline.arrRef spec2 w = b
  · obtain ⟨w, rfl⟩ := h
    refine (W6_arr m c w).trans ?_
    match w, hb with
    | ⟨0, _⟩, _ => exact ((dat2 (V5 m) c).arrAt_in 0 rfl _).trans (A_eq2 (V5 m) c 0)
    | ⟨1, _⟩, _ => exact ((dat2 (V5 m) c).arrAt_in 1 rfl _).trans (A_eq2 (V5 m) c 1)
    | ⟨2, _⟩, _ => exact ((dat2 (V5 m) c).arrAt_in 2 rfl _).trans (A_eq2 (V5 m) c 2)
    | ⟨3, _⟩, hb => exact absurd rfl hb
  · exact W6_of_ne m c b fun w e => h ⟨w, e⟩

/-! ### Region 3 -/

/-- After the host stretch before region 3: region 3's entry. -/
abbrev W7 : Dev nD → Valuation τ sig (Elt F) := fun c => StableHlo.after hostOps3 (W6 m c)
/-- The same read at the core's references. -/
abbrev V7 : (c : Dev nD) → (b : Ref sig .tc) → Buf (Elt F) ((c : Thread nD τ).loc b) := fun c b => W7 m c b
/-- At region 3's exit: its arrays at what its grid leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
abbrev WIn3 : Dev nD → Valuation τ sig (Elt F) := W7 m
abbrev WOut3 : Dev nD → Valuation τ sig (Elt F) := W8 m
abbrev VIn3 : (c : Dev nD) → (b : Ref sig .tc) → Buf (Elt F) ((c : Thread nD τ).loc b) := V7 m
abbrev VOut3 : (c : Dev nD) → (b : Ref sig .tc) → Buf (Elt F) ((c : Thread nD τ).loc b) := V8 m
/-- At the exit each of the region's arrays holds what its grid leaves, and every other buffer what it held at entry. -/
theorem hF3 (c : Dev nD) (w : Fin cfg3.W) : (dat3 (VIn3 m) c).arrAt w cfg3.N = VOut3 m c (Pipeline.arrRef spec3 w) :=
  (W8_arr m c w).symm
theorem hrest3 (c : Dev nD) : ∀ b, b ∉ Finset.univ.image (Pipeline.arrRef spec3) → VOut3 m c b = VIn3 m c b :=
  fun b hb => W8_of_ne m c b fun w e => hb (Finset.mem_image.mpr ⟨w, Finset.mem_univ _, e⟩)
/-- The host stretch before region 3 changes only what its operations write. -/
theorem W7_keep (c : Dev nD) (b : Ref sig .tc) (h : b ∉ hostOps3_W) :
    W7 m c (Proc.devRef .tc b) = W6 m c (Proc.devRef .tc b) :=
  StableHlo.after_of_writes_sub hostOps3 _ hostOps3_writes h
/-- Region 3 changes only its result `main_v42`: an operand's array ends as it was entered, any other buffer is untouched. -/
theorem W8_keep (c : Dev nD) (b : Ref sig .tc) (hb : b ≠ main_v42) :
    W8 m c (Proc.devRef .tc b) = W7 m c (Proc.devRef .tc b) := by
  by_cases h : ∃ w, Pipeline.arrRef spec3 w = b
  · obtain ⟨w, rfl⟩ := h
    refine (W8_arr m c w).trans ?_
    match w, hb with
    | ⟨0, _⟩, _ => exact ((dat3 (V7 m) c).arrAt_in 0 rfl _).trans (A_eq3 (V7 m) c 0)
    | ⟨1, _⟩, _ => exact ((dat3 (V7 m) c).arrAt_in 1 rfl _).trans (A_eq3 (V7 m) c 1)
    | ⟨2, _⟩, _ => exact ((dat3 (V7 m) c).arrAt_in 2 rfl _).trans (A_eq3 (V7 m) c 2)
    | ⟨3, _⟩, hb => exact absurd rfl hb
  · exact W8_of_ne m c b fun w e => h ⟨w, e⟩

/-! ### Region 4 -/

/-- After the host stretch before region 4: region 4's entry. -/
abbrev W9 : Dev nD → Valuation τ sig (Elt F) := fun c => StableHlo.after hostOps4 (W8 m c)
/-- The same read at the core's references. -/
abbrev V9 : (c : Dev nD) → (b : Ref sig .tc) → Buf (Elt F) ((c : Thread nD τ).loc b) := fun c b => W9 m c b
/-- At region 4's exit: its arrays at what its grid leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
abbrev WIn4 : Dev nD → Valuation τ sig (Elt F) := W9 m
abbrev WOut4 : Dev nD → Valuation τ sig (Elt F) := W10 m
abbrev VIn4 : (c : Dev nD) → (b : Ref sig .tc) → Buf (Elt F) ((c : Thread nD τ).loc b) := V9 m
abbrev VOut4 : (c : Dev nD) → (b : Ref sig .tc) → Buf (Elt F) ((c : Thread nD τ).loc b) := V10 m
/-- At the exit each of the region's arrays holds what its grid leaves, and every other buffer what it held at entry. -/
theorem hF4 (c : Dev nD) (w : Fin cfg4.W) : (dat4 (VIn4 m) c).arrAt w cfg4.N = VOut4 m c (Pipeline.arrRef spec4 w) :=
  (W10_arr m c w).symm
theorem hrest4 (c : Dev nD) : ∀ b, b ∉ Finset.univ.image (Pipeline.arrRef spec4) → VOut4 m c b = VIn4 m c b :=
  fun b hb => W10_of_ne m c b fun w e => hb (Finset.mem_image.mpr ⟨w, Finset.mem_univ _, e⟩)
/-- The host stretch before region 4 changes only what its operations write. -/
theorem W9_keep (c : Dev nD) (b : Ref sig .tc) (h : b ∉ hostOps4_W) :
    W9 m c (Proc.devRef .tc b) = W8 m c (Proc.devRef .tc b) :=
  StableHlo.after_of_writes_sub hostOps4 _ hostOps4_writes h
/-- Region 4 changes only its result `main_v53`: an operand's array ends as it was entered, any other buffer is untouched. -/
theorem W10_keep (c : Dev nD) (b : Ref sig .tc) (hb : b ≠ main_v53) :
    W10 m c (Proc.devRef .tc b) = W9 m c (Proc.devRef .tc b) := by
  by_cases h : ∃ w, Pipeline.arrRef spec4 w = b
  · obtain ⟨w, rfl⟩ := h
    refine (W10_arr m c w).trans ?_
    match w, hb with
    | ⟨0, _⟩, _ => exact ((dat4 (V9 m) c).arrAt_in 0 rfl _).trans (A_eq4 (V9 m) c 0)
    | ⟨1, _⟩, _ => exact ((dat4 (V9 m) c).arrAt_in 1 rfl _).trans (A_eq4 (V9 m) c 1)
    | ⟨2, _⟩, _ => exact ((dat4 (V9 m) c).arrAt_in 2 rfl _).trans (A_eq4 (V9 m) c 2)
    | ⟨3, _⟩, hb => exact absurd rfl hb
  · exact W10_of_ne m c b fun w e => h ⟨w, e⟩

/-! ### Region 5 -/

/-- After the host stretch before region 5: region 5's entry. -/
abbrev W11 : Dev nD → Valuation τ sig (Elt F) := fun c => StableHlo.after hostOps5 (W10 m c)
/-- The same read at the core's references. -/
abbrev V11 : (c : Dev nD) → (b : Ref sig .tc) → Buf (Elt F) ((c : Thread nD τ).loc b) := fun c b => W11 m c b
/-- At region 5's exit: its arrays at what its grid leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
abbrev WIn5 : Dev nD → Valuation τ sig (Elt F) := W11 m
abbrev WOut5 : Dev nD → Valuation τ sig (Elt F) := W12 m
abbrev VIn5 : (c : Dev nD) → (b : Ref sig .tc) → Buf (Elt F) ((c : Thread nD τ).loc b) := V11 m
abbrev VOut5 : (c : Dev nD) → (b : Ref sig .tc) → Buf (Elt F) ((c : Thread nD τ).loc b) := V12 m
/-- At the exit each of the region's arrays holds what its grid leaves, and every other buffer what it held at entry. -/
theorem hF5 (c : Dev nD) (w : Fin cfg5.W) : (dat5 (VIn5 m) c).arrAt w cfg5.N = VOut5 m c (Pipeline.arrRef spec5 w) :=
  (W12_arr m c w).symm
theorem hrest5 (c : Dev nD) : ∀ b, b ∉ Finset.univ.image (Pipeline.arrRef spec5) → VOut5 m c b = VIn5 m c b :=
  fun b hb => W12_of_ne m c b fun w e => hb (Finset.mem_image.mpr ⟨w, Finset.mem_univ _, e⟩)
/-- The host stretch before region 5 changes only what its operations write. -/
theorem W11_keep (c : Dev nD) (b : Ref sig .tc) (h : b ∉ hostOps5_W) :
    W11 m c (Proc.devRef .tc b) = W10 m c (Proc.devRef .tc b) :=
  StableHlo.after_of_writes_sub hostOps5 _ hostOps5_writes h
/-- Region 5 changes only its result `main_v56`: an operand's array ends as it was entered, any other buffer is untouched. -/
theorem W12_keep (c : Dev nD) (b : Ref sig .tc) (hb : b ≠ main_v56) :
    W12 m c (Proc.devRef .tc b) = W11 m c (Proc.devRef .tc b) := by
  by_cases h : ∃ w, Pipeline.arrRef spec5 w = b
  · obtain ⟨w, rfl⟩ := h
    refine (W12_arr m c w).trans ?_
    match w, hb with
    | ⟨0, _⟩, _ => exact ((dat5 (V11 m) c).arrAt_in 0 rfl _).trans (A_eq5 (V11 m) c 0)
    | ⟨1, _⟩, _ => exact ((dat5 (V11 m) c).arrAt_in 1 rfl _).trans (A_eq5 (V11 m) c 1)
    | ⟨2, _⟩, _ => exact ((dat5 (V11 m) c).arrAt_in 2 rfl _).trans (A_eq5 (V11 m) c 2)
    | ⟨3, _⟩, hb => exact absurd rfl hb
  · exact W12_of_ne m c b fun w e => h ⟨w, e⟩

/-! ## The proof data family and the thread state -/

/-- Every region's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W12`, the generator register at some state. -/
abbrev Tₙ (c : Dev nD) : sProp 𝕄 := iprop(StableHlo.held (c : Thread nD τ) (Pipeline.ucRefs τ sig) (W12 m c) ∗ ∃ r, prngReg c r)

/-! ## What is read through the whole fold -/

/-- A buffer no host stretch writes and that is no region's result ends as launched. -/
theorem W12_untouched (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (o0 : b ≠ main_v5) (o1 : b ≠ main_v7) (o2 : b ≠ main_v31) (o3 : b ≠ main_v42) (o4 : b ≠ main_v53) (o5 : b ≠ main_v56) :
    W12 m c (Proc.devRef .tc b) = m ((c : Thread nD τ).loc b) :=
  (W12_keep m c b o5).trans <| (W11_keep m c b h5).trans <| (W10_keep m c b o4).trans <| (W9_keep m c b h4).trans <|
    (W8_keep m c b o3).trans <| (W7_keep m c b h3).trans <| (W6_keep m c b o2).trans <| (W5_keep m c b h2).trans <|
    (W4_keep m c b o1).trans <| (W3_keep m c b h1).trans <| (W2_keep m c b o0).trans <| (W1_keep m c b h0).trans rfl

end Cert.KernelIdeal.Reg

end
-- ==== Proof.SegKI0.lean ====
/- Region 0 of the program computes the node pre-transform, `relu (x · Wn + bn)` over a grid of 10 points: point `t` reads rows `1000 t … 1000 t + 999` of the 10000 × 256 operand, the whole 256 × 256 weight and the 1 × 256 bias row, and writes the same rows of the 10000 × 256 result.
  The text below is region 1's with the names and sizes of this region. -/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn0`, left with them at `WOut0`. -/
def reg0 : Pipeline.RegionSeg (pcfgs (F := F)) adm (pdats m) () defs₀ 𝒱₀ L lv (0 : Fin 6) where
  win := launch0.win.to₀
  block_pos := launch0.block_pos
  stage_whole := launch0.stage_whole
  K := PEmpty
  osem k := k.elim
  ho := Pipeline.OwnSemFacts.none _
  hbody c := (body_obligation0 (VIn0 m) c).loose
  hwaits := Pipeline.hwaits_of_owed_zero _ _ _ _ L lv (0 : Fin 6) fun _ _ => rfl
  pre c := iprop(StableHlo.held (c : Thread nD τ) (Pipeline.ucRefs τ sig) (WIn0 m c) ∗ R c)
  post c := iprop(StableHlo.held (c : Thread nD τ) (Pipeline.ucRefs τ sig) (WOut0 m c) ∗ R c)
  X c := iprop(∃ r, prngReg c r)
  Y c := iprop(∃ r, prngReg c r)
  Z c := Pipeline.unscopedRest (Ix := Unit) (Name := ℕ) (U := UR sig nD τ) (Lvl := ℕ) spec0 c (VIn0 m c)
  hentry c := by
    rw [Pipeline.ownSems0_none]
    have hsplit := Pipeline.arrays_of_unscopedBufs (p := (0 : Fin 6)) (pcfgs (F := F)) adm (pdats m) launch0.win launch0.arr_whole c
      ((pdats m (0 : Fin 6) c).share_full fun _ => rfl) (VIn0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 6) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 6) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 6)) (pcfgs (F := F)) adm (Ix := Unit) (Name := ℕ) (U := UR sig nD τ) (Lvl := ℕ)
      launch0.win launch0.arr_whole c (pdats m) ((pdats m (0 : Fin 6) c).share_full fun _ => rfl)
      (VIn0 m c) (VOut0 m c) ((pdats m (0 : Fin 6) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.SegKI1.lean ====
/-
  Region 1 as a segment of the program's run.  The thread state between items is "every unscoped buffer of the core at
  the fold's contents, the generator register at some state, nothing owed".  The region is entered from that state at
  its entry contents `WIn1` and left at its exit contents `WOut1`: at entry its four arrays are split out of the
  unscoped buffers and the rest is set aside; the register goes into the grid's invariant and comes back out; at exit
  the arrays, now at what the grid leaves in them, are put back beside the rest, which is the exit contents because
  those differ from the entry's only at the region's arrays.  The kernel has no semaphore of its own and its body
  owes nothing.
-/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn1`, left with them at `WOut1`. -/
def reg1 : Pipeline.RegionSeg (pcfgs (F := F)) adm (pdats m) () defs₀ 𝒱₀ L lv (1 : Fin 6) where
  win := launch1.win.to₀
  block_pos := launch1.block_pos
  stage_whole := launch1.stage_whole
  K := PEmpty
  osem k := k.elim
  ho := Pipeline.OwnSemFacts.none _
  hbody c := (body_obligation1 (VIn1 m) c).loose
  hwaits := Pipeline.hwaits_of_owed_zero _ _ _ _ L lv (1 : Fin 6) fun _ _ => rfl
  pre c := iprop(StableHlo.held (c : Thread nD τ) (Pipeline.ucRefs τ sig) (WIn1 m c) ∗ R c)
  post c := iprop(StableHlo.held (c : Thread nD τ) (Pipeline.ucRefs τ sig) (WOut1 m c) ∗ R c)
  X c := iprop(∃ r, prngReg c r)
  Y c := iprop(∃ r, prngReg c r)
  Z c := Pipeline.unscopedRest (Ix := Unit) (Name := ℕ) (U := UR sig nD τ) (Lvl := ℕ) spec1 c (VIn1 m c)
  hentry c := by
    rw [Pipeline.ownSems0_none]
    have hsplit := Pipeline.arrays_of_unscopedBufs (p := (1 : Fin 6)) (pcfgs (F := F)) adm (pdats m) launch1.win launch1.arr_whole c
      ((pdats m (1 : Fin 6) c).share_full fun _ => rfl) (VIn1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 6) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 6) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 6)) (pcfgs (F := F)) adm (Ix := Unit) (Name := ℕ) (U := UR sig nD τ) (Lvl := ℕ)
      launch1.win launch1.arr_whole c (pdats m) ((pdats m (1 : Fin 6) c).share_full fun _ => rfl)
      (VIn1 m c) (VOut1 m c) ((pdats m (1 : Fin 6) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.SegKI2.lean ====
/- Region 2 of the program computes the predecessor-side messages, `relu ([pre_n[src], pre_e] · Wpa + bpa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn2`, left with them at `WOut2`. -/
def reg2 : Pipeline.RegionSeg (pcfgs (F := F)) adm (pdats m) () defs₀ 𝒱₀ L lv (2 : Fin 6) where
  win := launch2.win.to₀
  block_pos := launch2.block_pos
  stage_whole := launch2.stage_whole
  K := PEmpty
  osem k := k.elim
  ho := Pipeline.OwnSemFacts.none _
  hbody c := (body_obligation2 (VIn2 m) c).loose
  hwaits := Pipeline.hwaits_of_owed_zero _ _ _ _ L lv (2 : Fin 6) fun _ _ => rfl
  pre c := iprop(StableHlo.held (c : Thread nD τ) (Pipeline.ucRefs τ sig) (WIn2 m c) ∗ R c)
  post c := iprop(StableHlo.held (c : Thread nD τ) (Pipeline.ucRefs τ sig) (WOut2 m c) ∗ R c)
  X c := iprop(∃ r, prngReg c r)
  Y c := iprop(∃ r, prngReg c r)
  Z c := Pipeline.unscopedRest (Ix := Unit) (Name := ℕ) (U := UR sig nD τ) (Lvl := ℕ) spec2 c (VIn2 m c)
  hentry c := by
    rw [Pipeline.ownSems0_none]
    have hsplit := Pipeline.arrays_of_unscopedBufs (p := (2 : Fin 6)) (pcfgs (F := F)) adm (pdats m) launch2.win launch2.arr_whole c
      ((pdats m (2 : Fin 6) c).share_full fun _ => rfl) (VIn2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 6) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 6) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 6)) (pcfgs (F := F)) adm (Ix := Unit) (Name := ℕ) (U := UR sig nD τ) (Lvl := ℕ)
      launch2.win launch2.arr_whole c (pdats m) ((pdats m (2 : Fin 6) c).share_full fun _ => rfl)
      (VIn2 m c) (VOut2 m c) ((pdats m (2 : Fin 6) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.SegKI3.lean ====
/- Region 3 of the program computes the successor-side messages, `relu ([pre_n[dst], pre_e] · Wsa + bsa)` over a grid of 80 points: point `t` reads rows `2000 t … 2000 t + 1999` of the 160000 × 512 operand, the whole 512 × 256 weight and the 1 × 256 bias row, and writes the same rows of the 160000 × 256 result.
  The text below is region 1's with the names and sizes of this region. -/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn3`, left with them at `WOut3`. -/
def reg3 : Pipeline.RegionSeg (pcfgs (F := F)) adm (pdats m) () defs₀ 𝒱₀ L lv (3 : Fin 6) where
  win := launch3.win.to₀
  block_pos := launch3.block_pos
  stage_whole := launch3.stage_whole
  K := PEmpty
  osem k := k.elim
  ho := Pipeline.OwnSemFacts.none _
  hbody c := (body_obligation3 (VIn3 m) c).loose
  hwaits := Pipeline.hwaits_of_owed_zero _ _ _ _ L lv (3 : Fin 6) fun _ _ => rfl
  pre c := iprop(StableHlo.held (c : Thread nD τ) (Pipeline.ucRefs τ sig) (WIn3 m c) ∗ R c)
  post c := iprop(StableHlo.held (c : Thread nD τ) (Pipeline.ucRefs τ sig) (WOut3 m c) ∗ R c)
  X c := iprop(∃ r, prngReg c r)
  Y c := iprop(∃ r, prngReg c r)
  Z c := Pipeline.unscopedRest (Ix := Unit) (Name := ℕ) (U := UR sig nD τ) (Lvl := ℕ) spec3 c (VIn3 m c)
  hentry c := by
    rw [Pipeline.ownSems0_none]
    have hsplit := Pipeline.arrays_of_unscopedBufs (p := (3 : Fin 6)) (pcfgs (F := F)) adm (pdats m) launch3.win launch3.arr_whole c
      ((pdats m (3 : Fin 6) c).share_full fun _ => rfl) (VIn3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 6) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 6) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 6)) (pcfgs (F := F)) adm (Ix := Unit) (Name := ℕ) (U := UR sig nD τ) (Lvl := ℕ)
      launch3.win launch3.arr_whole c (pdats m) ((pdats m (3 : Fin 6) c).share_full fun _ => rfl)
      (VIn3 m c) (VOut3 m c) ((pdats m (3 : Fin 6) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.SegKI4.lean ====
/- Region 4 of the program computes the node output, `[agg_p, pre_n, agg_s] · Wnt + bnt` (no relu) over a grid of 10 points: point `t` reads rows `1000 t … 1000 t + 999` of the 10000 × 768 operand, the whole 768 × 256 weight and the 1 × 256 bias row, and writes the same rows of the 10000 × 256 result.
  The text below is region 1's with the names and sizes of this region. -/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn4`, left with them at `WOut4`. -/
def reg4 : Pipeline.RegionSeg (pcfgs (F := F)) adm (pdats m) () defs₀ 𝒱₀ L lv (4 : Fin 6) where
  win := launch4.win.to₀
  block_pos := launch4.block_pos
  stage_whole := launch4.stage_whole
  K := PEmpty
  osem k := k.elim
  ho := Pipeline.OwnSemFacts.none _
  hbody c := (body_obligation4 (VIn4 m) c).loose
  hwaits := Pipeline.hwaits_of_owed_zero _ _ _ _ L lv (4 : Fin 6) fun _ _ => rfl
  pre c := iprop(StableHlo.held (c : Thread nD τ) (Pipeline.ucRefs τ sig) (WIn4 m c) ∗ R c)
  post c := iprop(StableHlo.held (c : Thread nD τ) (Pipeline.ucRefs τ sig) (WOut4 m c) ∗ R c)
  X c := iprop(∃ r, prngReg c r)
  Y c := iprop(∃ r, prngReg c r)
  Z c := Pipeline.unscopedRest (Ix := Unit) (Name := ℕ) (U := UR sig nD τ) (Lvl := ℕ) spec4 c (VIn4 m c)
  hentry c := by
    rw [Pipeline.ownSems0_none]
    have hsplit := Pipeline.arrays_of_unscopedBufs (p := (4 : Fin 6)) (pcfgs (F := F)) adm (pdats m) launch4.win launch4.arr_whole c
      ((pdats m (4 : Fin 6) c).share_full fun _ => rfl) (VIn4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 6) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 6) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 6)) (pcfgs (F := F)) adm (Ix := Unit) (Name := ℕ) (U := UR sig nD τ) (Lvl := ℕ)
      launch4.win launch4.arr_whole c (pdats m) ((pdats m (4 : Fin 6) c).share_full fun _ => rfl)
      (VIn4 m c) (VOut4 m c) ((pdats m (4 : Fin 6) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.SegKI5.lean ====
/- Region 5 of the program computes the edge output, `[pre_n[src], pre_e, pre_n[dst]] · Wet + bet` (no relu) over a grid of 80 points: point `t` reads rows `2000 t … 2000 t + 1999` of the 160000 × 768 operand, the whole 768 × 256 weight and the 1 × 256 bias row, and writes the same rows of the 160000 × 256 result.
  The text below is region 1's with the names and sizes of this region. -/
import proofs.«139872_j38732015076057_1_alg».proof.Proof.FoldKI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- Region 1 over the thread state: entered with every unscoped buffer at `WIn5`, left with them at `WOut5`. -/
def reg5 : Pipeline.RegionSeg (pcfgs (F := F)) adm (pdats m) () defs₀ 𝒱₀ L lv (5 : Fin 6) where
  win := launch5.win.to₀
  block_pos := launch5.block_pos
  stage_whole := launch5.stage_whole
  K := PEmpty
  osem k := k.elim
  ho := Pipeline.OwnSemFacts.none _
  hbody c := (body_obligation5 (VIn5 m) c).loose
  hwaits := Pipeline.hwaits_of_owed_zero _ _ _ _ L lv (5 : Fin 6) fun _ _ => rfl
  pre c := iprop(StableHlo.held (c : Thread nD τ) (Pipeline.ucRefs τ sig) (WIn5 m c) ∗ R c)
  post c := iprop(StableHlo.held (c : Thread nD τ) (Pipeline.ucRefs τ sig) (WOut5 m c) ∗ R c)
  X c := iprop(∃ r, prngReg c r)
  Y c := iprop(∃ r, prngReg c r)
  Z c := Pipeline.unscopedRest (Ix := Unit) (Name := ℕ) (U := UR sig nD τ) (Lvl := ℕ) spec5 c (VIn5 m c)
  hentry c := by
    rw [Pipeline.ownSems0_none]
    have hsplit := Pipeline.arrays_of_unscopedBufs (p := (5 : Fin 6)) (pcfgs (F := F)) adm (pdats m) launch5.win launch5.arr_whole c
      ((pdats m (5 : Fin 6) c).share_full fun _ => rfl) (VIn5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (5 : Fin 6) c).Φ 0 = Pipeline.ΦA spec5 c from rfl]; unfold Pipeline.ΦA
    iintro ⟨Hp, -, Hr⟩
    isplitl [Hr]; · iexact Hr
    iexact Hp
  hout c := by
    rw [Pipeline.ownSems0_none, show (pdats m (5 : Fin 6) c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := (5 : Fin 6)) (pcfgs (F := F)) adm (Ix := Unit) (Name := ℕ) (U := UR sig nD τ) (Lvl := ℕ)
      launch5.win launch5.arr_whole c (pdats m) ((pdats m (5 : Fin 6) c).share_full fun _ => rfl)
      (VIn5 m c) (VOut5 m c) ((pdats m (5 : Fin 6) c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.RunKI.lean ====
/-
  The program's run.  `@main` is twelve items in order: the host stretch before each region, then the region.  Each is
  a segment over the thread state "every unscoped buffer at the fold's contents, the generator register at some state,
  nothing owed"; consecutive segments meet at the fold's next contents.  The launch deals that state at the launch memory,
  and at the end every unscoped buffer is read at the fold's last contents `W12` (`run`).  The frame follows: no host
  operation writes an argument and no region has one as its result, so `W12` holds each argument as launched.
-/
import proofs.«139872_j38732015076057_1_alg».proof.Proof.SegKI0
import proofs.«139872_j38732015076057_1_alg».proof.Proof.SegKI1
import proofs.«139872_j38732015076057_1_alg».proof.Proof.SegKI2
import proofs.«139872_j38732015076057_1_alg».proof.Proof.SegKI3
import proofs.«139872_j38732015076057_1_alg».proof.Proof.SegKI4
import proofs.«139872_j38732015076057_1_alg».proof.Proof.SegKI5

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `@main`'s twelve items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m) ]

/-- `@main` is the run of those items. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- From any memory with zero counters every weakly fair execution of `@main` terminates, nothing faulting, and in every
    final state each unscoped buffer of each core holds the fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (WOut5 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- An argument ends as launched: no host stretch writes it and it is no region's result. -/
theorem arg_kept {r : PUnit × MemSt nD τ sig (Elt F)} (h : ∀ c : Dev nD, ∀ b ∈ Pipeline.ucRefs τ sig, r.2.mem (((c : Thread nD τ)).1, b) = W12 m c b)
    (c : Dev nD) (b : Ref sig .tc) (hs : ¬ (Proc.devRef .tc b : DevRef τ sig).isScoped)
    (h0 : b ∉ hostOps0_W) (h1 : b ∉ hostOps1_W) (h2 : b ∉ hostOps2_W) (h3 : b ∉ hostOps3_W) (h4 : b ∉ hostOps4_W) (h5 : b ∉ hostOps5_W)
    (o0 : b ≠ main_v5) (o1 : b ≠ main_v7) (o2 : b ≠ main_v31) (o3 : b ≠ main_v42) (o4 : b ≠ main_v53) (o5 : b ≠ main_v56) :
    r.2.mem ((c.tc : Thread nD τ).loc b) = m ((c.tc : Thread nD τ).loc b) :=
  (h c _ (mem_uc b hs)).trans (W12_untouched m c b h0 h1 h2 h3 h4 h5 o0 o1 o2 o3 o4 o5)

/-- The frame: the run terminates, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨arg_kept m h c main_arg0 (by decide) (by decide) (by decide) (by decide) (by decide) (by decide) (by decide) (by decide) (by decide) (by decide) (by decide) (by decide) (by decide),
     arg_kept m h c main_arg1 (by decide) (by decide) (by decide) (by decide) (by decide) (by decide) (by decide) (by decide) (by decide) (by decide) (by decide) (by decide) (by decide),
     arg_kept m h c main_arg2 (by decide) (by decide) (by decide) (by decide) (by decide) (by decide) (by decide) (by decide) (by decide) (by decide) (by decide) (by decide) (by decide),
     arg_kept m h c main_arg3 (by decide) (by decide) (by decide) (by decide) (by decide) (by decide) (by decide) (by decide) (by decide) (by decide) (by decide) (by decide) (by decide),
     arg_kept m h c main_arg4 (by decide) (by decide) (by decide) (by decide) (by decide) (by decide) (by decide) (by decide) (by decide) (by decide) (by decide) (by decide) (by decide),
     arg_kept m h c main_arg5 (by decide) (by decide) (by decide) (by decide) (by decide) (by decide) (by decide) (by decide) (by decide) (by decide) (by decide) (by decide) (by decide),
     arg_kept m h c main_arg6 (by decide) (by decide) (by decide) (by decide) (by decide) (by decide) (by decide) (by decide) (by decide) (by decide) (by decide) (by decide) (by decide),
     arg_kept m h c main_arg7 (by decide) (by decide) (by decide) (by decide) (by decide) (by decide) (by decide) (by decide) (by decide) (by decide) (by decide) (by decide) (by decide),
     arg_kept m h c main_arg8 (by decide) (by decide) (by decide) (by decide) (by decide) (by decide) (by decide) (by decide) (by decide) (by decide) (by decide) (by decide) (by decide),
     arg_kept m h c main_arg9 (by decide) (by decide) (by decide) (by decide) (by decide) (by decide) (by decide) (by decide) (by decide) (by decide) (by decide) (by decide) (by decide),
     arg_kept m h c main_arg10 (by decide) (by decide) (by decide) (by decide) (by decide) (by decide) (by decide) (by decide) (by decide) (by decide) (by decide) (by decide) (by decide),
     arg_kept m h c main_arg11 (by decide) (by decide) (by decide) (by decide) (by decide) (by decide) (by decide) (by decide) (by decide) (by decide) (by decide) (by decide) (by decide),
     arg_kept m h c main_arg12 (by decide) (by decide) (by decide) (by decide) (by decide) (by decide) (by decide) (by decide) (by decide) (by decide) (by decide) (by decide) (by decide),
     arg_kept m h c main_arg13 (by decide) (by decide) (by decide) (by decide) (by decide) (by decide) (by decide) (by decide) (by decide) (by decide) (by decide) (by decide) (by decide),
     arg_kept m h c main_arg14 (by decide) (by decide) (by decide) (by decide) (by decide) (by decide) (by decide) (by decide) (by decide) (by decide) (by decide) (by decide) (by decide)⟩)
    (run m ρ)

end Cert.KernelIdeal.Reg

end
-- ==== Proof.Spec.lean ====
/-
  The six dense stages of the network as whole-array functions, in the reference program's own wording: a stage is
  `a · w + row` (a matrix product contracting `a`'s columns with `w`'s rows, the 1 × 256 row added to every row of the
  product), followed for the first four by `max (·) 0`.  The row is the bias as a 1 × 256 array.  The reference makes
  that row by broadcasting the 256 biases along a new leading unit axis, the other program by reshaping them; the two
  are the same array (`biasRow_eq`: both read bias `j` at `(0, j)`).
-/
import proofs.«139872_j38732015076057_1_alg».proof.Proof.Gen.ReferenceIdeal
import Idealize.ShloMosaic.Lib.Pipeline.Value
import Idealize.ShloMosaic.Lib.ValueIdx

noncomputable section

namespace Cert.Spec

open Cert.ReferenceIdeal Cert.ReferenceIdeal.Gen Idealize.ShloMosaic Idealize.ShloMosaic.TcCoe Idealize.SL.Sem

variable {F : FTy → Type} [FloatOps F]

/-- Stage 0: the node pre-transform `relu (x · Wn + bn)`. -/
def stage0 (a : FVec F S10000x256 .f32) (w : FVec F S256x256 .f32) (row : FVec F S1x256 .f32) : FVec F S10000x256 .f32 :=
  maximumf (addf (Host.dotGeneral dot_S10000x256_S256x256_S10000x256_1_0_0_1_n_n none a w) (broadcastInDim S10000x256 ![0, 1] bcast_S1x256_S10000x256_0_1 row)) (broadcastInDim S10000x256 ![] bcast_S_S10000x256 (constant S_ .f32 0x00000000#32))

/-- Stage 1: the edge pre-transform `relu (edge_feat · We + be)`. -/
def stage1 (a : FVec F S160000x128 .f32) (w : FVec F S128x256 .f32) (row : FVec F S1x256 .f32) : FVec F S160000x256 .f32 :=
  maximumf (addf (Host.dotGeneral dot_S160000x128_S128x256_S160000x256_1_0_0_1_n_n none a w) (broadcastInDim S160000x256 ![0, 1] bcast_S1x256_S160000x256_0_1 row)) (broadcastInDim S160000x256 ![] bcast_S_S160000x256 (constant S_ .f32 0x00000000#32))

/-- Stage 2: the predecessor-side messages `relu (concat_p · Wpa + bpa)`. -/
def stage2 (a : FVec F S160000x512 .f32) (w : FVec F S512x256 .f32) (row : FVec F S1x256 .f32) : FVec F S160000x256 .f32 :=
  maximumf (addf (Host.dotGeneral dot_S160000x512_S512x256_S160000x256_1_0_0_1_n_n none a w) (broadcastInDim S160000x256 ![0, 1] bcast_S1x256_S160000x256_0_1 row)) (broadcastInDim S160000x256 ![] bcast_S_S160000x256 (constant S_ .f32 0x00000000#32))

/-- Stage 3: the successor-side messages `relu (concat_s · Wsa + bsa)`. -/
def stage3 (a : FVec F S160000x512 .f32) (w : FVec F S512x256 .f32) (row : FVec F S1x256 .f32) : FVec F S160000x256 .f32 :=
  maximumf (addf (Host.dotGeneral dot_S160000x512_S512x256_S160000x256_1_0_0_1_n_n none a w) (broadcastInDim S160000x256 ![0, 1] bcast_S1x256_S160000x256_0_1 row)) (broadcastInDim S160000x256 ![] bcast_S_S160000x256 (constant S_ .f32 0x00000000#32))

/-- Stage 4: the node output `node_concat · Wnt + bnt`. -/
def stage4 (a : FVec F S10000x768 .f32) (w : FVec F S768x256 .f32) (row : FVec F S1x256 .f32) : FVec F S10000x256 .f32 :=
  addf (Host.dotGeneral dot_S10000x768_S768x256_S10000x256_1_0_0_1_n_n none a w) (broadcastInDim S10000x256 ![0, 1] bcast_S1x256_S10000x256_0_1 row)

/-- Stage 5: the edge output `edge_concat · Wet + bet`. -/
def stage5 (a : FVec F S160000x768 .f32) (w : FVec F S768x256 .f32) (row : FVec F S1x256 .f32) : FVec F S160000x256 .f32 :=
  addf (Host.dotGeneral dot_S160000x768_S768x256_S160000x256_1_0_0_1_n_n none a w) (broadcastInDim S160000x256 ![0, 1] bcast_S1x256_S160000x256_0_1 row)

/-- The 256 biases reshaped to a 1 × 256 array are the 256 biases broadcast along a new leading unit axis:
    both arrays hold bias `q` at `(0, q)`. -/
theorem biasRow_eq {α : Type} (b : S256.Idx → α) (h : S256.ShapeCasts S1x256)
    (h' : S256.BroadcastsInDim S1x256 (![1] : Fin 1 → Fin S1x256.rank)) :
    shapeCast S1x256 b h = broadcastInDim S1x256 ![1] h' b := by
  funext j
  obtain ⟨p, q, rfl⟩ : ∃ (p : Fin 1) (q : Fin 256), j = ValueIdx.ix2 p q := ⟨j 0, j 1, ValueIdx.eq_ix2 j⟩
  have hp : p.val = 0 := by omega
  rw [shapeCast_apply b h (ValueIdx.ix2 p q) (ValueIdx.ix1 q) (by
        rw [Shape.rowMajor_val_one, Shape.rowMajor_val_two]
        show q.val = p.val * 256 + q.val
        omega),
    broadcastInDim_apply _ h' b (ValueIdx.ix2 p q) (ValueIdx.ix1 q) (fun a => by
        match a with
        | ⟨0, _⟩ => rfl)]

end Cert.Spec

end
-- ==== Proof.Net.lean ====
/-
  The whole network as two functions of its fifteen argument arrays, in the reference program's wording, over the six
  dense stages of the specification.

  `src` and `dst` are the two rows of the edge index.  An index column for a gather is first normalised (a negative
  index has the node count added) and given a trailing unit axis (`gatherIdx`); an index column for a scatter-add is
  used as it is (`scatterIdx`).  `preN`, `preE` are the node and edge pre-transforms; `gSrc`, `gDst` gather `preN` at
  the edges' sources and destinations; `degIn`, `degOut` count each node's incoming and outgoing edges by scatter-adding
  ones.  The predecessor-side messages are a dense stage on `[gSrc, preE]`, summed into their destination node and
  divided by `max degIn 1` (`aggP`); the successor side likewise with sources and destinations exchanged (`aggS`).
  The node output is a dense stage on `[aggP, preN, aggS]`, the edge output one on `[gSrc, preE, gDst]`.
-/
import proofs.«139872_j38732015076057_1_alg».proof.Proof.Spec

noncomputable section

namespace Cert.Net

open Cert.ReferenceIdeal Cert.ReferenceIdeal.Gen Idealize.ShloMosaic Idealize.ShloMosaic.TcCoe Idealize.SL.Sem Cert.Spec

variable {F : FTy → Type} [FloatOps F]

/-- The contents of a buffer of shape `S` and element type `e`. -/
abbrev Arr (F : FTy → Type) [FloatOps F] (S : Shape) (e : EltTy) : Type := (⟨S, e⟩ : BufTy).Contents (Elt F)

/-- The bias as a 1 × 256 row, the reference's way. -/
def row (b : Arr F S256 .f32) : Arr F S1x256 .f32 := broadcastInDim S1x256 ![1] bcast_S256_S1x256_1 b

/-- Row 0 of the edge index: the edges' sources. -/
def src (ei : Arr F S2x160000 .i32) : Arr F S160000 .i32 :=
  shapeCast _ (extractStridedSlice S1x160000 ![0, 0] ei slices_S2x160000_S1x160000_0_0) shapeCasts_S1x160000_S160000
/-- Row 1 of the edge index: the edges' destinations. -/
def dst (ei : Arr F S2x160000 .i32) : Arr F S160000 .i32 :=
  shapeCast _ (extractStridedSlice S1x160000 ![1, 0] ei slices_S2x160000_S1x160000_1_0) shapeCasts_S1x160000_S160000

/-- An index column as a gather takes it: a negative index has the node count 10000 added, then a trailing unit axis. -/
def gatherIdx (i : Arr F S160000 .i32) : Arr F S160000x1 .i32 :=
  broadcastInDim S160000x1 ![0] bcast_S160000_S160000x1_0
    (select (cmpi .slt i (broadcastInDim S160000 ![] bcast_S_S160000 (constantI S_ 32 0#32)))
      (addi i (broadcastInDim S160000 ![] bcast_S_S160000 (constantI S_ 32 10000#32))) i)
/-- An index column as a scatter-add takes it: a trailing unit axis, nothing else. -/
def scatterIdx (i : Arr F S160000 .i32) : Arr F S160000x1 .i32 := broadcastInDim S160000x1 ![0] bcast_S160000_S160000x1_0 i

/-- How many edges each node has under the index column `i`: ones scatter-added into zeros. -/
def degree (i : Arr F S160000 .i32) : Arr F S10000 .f32 :=
  Host.scatterAdd scatter_S10000_S160000x1_S160000_n_0_0_1 (broadcastInDim S10000 ![] bcast_S_S10000 (constant S_ .f32 0x00000000#32))
    (scatterIdx i) (broadcastInDim S160000 ![] bcast_S_S160000 (constant S_ .f32 0x3F800000#32))

/-- The edge messages `msg` summed into the node the index column `i` names, divided by `max deg 1`. -/
def aggregate (msg : Arr F S160000x256 .f32) (i : Arr F S160000 .i32) (deg : Arr F S10000 .f32) : Arr F S10000x256 .f32 :=
  Host.divf
    (Host.scatterAdd scatter_S10000x256_S160000x1_S160000x256_1_0_0_1 (broadcastInDim S10000x256 ![] bcast_S_S10000x256 (constant S_ .f32 0x00000000#32))
      (scatterIdx i) msg)
    (broadcastInDim S10000x256 ![0, 1] bcast_S10000x1_S10000x256_0_1
      (broadcastInDim S10000x1 ![0] bcast_S10000_S10000x1_0
        (maximumf deg (broadcastInDim S10000 ![] bcast_S_S10000 (constant S_ .f32 0x3F800000#32)))))

section
variable (x : Arr F S10000x256 .f32) (ef : Arr F S160000x128 .f32) (ei : Arr F S2x160000 .i32)
  (Wn : Arr F S256x256 .f32) (bn : Arr F S256 .f32) (We : Arr F S128x256 .f32) (be : Arr F S256 .f32)
  (Wpa : Arr F S512x256 .f32) (bpa : Arr F S256 .f32) (Wsa : Arr F S512x256 .f32) (bsa : Arr F S256 .f32)
  (Wnt : Arr F S768x256 .f32) (bnt : Arr F S256 .f32) (Wet : Arr F S768x256 .f32) (bet : Arr F S256 .f32)

/-- The node pre-transform. -/
def preN : Arr F S10000x256 .f32 := stage0 x Wn (row bn)
/-- The edge pre-transform. -/
def preE : Arr F S160000x256 .f32 := stage1 ef We (row be)
/-- The node pre-transform at each edge's source, -/
def gSrc : Arr F S160000x256 .f32 := Host.gather gather_S10000x256_S160000x1_S160000x256_1_0_n_n_0_1_1256 (preN x Wn bn) (gatherIdx (src ei))
/-- and at each edge's destination. -/
def gDst : Arr F S160000x256 .f32 := Host.gather gather_S10000x256_S160000x1_S160000x256_1_0_n_n_0_1_1256 (preN x Wn bn) (gatherIdx (dst ei))

/-- The predecessor-side messages: one per edge, of its source's pre-transform beside its own. -/
def msgP : Arr F S160000x256 .f32 :=
  stage2 (concatenate S160000x512 1 [⟨S160000x256, gSrc x ei Wn bn⟩, ⟨S160000x256, preE ef We be⟩] concatenates_S160000x256_S160000x256_S160000x512_d1) Wpa (row bpa)
/-- The successor-side messages: one per edge, of its destination's pre-transform beside its own. -/
def msgS : Arr F S160000x256 .f32 :=
  stage3 (concatenate S160000x512 1 [⟨S160000x256, gDst x ei Wn bn⟩, ⟨S160000x256, preE ef We be⟩] concatenates_S160000x256_S160000x256_S160000x512_d1) Wsa (row bsa)

/-- The mean over a node's incoming edges of the predecessor-side messages. -/
def aggP : Arr F S10000x256 .f32 := aggregate (msgP x ef ei Wn bn We be Wpa bpa) (dst ei) (degree (dst ei))
/-- The mean over a node's outgoing edges of the successor-side messages. -/
def aggS : Arr F S10000x256 .f32 := aggregate (msgS x ef ei Wn bn We be Wsa bsa) (src ei) (degree (src ei))

/-- The node output. -/
def nodeOut : Arr F S10000x256 .f32 :=
  stage4 (concatenate S10000x768 1 [⟨S10000x256, aggP x ef ei Wn bn We be Wpa bpa⟩, ⟨S10000x256, preN x Wn bn⟩, ⟨S10000x256, aggS x ef ei Wn bn We be Wsa bsa⟩]
    concatenates_S10000x256_S10000x256_S10000x256_S10000x768_d1) Wnt (row bnt)
/-- The edge output. -/
def edgeOut : Arr F S160000x256 .f32 :=
  stage5 (concatenate S160000x768 1 [⟨S160000x256, gSrc x ei Wn bn⟩, ⟨S160000x256, preE ef We be⟩, ⟨S160000x256, gDst x ei Wn bn⟩]
    concatenates_S160000x256_S160000x256_S160000x256_S160000x768_d1) Wet (row bet)
end

end Cert.Net

end
-- ==== Proof.HostKI.lean ====
/-
  The two results of the program, read through the fold of its buffers' contents, are the network's two outputs as
  functions of the fifteen argument arrays.

  Each host stretch is read operation by operation: a buffer it writes holds its operation's function of the buffers
  that operation reads, a buffer it does not write holds what it held before.  Each region changes only its result,
  which ends at the region's dense stage of the three operand arrays as the region found them (`StageFacts`: the
  six value facts, one per region).  The bias row a region reads is the 256 biases reshaped to 1 × 256, which is the
  same array as the biases broadcast along a new leading axis, the form the specification uses.
-/
import proofs.«139872_j38732015076057_1_alg».proof.Proof.FoldKI
import proofs.«139872_j38732015076057_1_alg».proof.Proof.Net
import Idealize.ShloMosaic.Lib.StableHlo.Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Core `c`'s argument `b` in the launch memory. -/
abbrev argAt (c : Dev nD) (b : Ref sig .tc) : Buf (Elt Ideal) ((c : Thread nD τ).loc b) := m ((c : Thread nD τ).loc b)

/-- What each region's grid leaves in its result array, at any entry contents `V`: the region's dense stage of its three
    operand arrays as `V` has them. -/
structure StageFacts : Prop where
  s0 : ∀ (V : (c : Dev nD) → (b : Ref sig .tc) → Buf (Elt Ideal) ((c : Thread nD τ).loc b)) (c : Dev nD),
    (dat0 (F := Ideal) V c).arrAt 3 cfg0.N = Cert.Spec.stage0 (F := Ideal) (V c main_arg0) (V c main_arg3) (V c main_v4)
  s1 : ∀ (V : (c : Dev nD) → (b : Ref sig .tc) → Buf (Elt Ideal) ((c : Thread nD τ).loc b)) (c : Dev nD),
    (dat1 (F := Ideal) V c).arrAt 3 cfg1.N = Cert.Spec.stage1 (F := Ideal) (V c main_arg1) (V c main_arg5) (V c main_v6)
  s2 : ∀ (V : (c : Dev nD) → (b : Ref sig .tc) → Buf (Elt Ideal) ((c : Thread nD τ).loc b)) (c : Dev nD),
    (dat2 (F := Ideal) V c).arrAt 3 cfg2.N = Cert.Spec.stage2 (F := Ideal) (V c main_v29) (V c main_arg7) (V c main_v30)
  s3 : ∀ (V : (c : Dev nD) → (b : Ref sig .tc) → Buf (Elt Ideal) ((c : Thread nD τ).loc b)) (c : Dev nD),
    (dat3 (F := Ideal) V c).arrAt 3 cfg3.N = Cert.Spec.stage3 (F := Ideal) (V c main_v40) (V c main_arg9) (V c main_v41)
  s4 : ∀ (V : (c : Dev nD) → (b : Ref sig .tc) → Buf (Elt Ideal) ((c : Thread nD τ).loc b)) (c : Dev nD),
    (dat4 (F := Ideal) V c).arrAt 3 cfg4.N = Cert.Spec.stage4 (F := Ideal) (V c main_v51) (V c main_arg11) (V c main_v52)
  s5 : ∀ (V : (c : Dev nD) → (b : Ref sig .tc) → Buf (Elt Ideal) ((c : Thread nD τ).loc b)) (c : Dev nD),
    (dat5 (F := Ideal) V c).arrAt 3 cfg5.N = Cert.Spec.stage5 (F := Ideal) (V c main_v54) (V c main_arg13) (V c main_v55)

/-! ## The operands of the four later dense stages -/

/-- Two edge arrays of 256 columns side by side. -/
def cat2 (a b : Cert.Net.Arr Ideal Cert.ReferenceIdeal.S160000x256 .f32) : Cert.Net.Arr Ideal Cert.ReferenceIdeal.S160000x512 .f32 :=
  concatenate Cert.ReferenceIdeal.S160000x512 1 [⟨Cert.ReferenceIdeal.S160000x256, a⟩, ⟨Cert.ReferenceIdeal.S160000x256, b⟩]
    Cert.ReferenceIdeal.Gen.concatenates_S160000x256_S160000x256_S160000x512_d1
/-- Three edge arrays of 256 columns side by side. -/
def cat3E (a b d : Cert.Net.Arr Ideal Cert.ReferenceIdeal.S160000x256 .f32) : Cert.Net.Arr Ideal Cert.ReferenceIdeal.S160000x768 .f32 :=
  concatenate Cert.ReferenceIdeal.S160000x768 1
    [⟨Cert.ReferenceIdeal.S160000x256, a⟩, ⟨Cert.ReferenceIdeal.S160000x256, b⟩, ⟨Cert.ReferenceIdeal.S160000x256, d⟩]
    Cert.ReferenceIdeal.Gen.concatenates_S160000x256_S160000x256_S160000x256_S160000x768_d1
/-- Three node arrays of 256 columns side by side. -/
def cat3N (a b d : Cert.Net.Arr Ideal Cert.ReferenceIdeal.S10000x256 .f32) : Cert.Net.Arr Ideal Cert.ReferenceIdeal.S10000x768 .f32 :=
  concatenate Cert.ReferenceIdeal.S10000x768 1
    [⟨Cert.ReferenceIdeal.S10000x256, a⟩, ⟨Cert.ReferenceIdeal.S10000x256, b⟩, ⟨Cert.ReferenceIdeal.S10000x256, d⟩]
    Cert.ReferenceIdeal.Gen.concatenates_S10000x256_S10000x256_S10000x256_S10000x768_d1

/-! ## The four concatenations as host operations

Each writes its operands' contents side by side; stated over any entry contents `G`, with the side-by-side array
named, so that the operands are then read one at a time. -/

theorem v29_result (G : Valuation τ sig (Elt Ideal)) (ha hb hy) :
    (StableHlo.binary (τ := τ) main_v14 main_v7 main_v29
      ((fun a b => concatenate S160000x512 1 [⟨S160000x256, a⟩, ⟨S160000x256, b⟩] concatenates_S160000x256_S160000x256_S160000x512_d1) :
        (⟨S160000x256, .f32⟩ : BufTy).Contents (Elt Ideal) → (⟨S160000x256, .f32⟩ : BufTy).Contents (Elt Ideal) → (⟨S160000x512, .f32⟩ : BufTy).Contents (Elt Ideal))
      ha hb hy).result G (Proc.devRef .tc main_v29) = cat2 (G (Proc.devRef .tc main_v14)) (G (Proc.devRef .tc main_v7)) :=
  StableHlo.binary_result ..
theorem v40_result (G : Valuation τ sig (Elt Ideal)) (ha hb hy) :
    (StableHlo.binary (τ := τ) main_v21 main_v7 main_v40
      ((fun a b => concatenate S160000x512 1 [⟨S160000x256, a⟩, ⟨S160000x256, b⟩] concatenates_S160000x256_S160000x256_S160000x512_d1) :
        (⟨S160000x256, .f32⟩ : BufTy).Contents (Elt Ideal) → (⟨S160000x256, .f32⟩ : BufTy).Contents (Elt Ideal) → (⟨S160000x512, .f32⟩ : BufTy).Contents (Elt Ideal))
      ha hb hy).result G (Proc.devRef .tc main_v40) = cat2 (G (Proc.devRef .tc main_v21)) (G (Proc.devRef .tc main_v7)) :=
  StableHlo.binary_result ..
theorem v51_result (G : Valuation τ sig (Elt Ideal)) (hxs hy) :
    (StableHlo.nary (τ := τ) ![main_v39, main_v5, main_v50] main_v51
      (fun u => concatenate S10000x768 1 [⟨S10000x256, u 0⟩, ⟨S10000x256, u 1⟩, ⟨S10000x256, u 2⟩] concatenates_S10000x256_S10000x256_S10000x256_S10000x768_d1)
      hxs hy).result G (Proc.devRef .tc main_v51)
      = cat3N (G (Proc.devRef .tc main_v39)) (G (Proc.devRef .tc main_v5)) (G (Proc.devRef .tc main_v50)) :=
  StableHlo.nary_result ..
theorem v54_result (G : Valuation τ sig (Elt Ideal)) (hxs hy) :
    (StableHlo.nary (τ := τ) ![main_v14, main_v7, main_v21] main_v54
      (fun u => concatenate S160000x768 1 [⟨S160000x256, u 0⟩, ⟨S160000x256, u 1⟩, ⟨S160000x256, u 2⟩] concatenates_S160000x256_S160000x256_S160000x256_S160000x768_d1)
      hxs hy).result G (Proc.devRef .tc main_v54)
      = cat3E (G (Proc.devRef .tc main_v14)) (G (Proc.devRef .tc main_v7)) (G (Proc.devRef .tc main_v21)) :=
  StableHlo.nary_result ..

/-! ## The fold's buffers, one at a time, in program order -/

section Chain
variable (c : Dev nD)

/-! ### Carrying a buffer across a host stretch and its region -/

theorem W2_of_W0 (b : Ref sig .tc) (h : b ∉ hostOps0_W) (o : b ≠ main_v5) :
    W2 (F := Ideal) m c (Proc.devRef .tc b) = argAt m c b :=
  (W2_keep m c b o).trans ((W1_keep m c b h).trans rfl)
theorem W4_of_W2 (b : Ref sig .tc) (h : b ∉ hostOps1_W) (o : b ≠ main_v7) :
    W4 (F := Ideal) m c (Proc.devRef .tc b) = W2 m c (Proc.devRef .tc b) :=
  (W4_keep m c b o).trans (W3_keep m c b h)
theorem W6_of_W4 (b : Ref sig .tc) (h : b ∉ hostOps2_W) (o : b ≠ main_v31) :
    W6 (F := Ideal) m c (Proc.devRef .tc b) = W4 m c (Proc.devRef .tc b) :=
  (W6_keep m c b o).trans (W5_keep m c b h)
theorem W8_of_W6 (b : Ref sig .tc) (h : b ∉ hostOps3_W) (o : b ≠ main_v42) :
    W8 (F := Ideal) m c (Proc.devRef .tc b) = W6 m c (Proc.devRef .tc b) :=
  (W8_keep m c b o).trans (W7_keep m c b h)
theorem W10_of_W8 (b : Ref sig .tc) (h : b ∉ hostOps4_W) (o : b ≠ main_v53) :
    W10 (F := Ideal) m c (Proc.devRef .tc b) = W8 m c (Proc.devRef .tc b) :=
  (W10_keep m c b o).trans (W9_keep m c b h)
theorem W12_of_W10 (b : Ref sig .tc) (h : b ∉ hostOps5_W) (o : b ≠ main_v56) :
    W12 (F := Ideal) m c (Proc.devRef .tc b) = W10 m c (Proc.devRef .tc b) :=
  (W12_keep m c b o).trans (W11_keep m c b h)

/-- An argument array no stretch writes is still the launch memory's at each region's exit. -/
theorem W4_arg (b : Ref sig .tc) (h0 : b ∉ hostOps0_W) (h1 : b ∉ hostOps1_W) (o0 : b ≠ main_v5) (o1 : b ≠ main_v7) :
    W4 (F := Ideal) m c (Proc.devRef .tc b) = argAt m c b :=
  (W4_of_W2 m c b h1 o1).trans (W2_of_W0 m c b h0 o0)
theorem W6_arg (b : Ref sig .tc) (h0 : b ∉ hostOps0_W) (h1 : b ∉ hostOps1_W) (h2 : b ∉ hostOps2_W)
    (o0 : b ≠ main_v5) (o1 : b ≠ main_v7) (o2 : b ≠ main_v31) :
    W6 (F := Ideal) m c (Proc.devRef .tc b) = argAt m c b :=
  (W6_of_W4 m c b h2 o2).trans (W4_arg m c b h0 h1 o0 o1)
theorem W8_arg (b : Ref sig .tc) (h0 : b ∉ hostOps0_W) (h1 : b ∉ hostOps1_W) (h2 : b ∉ hostOps2_W) (h3 : b ∉ hostOps3_W)
    (o0 : b ≠ main_v5) (o1 : b ≠ main_v7) (o2 : b ≠ main_v31) (o3 : b ≠ main_v42) :
    W8 (F := Ideal) m c (Proc.devRef .tc b) = argAt m c b :=
  (W8_of_W6 m c b h3 o3).trans (W6_arg m c b h0 h1 h2 o0 o1 o2)
theorem W10_arg (b : Ref sig .tc) (h0 : b ∉ hostOps0_W) (h1 : b ∉ hostOps1_W) (h2 : b ∉ hostOps2_W) (h3 : b ∉ hostOps3_W)
    (h4 : b ∉ hostOps4_W) (o0 : b ≠ main_v5) (o1 : b ≠ main_v7) (o2 : b ≠ main_v31) (o3 : b ≠ main_v42) (o4 : b ≠ main_v53) :
    W10 (F := Ideal) m c (Proc.devRef .tc b) = argAt m c b :=
  (W10_of_W8 m c b h4 o4).trans (W8_arg m c b h0 h1 h2 h3 o0 o1 o2 o3)

/-! ### Before and after region 0 -/

theorem W1_v1 : W1 (F := Ideal) m c (Proc.devRef .tc main_v1) = Cert.Net.src (F := Ideal) (argAt m c main_arg2) := by
  show StableHlo.after hostOps0 _ (Proc.devRef .tc main_v1) = _
  after_results
  rfl
theorem W1_v3 : W1 (F := Ideal) m c (Proc.devRef .tc main_v3) = Cert.Net.dst (F := Ideal) (argAt m c main_arg2) := by
  show StableHlo.after hostOps0 _ (Proc.devRef .tc main_v3) = _
  after_results
  rfl
theorem W1_v4 : W1 (F := Ideal) m c (Proc.devRef .tc main_v4) = Cert.Net.row (F := Ideal) (argAt m c main_arg4) := by
  show StableHlo.after hostOps0 _ (Proc.devRef .tc main_v4) = _
  after_results
  exact Cert.Spec.biasRow_eq _ _ _

theorem W2_v5 (hS : StageFacts) : W2 (F := Ideal) m c (Proc.devRef .tc main_v5)
    = Cert.Net.preN (F := Ideal) (argAt m c main_arg0) (argAt m c main_arg3) (argAt m c main_arg4) := by
  have h : W2 (F := Ideal) m c (Proc.devRef .tc main_v5) = (dat0 (V1 m) c).arrAt 3 cfg0.N := W2_arr m c 3
  rw [h, hS.s0 (V1 m) c]
  have e0 : V1 (F := Ideal) m c main_arg0 = argAt m c main_arg0 := W1_keep m c main_arg0 (by decide)
  have e1 : V1 (F := Ideal) m c main_arg3 = argAt m c main_arg3 := W1_keep m c main_arg3 (by decide)
  have e2 : V1 (F := Ideal) m c main_v4 = Cert.Net.row (F := Ideal) (argAt m c main_arg4) := W1_v4 m c
  rw [e0, e1, e2]
  rfl
theorem W2_v1 : W2 (F := Ideal) m c (Proc.devRef .tc main_v1) = Cert.Net.src (F := Ideal) (argAt m c main_arg2) :=
  (W2_keep m c main_v1 (by decide)).trans (W1_v1 m c)
theorem W2_v3 : W2 (F := Ideal) m c (Proc.devRef .tc main_v3) = Cert.Net.dst (F := Ideal) (argAt m c main_arg2) :=
  (W2_keep m c main_v3 (by decide)).trans (W1_v3 m c)

/-! ### Before and after region 1 -/

theorem W3_v6 : W3 (F := Ideal) m c (Proc.devRef .tc main_v6) = Cert.Net.row (F := Ideal) (argAt m c main_arg6) := by
  show StableHlo.after hostOps1 _ (Proc.devRef .tc main_v6) = _
  after_results
  rw [W2_of_W0 m c main_arg6 (by decide) (by decide)]
  exact Cert.Spec.biasRow_eq _ _ _
theorem W4_v7 (hS : StageFacts) : W4 (F := Ideal) m c (Proc.devRef .tc main_v7)
    = Cert.Net.preE (F := Ideal) (argAt m c main_arg1) (argAt m c main_arg5) (argAt m c main_arg6) := by
  have h : W4 (F := Ideal) m c (Proc.devRef .tc main_v7) = (dat1 (V3 m) c).arrAt 3 cfg1.N := W4_arr m c 3
  rw [h, hS.s1 (V3 m) c]
  have e0 : V3 (F := Ideal) m c main_arg1 = argAt m c main_arg1 :=
    (W3_keep m c main_arg1 (by decide)).trans (W2_of_W0 m c main_arg1 (by decide) (by decide))
  have e1 : V3 (F := Ideal) m c main_arg5 = argAt m c main_arg5 :=
    (W3_keep m c main_arg5 (by decide)).trans (W2_of_W0 m c main_arg5 (by decide) (by decide))
  have e2 : V3 (F := Ideal) m c main_v6 = Cert.Net.row (F := Ideal) (argAt m c main_arg6) := W3_v6 m c
  rw [e0, e1, e2]
  rfl
theorem W4_v1 : W4 (F := Ideal) m c (Proc.devRef .tc main_v1) = Cert.Net.src (F := Ideal) (argAt m c main_arg2) :=
  (W4_of_W2 m c main_v1 (by decide) (by decide)).trans (W2_v1 m c)
theorem W4_v3 : W4 (F := Ideal) m c (Proc.devRef .tc main_v3) = Cert.Net.dst (F := Ideal) (argAt m c main_arg2) :=
  (W4_of_W2 m c main_v3 (by decide) (by decide)).trans (W2_v3 m c)
theorem W4_v5 (hS : StageFacts) : W4 (F := Ideal) m c (Proc.devRef .tc main_v5)
    = Cert.Net.preN (F := Ideal) (argAt m c main_arg0) (argAt m c main_arg3) (argAt m c main_arg4) :=
  (W4_of_W2 m c main_v5 (by decide) (by decide)).trans (W2_v5 m c hS)

/-! ### Before and after region 2 -/

theorem W5_v14 (hS : StageFacts) : W5 (F := Ideal) m c (Proc.devRef .tc main_v14)
    = Cert.Net.gSrc (F := Ideal) (argAt m c main_arg0) (argAt m c main_arg2) (argAt m c main_arg3) (argAt m c main_arg4) := by
  show StableHlo.after hostOps2 _ (Proc.devRef .tc main_v14) = _
  after_results_simp
  rw [W4_v5 m c hS, W4_v1 m c]
  rfl
theorem W5_v21 (hS : StageFacts) : W5 (F := Ideal) m c (Proc.devRef .tc main_v21)
    = Cert.Net.gDst (F := Ideal) (argAt m c main_arg0) (argAt m c main_arg2) (argAt m c main_arg3) (argAt m c main_arg4) := by
  show StableHlo.after hostOps2 _ (Proc.devRef .tc main_v21) = _
  after_results_simp
  rw [W4_v5 m c hS, W4_v3 m c]
  rfl
theorem W5_v25 : W5 (F := Ideal) m c (Proc.devRef .tc main_v25)
    = Cert.Net.degree (F := Ideal) (Cert.Net.dst (F := Ideal) (argAt m c main_arg2)) := by
  show StableHlo.after hostOps2 _ (Proc.devRef .tc main_v25) = _
  after_results_simp
  rw [W4_v3 m c]
  rfl
theorem W5_v28 : W5 (F := Ideal) m c (Proc.devRef .tc main_v28)
    = Cert.Net.degree (F := Ideal) (Cert.Net.src (F := Ideal) (argAt m c main_arg2)) := by
  show StableHlo.after hostOps2 _ (Proc.devRef .tc main_v28) = _
  after_results_simp
  rw [W4_v1 m c]
  rfl

theorem W5_v29 (hS : StageFacts) : W5 (F := Ideal) m c (Proc.devRef .tc main_v29)
    = cat2 (Cert.Net.gSrc (F := Ideal) (argAt m c main_arg0) (argAt m c main_arg2) (argAt m c main_arg3) (argAt m c main_arg4))
        (Cert.Net.preE (F := Ideal) (argAt m c main_arg1) (argAt m c main_arg5) (argAt m c main_arg6)) := by
  show StableHlo.after hostOps2 _ (Proc.devRef .tc main_v29) = _
  simp only [StableHlo.after_cons, StableHlo.after_nil]
  rw [StableHlo.reshape_result_ne]; rotate_left; decide
  rw [v29_result]
  after_results_simp
  rw [W4_v5 m c hS, W4_v1 m c, W4_v7 m c hS]
  rfl
theorem W5_v30 : W5 (F := Ideal) m c (Proc.devRef .tc main_v30) = Cert.Net.row (F := Ideal) (argAt m c main_arg8) := by
  show StableHlo.after hostOps2 _ (Proc.devRef .tc main_v30) = _
  after_results_simp
  rw [W4_arg m c main_arg8 (by decide) (by decide) (by decide) (by decide)]
  exact Cert.Spec.biasRow_eq _ _ _
theorem W6_v31 (hS : StageFacts) : W6 (F := Ideal) m c (Proc.devRef .tc main_v31)
    = Cert.Net.msgP (F := Ideal) (argAt m c main_arg0) (argAt m c main_arg1) (argAt m c main_arg2) (argAt m c main_arg3)
        (argAt m c main_arg4) (argAt m c main_arg5) (argAt m c main_arg6) (argAt m c main_arg7) (argAt m c main_arg8) := by
  have h : W6 (F := Ideal) m c (Proc.devRef .tc main_v31) = (dat2 (V5 m) c).arrAt 3 cfg2.N := W6_arr m c 3
  rw [h, hS.s2 (V5 m) c]
  have e0 : V5 (F := Ideal) m c main_v29 = _ := W5_v29 m c hS
  have e1 : V5 (F := Ideal) m c main_arg7 = argAt m c main_arg7 :=
    (W5_keep m c main_arg7 (by decide)).trans (W4_arg m c main_arg7 (by decide) (by decide) (by decide) (by decide))
  have e2 : V5 (F := Ideal) m c main_v30 = Cert.Net.row (F := Ideal) (argAt m c main_arg8) := W5_v30 m c
  rw [e0, e1, e2]
  rfl

theorem W6_v1 : W6 (F := Ideal) m c (Proc.devRef .tc main_v1) = (Cert.Net.src (F := Ideal) (argAt m c main_arg2)) :=
  (W6_of_W4 m c main_v1 (by decide) (by decide)).trans (W4_v1 m c)
theorem W6_v3 : W6 (F := Ideal) m c (Proc.devRef .tc main_v3) = (Cert.Net.dst (F := Ideal) (argAt m c main_arg2)) :=
  (W6_of_W4 m c main_v3 (by decide) (by decide)).trans (W4_v3 m c)
theorem W6_v5 (hS : StageFacts) : W6 (F := Ideal) m c (Proc.devRef .tc main_v5) = (Cert.Net.preN (F := Ideal) (argAt m c main_arg0) (argAt m c main_arg3) (argAt m c main_arg4)) :=
  (W6_of_W4 m c main_v5 (by decide) (by decide)).trans (W4_v5 m c hS)
theorem W6_v7 (hS : StageFacts) : W6 (F := Ideal) m c (Proc.devRef .tc main_v7) = (Cert.Net.preE (F := Ideal) (argAt m c main_arg1) (argAt m c main_arg5) (argAt m c main_arg6)) :=
  (W6_of_W4 m c main_v7 (by decide) (by decide)).trans (W4_v7 m c hS)
theorem W6_v14 (hS : StageFacts) : W6 (F := Ideal) m c (Proc.devRef .tc main_v14) = (Cert.Net.gSrc (F := Ideal) (argAt m c main_arg0) (argAt m c main_arg2) (argAt m c main_arg3) (argAt m c main_arg4)) :=
  (W6_keep m c main_v14 (by decide)).trans (W5_v14 m c hS)
theorem W6_v21 (hS : StageFacts) : W6 (F := Ideal) m c (Proc.devRef .tc main_v21) = (Cert.Net.gDst (F := Ideal) (argAt m c main_arg0) (argAt m c main_arg2) (argAt m c main_arg3) (argAt m c main_arg4)) :=
  (W6_keep m c main_v21 (by decide)).trans (W5_v21 m c hS)
theorem W6_v25 : W6 (F := Ideal) m c (Proc.devRef .tc main_v25) = (Cert.Net.degree (F := Ideal) (Cert.Net.dst (F := Ideal) (argAt m c main_arg2))) :=
  (W6_keep m c main_v25 (by decide)).trans (W5_v25 m c)
theorem W6_v28 : W6 (F := Ideal) m c (Proc.devRef .tc main_v28) = (Cert.Net.degree (F := Ideal) (Cert.Net.src (F := Ideal) (argAt m c main_arg2))) :=
  (W6_keep m c main_v28 (by decide)).trans (W5_v28 m c)

/-! ### Before and after region 3 -/

theorem W7_v39 (hS : StageFacts) : W7 (F := Ideal) m c (Proc.devRef .tc main_v39) = (Cert.Net.aggP (F := Ideal) (argAt m c main_arg0) (argAt m c main_arg1) (argAt m c main_arg2) (argAt m c main_arg3) (argAt m c main_arg4) (argAt m c main_arg5) (argAt m c main_arg6) (argAt m c main_arg7) (argAt m c main_arg8)) := by
  show StableHlo.after hostOps3 _ (Proc.devRef .tc main_v39) = _
  after_results_simp
  rw [W6_v3 m c, W6_v31 m c hS, W6_v25 m c]
  rfl
theorem W7_v40 (hS : StageFacts) : W7 (F := Ideal) m c (Proc.devRef .tc main_v40) = cat2 (Cert.Net.gDst (F := Ideal) (argAt m c main_arg0) (argAt m c main_arg2) (argAt m c main_arg3) (argAt m c main_arg4)) (Cert.Net.preE (F := Ideal) (argAt m c main_arg1) (argAt m c main_arg5) (argAt m c main_arg6)) := by
  show StableHlo.after hostOps3 _ (Proc.devRef .tc main_v40) = _
  simp only [StableHlo.after_cons, StableHlo.after_nil]
  rw [StableHlo.reshape_result_ne]; rotate_left; decide
  rw [v40_result]
  after_results_simp
  rw [W6_v21 m c hS, W6_v7 m c hS]
theorem W7_v41 : W7 (F := Ideal) m c (Proc.devRef .tc main_v41) = Cert.Net.row (F := Ideal) (argAt m c main_arg10) := by
  show StableHlo.after hostOps3 _ (Proc.devRef .tc main_v41) = _
  after_results_simp
  rw [W6_arg m c main_arg10 (by decide) (by decide) (by decide) (by decide) (by decide) (by decide)]
  exact Cert.Spec.biasRow_eq _ _ _
theorem W8_v42 (hS : StageFacts) : W8 (F := Ideal) m c (Proc.devRef .tc main_v42) = (Cert.Net.msgS (F := Ideal) (argAt m c main_arg0) (argAt m c main_arg1) (argAt m c main_arg2) (argAt m c main_arg3) (argAt m c main_arg4) (argAt m c main_arg5) (argAt m c main_arg6) (argAt m c main_arg9) (argAt m c main_arg10)) := by
  have h : W8 (F := Ideal) m c (Proc.devRef .tc main_v42) = (dat3 (V7 m) c).arrAt 3 cfg3.N := W8_arr m c 3
  rw [h, hS.s3 (V7 m) c]
  have e0 : V7 (F := Ideal) m c main_v40 = _ := W7_v40 m c hS
  have e1 : V7 (F := Ideal) m c main_arg9 = argAt m c main_arg9 :=
    (W7_keep m c main_arg9 (by decide)).trans (W6_arg m c main_arg9 (by decide) (by decide) (by decide) (by decide) (by decide) (by decide))
  have e2 : V7 (F := Ideal) m c main_v41 = Cert.Net.row (F := Ideal) (argAt m c main_arg10) := W7_v41 m c
  rw [e0, e1, e2]
  rfl
theorem W8_v1 : W8 (F := Ideal) m c (Proc.devRef .tc main_v1) = (Cert.Net.src (F := Ideal) (argAt m c main_arg2)) :=
  (W8_of_W6 m c main_v1 (by decide) (by decide)).trans (W6_v1 m c)
theorem W8_v5 (hS : StageFacts) : W8 (F := Ideal) m c (Proc.devRef .tc main_v5) = (Cert.Net.preN (F := Ideal) (argAt m c main_arg0) (argAt m c main_arg3) (argAt m c main_arg4)) :=
  (W8_of_W6 m c main_v5 (by decide) (by decide)).trans (W6_v5 m c hS)
theorem W8_v7 (hS : StageFacts) : W8 (F := Ideal) m c (Proc.devRef .tc main_v7) = (Cert.Net.preE (F := Ideal) (argAt m c main_arg1) (argAt m c main_arg5) (argAt m c main_arg6)) :=
  (W8_of_W6 m c main_v7 (by decide) (by decide)).trans (W6_v7 m c hS)
theorem W8_v14 (hS : StageFacts) : W8 (F := Ideal) m c (Proc.devRef .tc main_v14) = (Cert.Net.gSrc (F := Ideal) (argAt m c main_arg0) (argAt m c main_arg2) (argAt m c main_arg3) (argAt m c main_arg4)) :=
  (W8_of_W6 m c main_v14 (by decide) (by decide)).trans (W6_v14 m c hS)
theorem W8_v21 (hS : StageFacts) : W8 (F := Ideal) m c (Proc.devRef .tc main_v21) = (Cert.Net.gDst (F := Ideal) (argAt m c main_arg0) (argAt m c main_arg2) (argAt m c main_arg3) (argAt m c main_arg4)) :=
  (W8_of_W6 m c main_v21 (by decide) (by decide)).trans (W6_v21 m c hS)
theorem W8_v28 : W8 (F := Ideal) m c (Proc.devRef .tc main_v28) = (Cert.Net.degree (F := Ideal) (Cert.Net.src (F := Ideal) (argAt m c main_arg2))) :=
  (W8_of_W6 m c main_v28 (by decide) (by decide)).trans (W6_v28 m c)
theorem W8_v39 (hS : StageFacts) : W8 (F := Ideal) m c (Proc.devRef .tc main_v39) = (Cert.Net.aggP (F := Ideal) (argAt m c main_arg0) (argAt m c main_arg1) (argAt m c main_arg2) (argAt m c main_arg3) (argAt m c main_arg4) (argAt m c main_arg5) (argAt m c main_arg6) (argAt m c main_arg7) (argAt m c main_arg8)) :=
  (W8_keep m c main_v39 (by decide)).trans (W7_v39 m c hS)

/-! ### Before and after region 4 -/

theorem W9_v50 (hS : StageFacts) : W9 (F := Ideal) m c (Proc.devRef .tc main_v50) = (Cert.Net.aggS (F := Ideal) (argAt m c main_arg0) (argAt m c main_arg1) (argAt m c main_arg2) (argAt m c main_arg3) (argAt m c main_arg4) (argAt m c main_arg5) (argAt m c main_arg6) (argAt m c main_arg9) (argAt m c main_arg10)) := by
  show StableHlo.after hostOps4 _ (Proc.devRef .tc main_v50) = _
  after_results_simp
  rw [W8_v1 m c, W8_v42 m c hS, W8_v28 m c]
  rfl
theorem W9_v51 (hS : StageFacts) : W9 (F := Ideal) m c (Proc.devRef .tc main_v51) = cat3N (Cert.Net.aggP (F := Ideal) (argAt m c main_arg0) (argAt m c main_arg1) (argAt m c main_arg2) (argAt m c main_arg3) (argAt m c main_arg4) (argAt m c main_arg5) (argAt m c main_arg6) (argAt m c main_arg7) (argAt m c main_arg8)) (Cert.Net.preN (F := Ideal) (argAt m c main_arg0) (argAt m c main_arg3) (argAt m c main_arg4)) (Cert.Net.aggS (F := Ideal) (argAt m c main_arg0) (argAt m c main_arg1) (argAt m c main_arg2) (argAt m c main_arg3) (argAt m c main_arg4) (argAt m c main_arg5) (argAt m c main_arg6) (argAt m c main_arg9) (argAt m c main_arg10)) := by
  show StableHlo.after hostOps4 _ (Proc.devRef .tc main_v51) = _
  simp only [StableHlo.after_cons, StableHlo.after_nil]
  rw [StableHlo.reshape_result_ne]; rotate_left; decide
  rw [v51_result]
  after_results_simp
  rw [W8_v39 m c hS, W8_v5 m c hS, W8_v1 m c, W8_v42 m c hS, W8_v28 m c]
  rfl
theorem W9_v52 : W9 (F := Ideal) m c (Proc.devRef .tc main_v52) = Cert.Net.row (F := Ideal) (argAt m c main_arg12) := by
  show StableHlo.after hostOps4 _ (Proc.devRef .tc main_v52) = _
  after_results_simp
  rw [W8_arg m c main_arg12 (by decide) (by decide) (by decide) (by decide) (by decide) (by decide) (by decide) (by decide)]
  exact Cert.Spec.biasRow_eq _ _ _
theorem W10_v53 (hS : StageFacts) : W10 (F := Ideal) m c (Proc.devRef .tc main_v53) = Cert.Net.nodeOut (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) := by
  have h : W10 (F := Ideal) m c (Proc.devRef .tc main_v53) = (dat4 (V9 m) c).arrAt 3 cfg4.N := W10_arr m c 3
  rw [h, hS.s4 (V9 m) c]
  have e0 : V9 (F := Ideal) m c main_v51 = _ := W9_v51 m c hS
  have e1 : V9 (F := Ideal) m c main_arg11 = argAt m c main_arg11 :=
    (W9_keep m c main_arg11 (by decide)).trans (W8_arg m c main_arg11 (by decide) (by decide) (by decide) (by decide) (by decide) (by decide) (by decide) (by decide))
  have e2 : V9 (F := Ideal) m c main_v52 = Cert.Net.row (F := Ideal) (argAt m c main_arg12) := W9_v52 m c
  rw [e0, e1, e2]
  rfl
theorem W10_v7 (hS : StageFacts) : W10 (F := Ideal) m c (Proc.devRef .tc main_v7) = (Cert.Net.preE (F := Ideal) (argAt m c main_arg1) (argAt m c main_arg5) (argAt m c main_arg6)) :=
  (W10_of_W8 m c main_v7 (by decide) (by decide)).trans (W8_v7 m c hS)
theorem W10_v14 (hS : StageFacts) : W10 (F := Ideal) m c (Proc.devRef .tc main_v14) = (Cert.Net.gSrc (F := Ideal) (argAt m c main_arg0) (argAt m c main_arg2) (argAt m c main_arg3) (argAt m c main_arg4)) :=
  (W10_of_W8 m c main_v14 (by decide) (by decide)).trans (W8_v14 m c hS)
theorem W10_v21 (hS : StageFacts) : W10 (F := Ideal) m c (Proc.devRef .tc main_v21) = (Cert.Net.gDst (F := Ideal) (argAt m c main_arg0) (argAt m c main_arg2) (argAt m c main_arg3) (argAt m c main_arg4)) :=
  (W10_of_W8 m c main_v21 (by decide) (by decide)).trans (W8_v21 m c hS)

/-! ### Before and after region 5 -/

theorem W11_v54 (hS : StageFacts) : W11 (F := Ideal) m c (Proc.devRef .tc main_v54) = cat3E (Cert.Net.gSrc (F := Ideal) (argAt m c main_arg0) (argAt m c main_arg2) (argAt m c main_arg3) (argAt m c main_arg4)) (Cert.Net.preE (F := Ideal) (argAt m c main_arg1) (argAt m c main_arg5) (argAt m c main_arg6)) (Cert.Net.gDst (F := Ideal) (argAt m c main_arg0) (argAt m c main_arg2) (argAt m c main_arg3) (argAt m c main_arg4)) := by
  show StableHlo.after hostOps5 _ (Proc.devRef .tc main_v54) = _
  simp only [StableHlo.after_cons, StableHlo.after_nil]
  rw [StableHlo.reshape_result_ne]; rotate_left; decide
  rw [v54_result]
  rw [W10_v14 m c hS, W10_v7 m c hS, W10_v21 m c hS]
theorem W11_v55 : W11 (F := Ideal) m c (Proc.devRef .tc main_v55) = Cert.Net.row (F := Ideal) (argAt m c main_arg14) := by
  show StableHlo.after hostOps5 _ (Proc.devRef .tc main_v55) = _
  after_results_simp
  rw [W10_arg m c main_arg14 (by decide) (by decide) (by decide) (by decide) (by decide) (by decide) (by decide) (by decide) (by decide) (by decide)]
  exact Cert.Spec.biasRow_eq _ _ _
theorem W12_v56 (hS : StageFacts) : W12 (F := Ideal) m c (Proc.devRef .tc main_v56) = Cert.Net.edgeOut (F := Ideal) (argAt m c main_arg0) (argAt m c main_arg1) (argAt m c main_arg2) (argAt m c main_arg3) (argAt m c main_arg4) (argAt m c main_arg5) (argAt m c main_arg6) (argAt m c main_arg13) (argAt m c main_arg14) := by
  have h : W12 (F := Ideal) m c (Proc.devRef .tc main_v56) = (dat5 (V11 m) c).arrAt 3 cfg5.N := W12_arr m c 3
  rw [h, hS.s5 (V11 m) c]
  have e0 : V11 (F := Ideal) m c main_v54 = _ := W11_v54 m c hS
  have e1 : V11 (F := Ideal) m c main_arg13 = argAt m c main_arg13 :=
    (W11_keep m c main_arg13 (by decide)).trans (W10_arg m c main_arg13 (by decide) (by decide) (by decide) (by decide) (by decide) (by decide) (by decide) (by decide) (by decide) (by decide))
  have e2 : V11 (F := Ideal) m c main_v55 = Cert.Net.row (F := Ideal) (argAt m c main_arg14) := W11_v55 m c
  rw [e0, e1, e2]
  rfl

end Chain

/-- The node output. -/
theorem nodeOut_eq (hS : StageFacts) (c : Dev nD) :
    W12 (F := Ideal) m c (Proc.devRef .tc main_v53) = Cert.Net.nodeOut (F := Ideal)
      (argAt m c main_arg0) (argAt m c main_arg1) (argAt m c main_arg2) (argAt m c main_arg3) (argAt m c main_arg4)
      (argAt m c main_arg5) (argAt m c main_arg6) (argAt m c main_arg7) (argAt m c main_arg8) (argAt m c main_arg9)
      (argAt m c main_arg10) (argAt m c main_arg11) (argAt m c main_arg12) :=
  (W12_of_W10 m c main_v53 (by decide) (by decide)).trans (W10_v53 m c hS)

/-- The edge output. -/
theorem edgeOut_eq (hS : StageFacts) (c : Dev nD) :
    W12 (F := Ideal) m c (Proc.devRef .tc main_v56) = Cert.Net.edgeOut (F := Ideal)
      (argAt m c main_arg0) (argAt m c main_arg1) (argAt m c main_arg2) (argAt m c main_arg3) (argAt m c main_arg4)
      (argAt m c main_arg5) (argAt m c main_arg6) (argAt m c main_arg13) (argAt m c main_arg14) :=
  W12_v56 m c hS

end Cert.KernelIdeal.Reg

end
-- ==== Proof.ValueKI0.lean ====
/- Region 0 of the program computes the node pre-transform, `relu (x · Wn + bn)`: its 10000 × 256 result, as a whole array at the exact reals, is that function of the region's three operand arrays.
  The text below is region 1's with the names and sizes of this region. -/
import proofs.«139872_j38732015076057_1_alg».proof.Proof.RegionKI0
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs0_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem klhs0_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem krhs0_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem krhs0_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The block's product into the zero accumulator, at row `p` and column `q`: the sum over the contracted axis. -/
theorem matmul0_apply (x : FVec Ideal S1000x256 .bf16) (y : FVec Ideal S256x256 .bf16) (p : Fin 1000) (q : Fin 256) :
    FloatOps.matmul dot_S1000x256_S256x256_S1000x256_1_0_0_1_n_n none x y (constant S1000x256 .f32 0x00000000#32) (ix2 p q)
      = ∑ k : Fin 256, x (ix2 p k) * y (ix2 k q) := by
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact klhs0_0 _ _
    | ⟨1, _⟩ => exact (klhs0_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (krhs0_0 _ _).trans hk
    | ⟨1, _⟩ => exact krhs0_1 _ _)
  rw [el, er]

theorem rlhs0_0 (i : S10000x256.Idx) (q : Cert.ReferenceIdeal.dot_S10000x256_S256x256_S10000x256_1_0_0_1_n_n.contr.Idx) :
    (Cert.ReferenceIdeal.dot_S10000x256_S256x256_S10000x256_1_0_0_1_n_n.lhsIdx i q 0).val = (i 0).val := by
  unfold DotDims.lhsIdx
  rw [dif_neg (show ¬(0 : Fin S10000x256.rank) ∈ Cert.ReferenceIdeal.dot_S10000x256_S256x256_S10000x256_1_0_0_1_n_n.lhsBatch by decide), dif_pos (show (0 : Fin S10000x256.rank) ∈ Cert.ReferenceIdeal.dot_S10000x256_S256x256_S10000x256_1_0_0_1_n_n.lhsNonContracting by decide)]
  rfl
theorem rlhs0_1 (i : S10000x256.Idx) (q : Cert.ReferenceIdeal.dot_S10000x256_S256x256_S10000x256_1_0_0_1_n_n.contr.Idx) :
    (Cert.ReferenceIdeal.dot_S10000x256_S256x256_S10000x256_1_0_0_1_n_n.lhsIdx i q 1).val = (q ⟨0, by decide⟩).val :=
  Cert.ReferenceIdeal.dot_S10000x256_S256x256_S10000x256_1_0_0_1_n_n.lhsIdx_val_of_single rfl i q
theorem rrhs0_0 (i : S10000x256.Idx) (q : Cert.ReferenceIdeal.dot_S10000x256_S256x256_S10000x256_1_0_0_1_n_n.contr.Idx) :
    (Cert.ReferenceIdeal.dot_S10000x256_S256x256_S10000x256_1_0_0_1_n_n.rhsIdx i q 0).val = (q ⟨0, by decide⟩).val :=
  Cert.ReferenceIdeal.dot_S10000x256_S256x256_S10000x256_1_0_0_1_n_n.rhsIdx_val_of_single rfl i q
theorem rrhs0_1 (i : S10000x256.Idx) (q : Cert.ReferenceIdeal.dot_S10000x256_S256x256_S10000x256_1_0_0_1_n_n.contr.Idx) :
    (Cert.ReferenceIdeal.dot_S10000x256_S256x256_S10000x256_1_0_0_1_n_n.rhsIdx i q 1).val = (i 1).val := by
  unfold DotDims.rhsIdx
  rw [dif_neg (show ¬(1 : Fin S256x256.rank) ∈ Cert.ReferenceIdeal.dot_S10000x256_S256x256_S10000x256_1_0_0_1_n_n.rhsBatch by decide), dif_pos (show (1 : Fin S256x256.rank) ∈ Cert.ReferenceIdeal.dot_S10000x256_S256x256_S10000x256_1_0_0_1_n_n.rhsNonContracting by decide)]
  rfl

/-- The whole arrays' product, at row `r` and column `q`: the same sum over the contracted axis. -/
theorem dot0_apply (a : FVec Ideal S10000x256 .f32) (w : FVec Ideal S256x256 .f32) (r : Fin 10000) (q : Fin 256) :
    Host.dotGeneral Cert.ReferenceIdeal.dot_S10000x256_S256x256_S10000x256_1_0_0_1_n_n none a w (ix2 r q)
      = ∑ k : Fin 256, a (ix2 r k) * w (ix2 k q) := by
  simp only [Host.dotGeneral]
  rw [Ideal.dotGeneral_apply, ← Equiv.sum_comp (contrEquiv1 Cert.ReferenceIdeal.dot_S10000x256_S256x256_S10000x256_1_0_0_1_n_n 256 rfl rfl).symm]
  refine Finset.sum_congr rfl fun k _ => ?_
  have hk := contrEquiv1_symm_val Cert.ReferenceIdeal.dot_S10000x256_S256x256_S10000x256_1_0_0_1_n_n 256 rfl rfl k
  have el : Cert.ReferenceIdeal.dot_S10000x256_S256x256_S10000x256_1_0_0_1_n_n.lhsIdx (ix2 r q) ((contrEquiv1 Cert.ReferenceIdeal.dot_S10000x256_S256x256_S10000x256_1_0_0_1_n_n 256 rfl rfl).symm k) = ix2 r k := funext fun a => Fin.ext (by
    match a with
    | ⟨0, _⟩ => exact rlhs0_0 _ _
    | ⟨1, _⟩ => exact (rlhs0_1 _ _).trans hk)
  have er : Cert.ReferenceIdeal.dot_S10000x256_S256x256_S10000x256_1_0_0_1_n_n.rhsIdx (ix2 r q) ((contrEquiv1 Cert.ReferenceIdeal.dot_S10000x256_S256x256_S10000x256_1_0_0_1_n_n 256 rfl rfl).symm k) = ix2 k q := funext fun a => Fin.ext (by
    match a with
    | ⟨0, _⟩ => exact (rrhs0_0 _ _).trans hk
    | ⟨1, _⟩ => exact rrhs0_1 _ _)
  rw [el, er]

/-! ## The body's arithmetic and the stage, each at an index -/

/-- What the body stores, at row `p` and column `q` of the block. -/
theorem pay0_apply (x0 : Vec Ideal S1000x256 .f32) (x1 : Vec Ideal S256x256 .f32) (x2 : Vec Ideal S1x256 .f32) (p : Fin 1000) (q : Fin 256) :
    k0_pay1 (F := Ideal) x0 x1 x2 (ix2 p q)
      = max ((∑ k : Fin 256, x0 (ix2 p k) * x1 (ix2 k q)) + x2 (ix2 (0 : Fin 1) q)) (Ideal.ofBits .f32 0x00000000#32) := by
  unfold k0_pay1
  simp only [shapeCast_self]
  show max (FloatOps.matmul (F := Ideal) dot_S1000x256_S256x256_S1000x256_1_0_0_1_n_n none (truncf (F := Ideal) .bf16 x0 bitsLt_bf16_f32) (truncf (F := Ideal) .bf16 x1 bitsLt_bf16_f32) (constant (F := Ideal) S1000x256 .f32 0x00000000#32) (ix2 p q)
      + broadcastTo S1000x256 x2 broadcasts_S1x256_S1000x256 (ix2 p q)) (Ideal.ofBits .f32 0x00000000#32) = _
  rw [matmul0_apply, broadcastTo_1b_ab_apply]
  rfl

/-- The stage, at row `r` and column `q` of the array. -/
theorem stage0_apply (a : FVec Ideal S10000x256 .f32) (w : FVec Ideal S256x256 .f32) (row : FVec Ideal S1x256 .f32) (r : Fin 10000) (q : Fin 256) :
    Cert.Spec.stage0 (F := Ideal) a w row (ix2 r q)
      = max ((∑ k : Fin 256, a (ix2 r k) * w (ix2 k q)) + row (ix2 (0 : Fin 1) q)) (Ideal.ofBits .f32 0x00000000#32) := by
  unfold Cert.Spec.stage0
  show max (Host.dotGeneral Cert.ReferenceIdeal.dot_S10000x256_S256x256_S10000x256_1_0_0_1_n_n none a w (ix2 r q)
      + broadcastInDim S10000x256 ![0, 1] Cert.ReferenceIdeal.Gen.bcast_S1x256_S10000x256_0_1 row (ix2 r q)) (Ideal.ofBits .f32 0x00000000#32) = _
  rw [dot0_apply, broadcastInDim_oneRow_apply]

/-! ## Where the blocks lie in the arrays -/

theorem hz0 : (![0, 0] : Fin 2 → Nat) = fun _ => 0 := funext fun a => by fin_cases a <;> rfl

/-- The printed index maps, decided over the grid: the row block and the result block are at block row `t`, the weight
    and the bias row do not move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row block at point `t` is rows `1000 t …` of the operand. -/
theorem iblk0_0_apply (c : Dev nD) (t : Fin cfg0.N) (p : Fin 1000) (k : Fin 256) (r : Fin 10000) (hr : r.val = 1000 * t.val + p.val) :
    (iblk0 V c 0 t : Vec Ideal S1000x256 .f32) (ix2 p k) = (V c main_arg0 : Vec Ideal S10000x256 .f32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 256 + 1 * k.val = k.val; rw [e1]; omega

/-- The weight's block at any point is the weight. -/
theorem iblk0_1_apply (c : Dev nD) (t : Fin cfg0.N) (k : Fin 256) (q : Fin 256) :
    (iblk0 V c 1 t : Vec Ideal S256x256 .f32) (ix2 k q) = (V c main_arg3 : Vec Ideal S256x256 .f32) (ix2 k q) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The bias row's block at any point is the bias row. -/
theorem iblk0_2_apply (c : Dev nD) (t : Fin cfg0.N) (z : Fin 1) (q : Fin 256) :
    (iblk0 V c 2 t : Vec Ideal S1x256 .f32) (ix2 z q) = (V c main_v4 : Vec Ideal S1x256 .f32) (ix2 z q) := by
  obtain ⟨-, -, -, -, e0, e1, -⟩ := idx_facts0 t
  unfold iblk0
  rw [View.read_apply]
  show V c main_v4 _ = V c main_v4 _
  congr 1
  funext a
  apply Fin.ext
  match a with
  | ⟨0, _⟩ => show win0_2.index t (0 : Fin 2) * 1 + 1 * z.val = z.val; rw [e0]; omega
  | ⟨1, _⟩ => show win0_2.index t (1 : Fin 2) * 256 + 1 * q.val = q.val; rw [e1]; omega

/-! ## From the blocks to the array -/

/-- What point `t` writes back is block `t` of the stage of the three arrays as the region finds them. -/
theorem flushed0_eq (c : Dev nD) (t : Fin cfg0.N) :
    (dat0 (F := Ideal) V c).flushed 3 t = ((cfg0.win 3).blk t).view.read (Elt Ideal) (Cert.Spec.stage0 (F := Ideal) (V c main_arg0) (V c main_arg3) (V c main_v4)) := by
  show (cfg0.win 3).cut (grid0.coords t) ((dat0 (F := Ideal) V c).after 3 t) = _
  rw [after0_3]
  unfold out0_3
  rw [View.canon_unit_zero hz0]
  simp only [View.ld_unit_zero (S := S1000x256) hz0, View.ld_unit_zero (S := S256x256) hz0, View.ld_unit_zero (S := S1x256) hz0]
  obtain ⟨-, -, -, -, -, -, e0, e1⟩ := idx_facts0 t
  funext j
  obtain ⟨p, q, rfl⟩ : ∃ (p : Fin 1000) (q : Fin 256), j = ix2 p q := ⟨j 0, j 1, eq_ix2 (n0 := 1000) (n1 := 256) j⟩
  have hp : p.val < 1000 := p.isLt
  have ht : t.val < 10 := t.isLt
  rw [View.read_apply]
  have hemb : ((cfg0.win 3).blk t).view.emb (ix2 p q) = (ix2 (⟨1000 * t.val + p.val, by omega⟩ : Fin 10000) q : S10000x256.Idx) := by
    funext a
    apply Fin.ext
    match a with
    | ⟨0, _⟩ => show win0_3.index t (0 : Fin 2) * 1000 + 1 * p.val = 1000 * t.val + p.val; rw [e0]; omega
    | ⟨1, _⟩ => show win0_3.index t (1 : Fin 2) * 256 + 1 * q.val = q.val; rw [e1]; omega
  rw [hemb]
  refine (pay0_apply _ _ _ p q).trans (Eq.trans ?_ (stage0_apply _ _ _ ⟨1000 * t.val + p.val, by omega⟩ q).symm)
  rw [iblk0_2_apply V c t 0 q]
  congr 2
  refine Finset.sum_congr rfl fun k _ => ?_
  rw [iblk0_0_apply V c t p k ⟨1000 * t.val + p.val, by omega⟩ rfl, iblk0_1_apply V c t k q]

/-- An index of the array is in point `t`'s block iff each coordinate is in the block's range on its axis. -/
theorem mem_blk0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole (Pipeline.arrRef spec0 3)).slice (win0_3.rect t)).set ↔ _
  rw [View.set_slice_whole, Rect.mem_set_unit]
  exact Iff.rfl

/-- Row `i` lies in the block of point `i / 1000`, which is written back. -/
theorem cover0_rows (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have ht : (i 0).val / 1000 < 10 := by omega
  refine ⟨⟨(i 0).val / 1000, ht⟩, flush0_3 _, ?_⟩
  obtain ⟨-, -, -, -, -, -, e0, e1⟩ := idx_facts0 ⟨(i 0).val / 1000, ht⟩
  rw [mem_blk0]
  intro a
  match a with
  | ⟨0, _⟩ => show win0_3.index ⟨(i 0).val / 1000, ht⟩ (0 : Fin 2) * 1000 ≤ (i 0).val ∧ (i 0).val < win0_3.index ⟨(i 0).val / 1000, ht⟩ (0 : Fin 2) * 1000 + 1000; rw [e0]; show (i 0).val / 1000 * 1000 ≤ (i 0).val ∧ (i 0).val < (i 0).val / 1000 * 1000 + 1000; omega
  | ⟨1, _⟩ => show win0_3.index ⟨(i 0).val / 1000, ht⟩ (1 : Fin 2) * 256 ≤ (i 1).val ∧ (i 1).val < win0_3.index ⟨(i 0).val / 1000, ht⟩ (1 : Fin 2) * 256 + 256; rw [e1]; omega

/-- The array the grid leaves is the stage of the three operand arrays. -/
theorem final0 (c : Dev nD) :
    (dat0 (F := Ideal) V c).arrAt 3 cfg0.N = Cert.Spec.stage0 (F := Ideal) (V c main_arg0) (V c main_arg3) (V c main_v4) :=
  (dat0 (F := Ideal) V c).arrAt_eq_of_cover 3 (Cert.Spec.stage0 (F := Ideal) (V c main_arg0) (V c main_arg3) (V c main_v4))
    (fun t _ => flushed0_eq V c t) cover0_rows

end Cert.KernelIdeal.Reg

end
-- ==== Proof.ValueKI1.lean ====
/-
  Region 1's result as a whole array, at the exact reals: the 160000 × 256 array the grid leaves is
  `relu (a · w + row)` of the three operand arrays as the region found them.

  At the exact reals the narrowing to bf16 is the identity and the product into a zero accumulator is the plain sum
  over the contracted axis, so entry (p, q) of what a point stores is `max (∑ k, x0 (p, k) · x1 (k, q) + x2 (0, q)) 0`
  of its three blocks (`pay1_apply`), and entry (r, q) of the stage is the same expression of the three arrays
  (`stage1_apply`).  Point `t`'s row block is rows `4000 t …` of the operand, its weight and bias blocks are the whole
  weight and bias row, and its result block is rows `4000 t …` of the result (`idx_facts1`, `iblk1_0_apply` …), so what
  point `t` writes back is block `t` of the stage (`flushed1_eq`); row `i` lies in the block of point `i / 4000`
  (`cover1_rows`), so the array ends holding the stage (`final1`).
-/
import proofs.«139872_j38732015076057_1_alg».proof.Proof.RegionKI1
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs1_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem klhs1_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem krhs1_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem krhs1_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The block's product into the zero accumulator, at row `p` and column `q`: the sum over the contracted axis. -/
theorem matmul1_apply (x : FVec Ideal S4000x128 .bf16) (y : FVec Ideal S128x256 .bf16) (p : Fin 4000) (q : Fin 256) :
    FloatOps.matmul dot_S4000x128_S128x256_S4000x256_1_0_0_1_n_n none x y (constant S4000x256 .f32 0x00000000#32) (ix2 p q)
      = ∑ k : Fin 128, x (ix2 p k) * y (ix2 k q) := by
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact klhs1_0 _ _
    | ⟨1, _⟩ => exact (klhs1_1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (krhs1_0 _ _).trans hk
    | ⟨1, _⟩ => exact krhs1_1 _ _)
  rw [el, er]

theorem rlhs1_0 (i : S160000x256.Idx) (q : Cert.ReferenceIdeal.dot_S160000x128_S128x256_S160000x256_1_0_0_1_n_n.contr.Idx) :
    (Cert.ReferenceIdeal.dot_S160000x128_S128x256_S160000x256_1_0_0_1_n_n.lhsIdx i q 0).val = (i 0).val := by
  unfold DotDims.lhsIdx
  rw [dif_neg (show ¬(0 : Fin S160000x128.rank) ∈ Cert.ReferenceIdeal.dot_S160000x128_S128x256_S160000x256_1_0_0_1_n_n.lhsBatch by decide), dif_pos (show (0 : Fin S160000x128.rank) ∈ Cert.ReferenceIdeal.dot_S160000x128_S128x256_S160000x256_1_0_0_1_n_n.lhsNonContracting by decide)]
  rfl
theorem rlhs1_1 (i : S160000x256.Idx) (q : Cert.ReferenceIdeal.dot_S160000x128_S128x256_S160000x256_1_0_0_1_n_n.contr.Idx) :
    (Cert.ReferenceIdeal.dot_S160000x128_S128x256_S160000x256_1_0_0_1_n_n.lhsIdx i q 1).val = (q ⟨0, by decide⟩).val :=
  Cert.ReferenceIdeal.dot_S160000x128_S128x256_S160000x256_1_0_0_1_n_n.lhsIdx_val_of_single rfl i q
theorem rrhs1_0 (i : S160000x256.Idx) (q : Cert.ReferenceIdeal.dot_S160000x128_S128x256_S160000x256_1_0_0_1_n_n.contr.Idx) :
    (Cert.ReferenceIdeal.dot_S160000x128_S128x256_S160000x256_1_0_0_1_n_n.rhsIdx i q 0).val = (q ⟨0, by decide⟩).val :=
  Cert.ReferenceIdeal.dot_S160000x128_S128x256_S160000x256_1_0_0_1_n_n.rhsIdx_val_of_single rfl i q
theorem rrhs1_1 (i : S160000x256.Idx) (q : Cert.ReferenceIdeal.dot_S160000x128_S128x256_S160000x256_1_0_0_1_n_n.contr.Idx) :
    (Cert.ReferenceIdeal.dot_S160000x128_S128x256_S160000x256_1_0_0_1_n_n.rhsIdx i q 1).val = (i 1).val := by
  unfold DotDims.rhsIdx
  rw [dif_neg (show ¬(1 : Fin S128x256.rank) ∈ Cert.ReferenceIdeal.dot_S160000x128_S128x256_S160000x256_1_0_0_1_n_n.rhsBatch by decide), dif_pos (show (1 : Fin S128x256.rank) ∈ Cert.ReferenceIdeal.dot_S160000x128_S128x256_S160000x256_1_0_0_1_n_n.rhsNonContracting by decide)]
  rfl

/-- The whole arrays' product, at row `r` and column `q`: the same sum over the contracted axis. -/
theorem dot1_apply (a : FVec Ideal S160000x128 .f32) (w : FVec Ideal S128x256 .f32) (r : Fin 160000) (q : Fin 256) :
    Host.dotGeneral Cert.ReferenceIdeal.dot_S160000x128_S128x256_S160000x256_1_0_0_1_n_n none a w (ix2 r q)
      = ∑ k : Fin 128, a (ix2 r k) * w (ix2 k q) := by
  simp only [Host.dotGeneral]
  rw [Ideal.dotGeneral_apply, ← Equiv.sum_comp (contrEquiv1 Cert.ReferenceIdeal.dot_S160000x128_S128x256_S160000x256_1_0_0_1_n_n 128 rfl rfl).symm]
  refine Finset.sum_congr rfl fun k _ => ?_
  have hk := contrEquiv1_symm_val Cert.ReferenceIdeal.dot_S160000x128_S128x256_S160000x256_1_0_0_1_n_n 128 rfl rfl k
  have el : Cert.ReferenceIdeal.dot_S160000x128_S128x256_S160000x256_1_0_0_1_n_n.lhsIdx (ix2 r q) ((contrEquiv1 Cert.ReferenceIdeal.dot_S160000x128_S128x256_S160000x256_1_0_0_1_n_n 128 rfl rfl).symm k) = ix2 r k := funext fun a => Fin.ext (by
    match a with
    | ⟨0, _⟩ => exact rlhs1_0 _ _
    | ⟨1, _⟩ => exact (rlhs1_1 _ _).trans hk)
  have er : Cert.ReferenceIdeal.dot_S160000x128_S128x256_S160000x256_1_0_0_1_n_n.rhsIdx (ix2 r q) ((contrEquiv1 Cert.ReferenceIdeal.dot_S160000x128_S128x256_S160000x256_1_0_0_1_n_n 128 rfl rfl).symm k) = ix2 k q := funext fun a => Fin.ext (by
    match a with
    | ⟨0, _⟩ => exact (rrhs1_0 _ _).trans hk
    | ⟨1, _⟩ => exact rrhs1_1 _ _)
  rw [el, er]

/-! ## The body's arithmetic and the stage, each at an index -/

/-- What the body stores, at row `p` and column `q` of the block. -/
theorem pay1_apply (x0 : Vec Ideal S4000x128 .f32) (x1 : Vec Ideal S128x256 .f32) (x2 : Vec Ideal S1x256 .f32) (p : Fin 4000) (q : Fin 256) :
    k1_pay1 (F := Ideal) x0 x1 x2 (ix2 p q)
      = max ((∑ k : Fin 128, x0 (ix2 p k) * x1 (ix2 k q)) + x2 (ix2 (0 : Fin 1) q)) (Ideal.ofBits .f32 0x00000000#32) := by
  unfold k1_pay1
  simp only [shapeCast_self]
  show max (FloatOps.matmul (F := Ideal) dot_S4000x128_S128x256_S4000x256_1_0_0_1_n_n none (truncf (F := Ideal) .bf16 x0 bitsLt_bf16_f32) (truncf (F := Ideal) .bf16 x1 bitsLt_bf16_f32) (constant (F := Ideal) S4000x256 .f32 0x00000000#32) (ix2 p q)
      + broadcastTo S4000x256 x2 broadcasts_S1x256_S4000x256 (ix2 p q)) (Ideal.ofBits .f32 0x00000000#32) = _
  rw [matmul1_apply, broadcastTo_1b_ab_apply]
  rfl

/-- The stage, at row `r` and column `q` of the array. -/
theorem stage1_apply (a : FVec Ideal S160000x128 .f32) (w : FVec Ideal S128x256 .f32) (row : FVec Ideal S1x256 .f32) (r : Fin 160000) (q : Fin 256) :
    Cert.Spec.stage1 (F := Ideal) a w row (ix2 r q)
      = max ((∑ k : Fin 128, a (ix2 r k) * w (ix2 k q)) + row (ix2 (0 : Fin 1) q)) (Ideal.ofBits .f32 0x00000000#32) := by
  unfold Cert.Spec.stage1
  show max (Host.dotGeneral Cert.ReferenceIdeal.dot_S160000x128_S128x256_S160000x256_1_0_0_1_n_n none a w (ix2 r q)
      + broadcastInDim S160000x256 ![0, 1] Cert.ReferenceIdeal.Gen.bcast_S1x256_S160000x256_0_1 row (ix2 r q)) (Ideal.ofBits .f32 0x00000000#32) = _
  rw [dot1_apply, broadcastInDim_oneRow_apply]

/-! ## Where the blocks lie in the arrays -/

theorem hz1 : (![0, 0] : Fin 2 → Nat) = fun _ => 0 := funext fun a => by fin_cases a <;> rfl

/-- The printed index maps, decided over the grid: the row block and the result block are at block row `t`, the weight
    and the bias row do not move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row block at point `t` is rows `4000 t …` of the operand. -/
theorem iblk1_0_apply (c : Dev nD) (t : Fin cfg1.N) (p : Fin 4000) (k : Fin 128) (r : Fin 160000) (hr : r.val = 4000 * t.val + p.val) :
    (iblk1 V c 0 t : Vec Ideal S4000x128 .f32) (ix2 p k) = (V c main_arg1 : Vec Ideal S160000x128 .f32) (ix2 r k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The weight's block at any point is the weight. -/
theorem iblk1_1_apply (c : Dev nD) (t : Fin cfg1.N) (k : Fin 128) (q : Fin 256) :
    (iblk1 V c 1 t : Vec Ideal S128x256 .f32) (ix2 k q) = (V c main_arg5 : Vec Ideal S128x256 .f32) (ix2 k q) := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t (0 : Fin 2) * 128 + 1 * k.val = k.val; rw [e0]; omega
  | ⟨1, _⟩ => show win1_1.index t (1 : Fin 2) * 256 + 1 * q.val = q.val; rw [e1]; omega

/-- The bias row's block at any point is the bias row. -/
theorem iblk1_2_apply (c : Dev nD) (t : Fin cfg1.N) (z : Fin 1) (q : Fin 256) :
    (iblk1 V c 2 t : Vec Ideal S1x256 .f32) (ix2 z q) = (V c main_v6 : Vec Ideal S1x256 .f32) (ix2 z q) := by
  obtain ⟨-, -, -, -, e0, e1, -⟩ := idx_facts1 t
  unfold iblk1
  rw [View.read_apply]
  show V c main_v6 _ = V c main_v6 _
  congr 1
  funext a
  apply Fin.ext
  match a with
  | ⟨0, _⟩ => show win1_2.index t (0 : Fin 2) * 1 + 1 * z.val = z.val; rw [e0]; omega
  | ⟨1, _⟩ => show win1_2.index t (1 : Fin 2) * 256 + 1 * q.val = q.val; rw [e1]; omega

/-! ## From the blocks to the array -/

/-- What point `t` writes back is block `t` of the stage of the three arrays as the region finds them. -/
theorem flushed1_eq (c : Dev nD) (t : Fin cfg1.N) :
    (dat1 (F := Ideal) V c).flushed 3 t = ((cfg1.win 3).blk t).view.read (Elt Ideal) (Cert.Spec.stage1 (F := Ideal) (V c main_arg1) (V c main_arg5) (V c main_v6)) := by
  show (cfg1.win 3).cut (grid1.coords t) ((dat1 (F := Ideal) V c).after 3 t) = _
  rw [after1_3]
  unfold out1_3
  rw [View.canon_unit_zero hz1]
  simp only [View.ld_unit_zero (S := S4000x128) hz1, View.ld_unit_zero (S := S128x256) hz1, View.ld_unit_zero (S := S1x256) hz1]
  obtain ⟨-, -, -, -, -, -, e0, e1⟩ := idx_facts1 t
  funext j
  obtain ⟨p, q, rfl⟩ : ∃ (p : Fin 4000) (q : Fin 256), j = ix2 p q := ⟨j 0, j 1, eq_ix2 (n0 := 4000) (n1 := 256) j⟩
  have hp : p.val < 4000 := p.isLt
  have ht : t.val < 40 := t.isLt
  rw [View.read_apply]
  have hemb : ((cfg1.win 3).blk t).view.emb (ix2 p q) = (ix2 (⟨4000 * t.val + p.val, by omega⟩ : Fin 160000) q : S160000x256.Idx) := by
    funext a
    apply Fin.ext
    match a with
    | ⟨0, _⟩ => show win1_3.index t (0 : Fin 2) * 4000 + 1 * p.val = 4000 * t.val + p.val; rw [e0]; omega
    | ⟨1, _⟩ => show win1_3.index t (1 : Fin 2) * 256 + 1 * q.val = q.val; rw [e1]; omega
  rw [hemb]
  refine (pay1_apply _ _ _ p q).trans (Eq.trans ?_ (stage1_apply _ _ _ ⟨4000 * t.val + p.val, by omega⟩ q).symm)
  rw [iblk1_2_apply V c t 0 q]
  congr 2
  refine Finset.sum_congr rfl fun k _ => ?_
  rw [iblk1_0_apply V c t p k ⟨4000 * t.val + p.val, by omega⟩ rfl, iblk1_1_apply V c t k q]

/-- An index of the array is in point `t`'s block iff each coordinate is in the block's range on its axis. -/
theorem mem_blk1 (t : Fin cfg1.N) (i : S160000x256.Idx) :
    i ∈ ((cfg1.win 3).blk t).view.set ↔ ∀ a : Fin 2, win1_3.index t a * S4000x256.size a ≤ (i a).val ∧ (i a).val < win1_3.index t a * S4000x256.size a + S4000x256.size a := by
  show i ∈ ((View.whole (Pipeline.arrRef spec1 3)).slice (win1_3.rect t)).set ↔ _
  rw [View.set_slice_whole, Rect.mem_set_unit]
  exact Iff.rfl

/-- Row `i` lies in the block of point `i / 4000`, which is written back. -/
theorem cover1_rows (i : S160000x256.Idx) :
    ∃ t : Fin cfg1.N, (cfg1.win 3).flush t = true ∧ i ∈ ((cfg1.win 3).blk t).view.set := by
  have hi0 : (i 0).val < 160000 := (i 0).isLt
  have hi1 : (i 1).val < 256 := (i 1).isLt
  have ht : (i 0).val / 4000 < 40 := by omega
  refine ⟨⟨(i 0).val / 4000, ht⟩, flush1_3 _, ?_⟩
  obtain ⟨-, -, -, -, -, -, e0, e1⟩ := idx_facts1 ⟨(i 0).val / 4000, ht⟩
  rw [mem_blk1]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win1_3.index ⟨(i 0).val / 4000, ht⟩ (1 : Fin 2) * 256 ≤ (i 1).val ∧ (i 1).val < win1_3.index ⟨(i 0).val / 4000, ht⟩ (1 : Fin 2) * 256 + 256; rw [e1]; omega

/-- The array the grid leaves is the stage of the three operand arrays. -/
theorem final1 (c : Dev nD) :
    (dat1 (F := Ideal) V c).arrAt 3 cfg1.N = Cert.Spec.stage1 (F := Ideal) (V c main_arg1) (V c main_arg5) (V c main_v6) :=
  (dat1 (F := Ideal) V c).arrAt_eq_of_cover 3 (Cert.Spec.stage1 (F := Ideal) (V c main_arg1) (V c main_arg5) (V c main_v6))
    (fun t _ => flushed1_eq V c t) cover1_rows

end Cert.KernelIdeal.Reg

end
-- ==== Proof.ValueKI2.lean ====
/-
  Region 2's result as a whole array, at the exact reals: the 160000 × 256 array the grid leaves is
  `relu (a · w + row)` of the three operand arrays as the region found them.

  The body first casts its row block to the shape it already has, which changes nothing.  At the exact reals the
  narrowing to bf16 is the identity and the product into a zero accumulator is the plain sum
  over the contracted axis, so entry (p, q) of what a point stores is `max (∑ k, x0 (p, k) · x1 (k, q) + x2 (0, q)) 0`
  of its three blocks (`pay2_apply`), and entry (r, q) of the stage is the same expression of the three arrays
  (`stage2_apply`).  Point `t`'s row block is rows `2000 t …` of the operand, its weight and bias blocks are the whole
  weight and bias row, and its result block is rows `2000 t …` of the result (`idx_facts2`, `iblk2_0_apply` …), so what
  point `t` writes back is block `t` of the stage (`flushed2_eq`); row `i` lies in the block of point `i / 2000`
  (`cover2_rows`), so the array ends holding the stage (`final2`).
-/
import proofs.«139872_j38732015076057_1_alg».proof.Proof.RegionKI2
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs2_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem klhs2_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem krhs2_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem krhs2_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The block's product into the zero accumulator, at row `p` and column `q`: the sum over the contracted axis. -/
theorem matmul2_apply (x : FVec Ideal S2000x512 .bf16) (y : FVec Ideal S512x256 .bf16) (p : Fin 2000) (q : Fin 256) :
    FloatOps.matmul dot_S2000x512_S512x256_S2000x256_1_0_0_1_n_n none x y (constant S2000x256 .f32 0x00000000#32) (ix2 p q)
      = ∑ k : Fin 512, x (ix2 p k) * y (ix2 k q) := by
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact klhs2_0 _ _
    | ⟨1, _⟩ => exact (klhs2_1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (krhs2_0 _ _).trans hk
    | ⟨1, _⟩ => exact krhs2_1 _ _)
  rw [el, er]

theorem rlhs2_0 (i : S160000x256.Idx) (q : Cert.ReferenceIdeal.dot_S160000x512_S512x256_S160000x256_1_0_0_1_n_n.contr.Idx) :
    (Cert.ReferenceIdeal.dot_S160000x512_S512x256_S160000x256_1_0_0_1_n_n.lhsIdx i q 0).val = (i 0).val := by
  unfold DotDims.lhsIdx
  rw [dif_neg (show ¬(0 : Fin S160000x512.rank) ∈ Cert.ReferenceIdeal.dot_S160000x512_S512x256_S160000x256_1_0_0_1_n_n.lhsBatch by decide), dif_pos (show (0 : Fin S160000x512.rank) ∈ Cert.ReferenceIdeal.dot_S160000x512_S512x256_S160000x256_1_0_0_1_n_n.lhsNonContracting by decide)]
  rfl
theorem rlhs2_1 (i : S160000x256.Idx) (q : Cert.ReferenceIdeal.dot_S160000x512_S512x256_S160000x256_1_0_0_1_n_n.contr.Idx) :
    (Cert.ReferenceIdeal.dot_S160000x512_S512x256_S160000x256_1_0_0_1_n_n.lhsIdx i q 1).val = (q ⟨0, by decide⟩).val :=
  Cert.ReferenceIdeal.dot_S160000x512_S512x256_S160000x256_1_0_0_1_n_n.lhsIdx_val_of_single rfl i q
theorem rrhs2_0 (i : S160000x256.Idx) (q : Cert.ReferenceIdeal.dot_S160000x512_S512x256_S160000x256_1_0_0_1_n_n.contr.Idx) :
    (Cert.ReferenceIdeal.dot_S160000x512_S512x256_S160000x256_1_0_0_1_n_n.rhsIdx i q 0).val = (q ⟨0, by decide⟩).val :=
  Cert.ReferenceIdeal.dot_S160000x512_S512x256_S160000x256_1_0_0_1_n_n.rhsIdx_val_of_single rfl i q
theorem rrhs2_1 (i : S160000x256.Idx) (q : Cert.ReferenceIdeal.dot_S160000x512_S512x256_S160000x256_1_0_0_1_n_n.contr.Idx) :
    (Cert.ReferenceIdeal.dot_S160000x512_S512x256_S160000x256_1_0_0_1_n_n.rhsIdx i q 1).val = (i 1).val := by
  unfold DotDims.rhsIdx
  rw [dif_neg (show ¬(1 : Fin S512x256.rank) ∈ Cert.ReferenceIdeal.dot_S160000x512_S512x256_S160000x256_1_0_0_1_n_n.rhsBatch by decide), dif_pos (show (1 : Fin S512x256.rank) ∈ Cert.ReferenceIdeal.dot_S160000x512_S512x256_S160000x256_1_0_0_1_n_n.rhsNonContracting by decide)]
  rfl

/-- The whole arrays' product, at row `r` and column `q`: the same sum over the contracted axis. -/
theorem dot2_apply (a : FVec Ideal S160000x512 .f32) (w : FVec Ideal S512x256 .f32) (r : Fin 160000) (q : Fin 256) :
    Host.dotGeneral Cert.ReferenceIdeal.dot_S160000x512_S512x256_S160000x256_1_0_0_1_n_n none a w (ix2 r q)
      = ∑ k : Fin 512, a (ix2 r k) * w (ix2 k q) := by
  simp only [Host.dotGeneral]
  rw [Ideal.dotGeneral_apply, ← Equiv.sum_comp (contrEquiv1 Cert.ReferenceIdeal.dot_S160000x512_S512x256_S160000x256_1_0_0_1_n_n 512 rfl rfl).symm]
  refine Finset.sum_congr rfl fun k _ => ?_
  have hk := contrEquiv1_symm_val Cert.ReferenceIdeal.dot_S160000x512_S512x256_S160000x256_1_0_0_1_n_n 512 rfl rfl k
  have el : Cert.ReferenceIdeal.dot_S160000x512_S512x256_S160000x256_1_0_0_1_n_n.lhsIdx (ix2 r q) ((contrEquiv1 Cert.ReferenceIdeal.dot_S160000x512_S512x256_S160000x256_1_0_0_1_n_n 512 rfl rfl).symm k) = ix2 r k := funext fun a => Fin.ext (by
    match a with
    | ⟨0, _⟩ => exact rlhs2_0 _ _
    | ⟨1, _⟩ => exact (rlhs2_1 _ _).trans hk)
  have er : Cert.ReferenceIdeal.dot_S160000x512_S512x256_S160000x256_1_0_0_1_n_n.rhsIdx (ix2 r q) ((contrEquiv1 Cert.ReferenceIdeal.dot_S160000x512_S512x256_S160000x256_1_0_0_1_n_n 512 rfl rfl).symm k) = ix2 k q := funext fun a => Fin.ext (by
    match a with
    | ⟨0, _⟩ => exact (rrhs2_0 _ _).trans hk
    | ⟨1, _⟩ => exact rrhs2_1 _ _)
  rw [el, er]

/-! ## The body's arithmetic and the stage, each at an index -/

/-- What the body stores, at row `p` and column `q` of the block. -/
theorem pay2_apply (x0 : Vec Ideal S2000x512 .f32) (x1 : Vec Ideal S512x256 .f32) (x2 : Vec Ideal S1x256 .f32) (p : Fin 2000) (q : Fin 256) :
    k2_pay1 (F := Ideal) x0 x1 x2 (ix2 p q)
      = max ((∑ k : Fin 512, x0 (ix2 p k) * x1 (ix2 k q)) + x2 (ix2 (0 : Fin 1) q)) (Ideal.ofBits .f32 0x00000000#32) := by
  unfold k2_pay1
  simp only [shapeCast_self]
  show max (FloatOps.matmul (F := Ideal) dot_S2000x512_S512x256_S2000x256_1_0_0_1_n_n none (truncf (F := Ideal) .bf16 x0 bitsLt_bf16_f32) (truncf (F := Ideal) .bf16 x1 bitsLt_bf16_f32) (constant (F := Ideal) S2000x256 .f32 0x00000000#32) (ix2 p q)
      + broadcastTo S2000x256 x2 broadcasts_S1x256_S2000x256 (ix2 p q)) (Ideal.ofBits .f32 0x00000000#32) = _
  rw [matmul2_apply, broadcastTo_1b_ab_apply]
  rfl

/-- The stage, at row `r` and column `q` of the array. -/
theorem stage2_apply (a : FVec Ideal S160000x512 .f32) (w : FVec Ideal S512x256 .f32) (row : FVec Ideal S1x256 .f32) (r : Fin 160000) (q : Fin 256) :
    Cert.Spec.stage2 (F := Ideal) a w row (ix2 r q)
      = max ((∑ k : Fin 512, a (ix2 r k) * w (ix2 k q)) + row (ix2 (0 : Fin 1) q)) (Ideal.ofBits .f32 0x00000000#32) := by
  unfold Cert.Spec.stage2
  show max (Host.dotGeneral Cert.ReferenceIdeal.dot_S160000x512_S512x256_S160000x256_1_0_0_1_n_n none a w (ix2 r q)
      + broadcastInDim S160000x256 ![0, 1] Cert.ReferenceIdeal.Gen.bcast_S1x256_S160000x256_0_1 row (ix2 r q)) (Ideal.ofBits .f32 0x00000000#32) = _
  rw [dot2_apply, broadcastInDim_oneRow_apply]

/-! ## Where the blocks lie in the arrays -/

theorem hz2 : (![0, 0] : Fin 2 → Nat) = fun _ => 0 := funext fun a => by fin_cases a <;> rfl

/-- The printed index maps, decided over the grid: the row block and the result block are at block row `t`, the weight
    and the bias row do not move. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row block at point `t` is rows `2000 t …` of the operand. -/
theorem iblk2_0_apply (c : Dev nD) (t : Fin cfg2.N) (p : Fin 2000) (k : Fin 512) (r : Fin 160000) (hr : r.val = 2000 * t.val + p.val) :
    (iblk2 V c 0 t : Vec Ideal S2000x512 .f32) (ix2 p k) = (V c main_v29 : Vec Ideal S160000x512 .f32) (ix2 r k) := by
  obtain ⟨e0, e1, -⟩ := idx_facts2 t
  unfold iblk2
  rw [View.read_apply]
  show V c main_v29 _ = V c main_v29 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 512 + 1 * k.val = k.val; rw [e1]; omega

/-- The weight's block at any point is the weight. -/
theorem iblk2_1_apply (c : Dev nD) (t : Fin cfg2.N) (k : Fin 512) (q : Fin 256) :
    (iblk2 V c 1 t : Vec Ideal S512x256 .f32) (ix2 k q) = (V c main_arg7 : Vec Ideal S512x256 .f32) (ix2 k q) := by
  obtain ⟨-, -, e0, e1, -⟩ := idx_facts2 t
  unfold iblk2
  rw [View.read_apply]
  show V c main_arg7 _ = V c main_arg7 _
  congr 1
  funext a
  apply Fin.ext
  match a with
  | ⟨0, _⟩ => show win2_1.index t (0 : Fin 2) * 512 + 1 * k.val = k.val; rw [e0]; omega
  | ⟨1, _⟩ => show win2_1.index t (1 : Fin 2) * 256 + 1 * q.val = q.val; rw [e1]; omega

/-- The bias row's block at any point is the bias row. -/
theorem iblk2_2_apply (c : Dev nD) (t : Fin cfg2.N) (z : Fin 1) (q : Fin 256) :
    (iblk2 V c 2 t : Vec Ideal S1x256 .f32) (ix2 z q) = (V c main_v30 : Vec Ideal S1x256 .f32) (ix2 z q) := by
  obtain ⟨-, -, -, -, e0, e1, -⟩ := idx_facts2 t
  unfold iblk2
  rw [View.read_apply]
  show V c main_v30 _ = V c main_v30 _
  congr 1
  funext a
  apply Fin.ext
  match a with
  | ⟨0, _⟩ => show win2_2.index t (0 : Fin 2) * 1 + 1 * z.val = z.val; rw [e0]; omega
  | ⟨1, _⟩ => show win2_2.index t (1 : Fin 2) * 256 + 1 * q.val = q.val; rw [e1]; omega

/-! ## From the blocks to the array -/

/-- What point `t` writes back is block `t` of the stage of the three arrays as the region finds them. -/
theorem flushed2_eq (c : Dev nD) (t : Fin cfg2.N) :
    (dat2 (F := Ideal) V c).flushed 3 t = ((cfg2.win 3).blk t).view.read (Elt Ideal) (Cert.Spec.stage2 (F := Ideal) (V c main_v29) (V c main_arg7) (V c main_v30)) := by
  show (cfg2.win 3).cut (grid2.coords t) ((dat2 (F := Ideal) V c).after 3 t) = _
  rw [after2_3]
  unfold out2_3
  rw [View.canon_unit_zero hz2]
  simp only [View.ld_unit_zero (S := S2000x512) hz2, View.ld_unit_zero (S := S512x256) hz2, View.ld_unit_zero (S := S1x256) hz2]
  obtain ⟨-, -, -, -, -, -, e0, e1⟩ := idx_facts2 t
  funext j
  obtain ⟨p, q, rfl⟩ : ∃ (p : Fin 2000) (q : Fin 256), j = ix2 p q := ⟨j 0, j 1, eq_ix2 (n0 := 2000) (n1 := 256) j⟩
  have hp : p.val < 2000 := p.isLt
  have ht : t.val < 80 := t.isLt
  rw [View.read_apply]
  have hemb : ((cfg2.win 3).blk t).view.emb (ix2 p q) = (ix2 (⟨2000 * t.val + p.val, by omega⟩ : Fin 160000) q : S160000x256.Idx) := by
    funext a
    apply Fin.ext
    match a with
    | ⟨0, _⟩ => show win2_3.index t (0 : Fin 2) * 2000 + 1 * p.val = 2000 * t.val + p.val; rw [e0]; omega
    | ⟨1, _⟩ => show win2_3.index t (1 : Fin 2) * 256 + 1 * q.val = q.val; rw [e1]; omega
  rw [hemb]
  refine (pay2_apply _ _ _ p q).trans (Eq.trans ?_ (stage2_apply _ _ _ ⟨2000 * t.val + p.val, by omega⟩ q).symm)
  rw [iblk2_2_apply V c t 0 q]
  congr 2
  refine Finset.sum_congr rfl fun k _ => ?_
  rw [iblk2_0_apply V c t p k ⟨2000 * t.val + p.val, by omega⟩ rfl, iblk2_1_apply V c t k q]

/-- An index of the array is in point `t`'s block iff each coordinate is in the block's range on its axis. -/
theorem mem_blk2 (t : Fin cfg2.N) (i : S160000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole (Pipeline.arrRef spec2 3)).slice (win2_3.rect t)).set ↔ _
  rw [View.set_slice_whole, Rect.mem_set_unit]
  exact Iff.rfl

/-- Row `i` lies in the block of point `i / 2000`, which is written back. -/
theorem cover2_rows (i : S160000x256.Idx) :
    ∃ t : Fin cfg2.N, (cfg2.win 3).flush t = true ∧ i ∈ ((cfg2.win 3).blk t).view.set := by
  have hi0 : (i 0).val < 160000 := (i 0).isLt
  have hi1 : (i 1).val < 256 := (i 1).isLt
  have ht : (i 0).val / 2000 < 80 := by omega
  refine ⟨⟨(i 0).val / 2000, ht⟩, flush2_3 _, ?_⟩
  obtain ⟨-, -, -, -, -, -, e0, e1⟩ := idx_facts2 ⟨(i 0).val / 2000, ht⟩
  rw [mem_blk2]
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win2_3.index ⟨(i 0).val / 2000, ht⟩ (1 : Fin 2) * 256 ≤ (i 1).val ∧ (i 1).val < win2_3.index ⟨(i 0).val / 2000, ht⟩ (1 : Fin 2) * 256 + 256; rw [e1]; omega

/-- The array the grid leaves is the stage of the three operand arrays. -/
theorem final2 (c : Dev nD) :
    (dat2 (F := Ideal) V c).arrAt 3 cfg2.N = Cert.Spec.stage2 (F := Ideal) (V c main_v29) (V c main_arg7) (V c main_v30) :=
  (dat2 (F := Ideal) V c).arrAt_eq_of_cover 3 (Cert.Spec.stage2 (F := Ideal) (V c main_v29) (V c main_arg7) (V c main_v30))
    (fun t _ => flushed2_eq V c t) cover2_rows

end Cert.KernelIdeal.Reg

end
-- ==== Proof.ValueKI3.lean ====
/- Region 3 of the program computes the successor-side messages, `relu ([pre_n[dst], pre_e] · Wsa + bsa)`: its 160000 × 256 result, as a whole array at the exact reals, is that function of the region's three operand arrays.
  The text below is region 2's with the names and sizes of this region. -/
import proofs.«139872_j38732015076057_1_alg».proof.Proof.RegionKI3
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs3_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem klhs3_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem krhs3_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem krhs3_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The block's product into the zero accumulator, at row `p` and column `q`: the sum over the contracted axis. -/
theorem matmul3_apply (x : FVec Ideal S2000x512 .bf16) (y : FVec Ideal S512x256 .bf16) (p : Fin 2000) (q : Fin 256) :
    FloatOps.matmul dot_S2000x512_S512x256_S2000x256_1_0_0_1_n_n none x y (constant S2000x256 .f32 0x00000000#32) (ix2 p q)
      = ∑ k : Fin 512, x (ix2 p k) * y (ix2 k q) := by
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact klhs3_0 _ _
    | ⟨1, _⟩ => exact (klhs3_1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (krhs3_0 _ _).trans hk
    | ⟨1, _⟩ => exact krhs3_1 _ _)
  rw [el, er]

theorem rlhs3_0 (i : S160000x256.Idx) (q : Cert.ReferenceIdeal.dot_S160000x512_S512x256_S160000x256_1_0_0_1_n_n.contr.Idx) :
    (Cert.ReferenceIdeal.dot_S160000x512_S512x256_S160000x256_1_0_0_1_n_n.lhsIdx i q 0).val = (i 0).val := by
  unfold DotDims.lhsIdx
  rw [dif_neg (show ¬(0 : Fin S160000x512.rank) ∈ Cert.ReferenceIdeal.dot_S160000x512_S512x256_S160000x256_1_0_0_1_n_n.lhsBatch by decide), dif_pos (show (0 : Fin S160000x512.rank) ∈ Cert.ReferenceIdeal.dot_S160000x512_S512x256_S160000x256_1_0_0_1_n_n.lhsNonContracting by decide)]
  rfl
theorem rlhs3_1 (i : S160000x256.Idx) (q : Cert.ReferenceIdeal.dot_S160000x512_S512x256_S160000x256_1_0_0_1_n_n.contr.Idx) :
    (Cert.ReferenceIdeal.dot_S160000x512_S512x256_S160000x256_1_0_0_1_n_n.lhsIdx i q 1).val = (q ⟨0, by decide⟩).val :=
  Cert.ReferenceIdeal.dot_S160000x512_S512x256_S160000x256_1_0_0_1_n_n.lhsIdx_val_of_single rfl i q
theorem rrhs3_0 (i : S160000x256.Idx) (q : Cert.ReferenceIdeal.dot_S160000x512_S512x256_S160000x256_1_0_0_1_n_n.contr.Idx) :
    (Cert.ReferenceIdeal.dot_S160000x512_S512x256_S160000x256_1_0_0_1_n_n.rhsIdx i q 0).val = (q ⟨0, by decide⟩).val :=
  Cert.ReferenceIdeal.dot_S160000x512_S512x256_S160000x256_1_0_0_1_n_n.rhsIdx_val_of_single rfl i q
theorem rrhs3_1 (i : S160000x256.Idx) (q : Cert.ReferenceIdeal.dot_S160000x512_S512x256_S160000x256_1_0_0_1_n_n.contr.Idx) :
    (Cert.ReferenceIdeal.dot_S160000x512_S512x256_S160000x256_1_0_0_1_n_n.rhsIdx i q 1).val = (i 1).val := by
  unfold DotDims.rhsIdx
  rw [dif_neg (show ¬(1 : Fin S512x256.rank) ∈ Cert.ReferenceIdeal.dot_S160000x512_S512x256_S160000x256_1_0_0_1_n_n.rhsBatch by decide), dif_pos (show (1 : Fin S512x256.rank) ∈ Cert.ReferenceIdeal.dot_S160000x512_S512x256_S160000x256_1_0_0_1_n_n.rhsNonContracting by decide)]
  rfl

/-- The whole arrays' product, at row `r` and column `q`: the same sum over the contracted axis. -/
theorem dot3_apply (a : FVec Ideal S160000x512 .f32) (w : FVec Ideal S512x256 .f32) (r : Fin 160000) (q : Fin 256) :
    Host.dotGeneral Cert.ReferenceIdeal.dot_S160000x512_S512x256_S160000x256_1_0_0_1_n_n none a w (ix2 r q)
      = ∑ k : Fin 512, a (ix2 r k) * w (ix2 k q) := by
  simp only [Host.dotGeneral]
  rw [Ideal.dotGeneral_apply, ← Equiv.sum_comp (contrEquiv1 Cert.ReferenceIdeal.dot_S160000x512_S512x256_S160000x256_1_0_0_1_n_n 512 rfl rfl).symm]
  refine Finset.sum_congr rfl fun k _ => ?_
  have hk := contrEquiv1_symm_val Cert.ReferenceIdeal.dot_S160000x512_S512x256_S160000x256_1_0_0_1_n_n 512 rfl rfl k
  have el : Cert.ReferenceIdeal.dot_S160000x512_S512x256_S160000x256_1_0_0_1_n_n.lhsIdx (ix2 r q) ((contrEquiv1 Cert.ReferenceIdeal.dot_S160000x512_S512x256_S160000x256_1_0_0_1_n_n 512 rfl rfl).symm k) = ix2 r k := funext fun a => Fin.ext (by
    match a with
    | ⟨0, _⟩ => exact rlhs3_0 _ _
    | ⟨1, _⟩ => exact (rlhs3_1 _ _).trans hk)
  have er : Cert.ReferenceIdeal.dot_S160000x512_S512x256_S160000x256_1_0_0_1_n_n.rhsIdx (ix2 r q) ((contrEquiv1 Cert.ReferenceIdeal.dot_S160000x512_S512x256_S160000x256_1_0_0_1_n_n 512 rfl rfl).symm k) = ix2 k q := funext fun a => Fin.ext (by
    match a with
    | ⟨0, _⟩ => exact (rrhs3_0 _ _).trans hk
    | ⟨1, _⟩ => exact rrhs3_1 _ _)
  rw [el, er]

/-! ## The body's arithmetic and the stage, each at an index -/

/-- What the body stores, at row `p` and column `q` of the block. -/
theorem pay3_apply (x0 : Vec Ideal S2000x512 .f32) (x1 : Vec Ideal S512x256 .f32) (x2 : Vec Ideal S1x256 .f32) (p : Fin 2000) (q : Fin 256) :
    k3_pay1 (F := Ideal) x0 x1 x2 (ix2 p q)
      = max ((∑ k : Fin 512, x0 (ix2 p k) * x1 (ix2 k q)) + x2 (ix2 (0 : Fin 1) q)) (Ideal.ofBits .f32 0x00000000#32) := by
  unfold k3_pay1
  simp only [shapeCast_self]
  show max (FloatOps.matmul (F := Ideal) dot_S2000x512_S512x256_S2000x256_1_0_0_1_n_n none (truncf (F := Ideal) .bf16 x0 bitsLt_bf16_f32) (truncf (F := Ideal) .bf16 x1 bitsLt_bf16_f32) (constant (F := Ideal) S2000x256 .f32 0x00000000#32) (ix2 p q)
      + broadcastTo S2000x256 x2 broadcasts_S1x256_S2000x256 (ix2 p q)) (Ideal.ofBits .f32 0x00000000#32) = _
  rw [matmul3_apply, broadcastTo_1b_ab_apply]
  rfl

/-- The stage, at row `r` and column `q` of the array. -/
theorem stage3_apply (a : FVec Ideal S160000x512 .f32) (w : FVec Ideal S512x256 .f32) (row : FVec Ideal S1x256 .f32) (r : Fin 160000) (q : Fin 256) :
    Cert.Spec.stage3 (F := Ideal) a w row (ix2 r q)
      = max ((∑ k : Fin 512, a (ix2 r k) * w (ix2 k q)) + row (ix2 (0 : Fin 1) q)) (Ideal.ofBits .f32 0x00000000#32) := by
  unfold Cert.Spec.stage3
  show max (Host.dotGeneral Cert.ReferenceIdeal.dot_S160000x512_S512x256_S160000x256_1_0_0_1_n_n none a w (ix2 r q)
      + broadcastInDim S160000x256 ![0, 1] Cert.ReferenceIdeal.Gen.bcast_S1x256_S160000x256_0_1 row (ix2 r q)) (Ideal.ofBits .f32 0x00000000#32) = _
  rw [dot3_apply, broadcastInDim_oneRow_apply]

/-! ## Where the blocks lie in the arrays -/

theorem hz3 : (![0, 0] : Fin 2 → Nat) = fun _ => 0 := funext fun a => by fin_cases a <;> rfl

/-- The printed index maps, decided over the grid: the row block and the result block are at block row `t`, the weight
    and the bias row do not move. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row block at point `t` is rows `2000 t …` of the operand. -/
theorem iblk3_0_apply (c : Dev nD) (t : Fin cfg3.N) (p : Fin 2000) (k : Fin 512) (r : Fin 160000) (hr : r.val = 2000 * t.val + p.val) :
    (iblk3 V c 0 t : Vec Ideal S2000x512 .f32) (ix2 p k) = (V c main_v40 : Vec Ideal S160000x512 .f32) (ix2 r k) := by
  obtain ⟨e0, e1, -⟩ := idx_facts3 t
  unfold iblk3
  rw [View.read_apply]
  show V c main_v40 _ = V c main_v40 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 512 + 1 * k.val = k.val; rw [e1]; omega

/-- The weight's block at any point is the weight. -/
theorem iblk3_1_apply (c : Dev nD) (t : Fin cfg3.N) (k : Fin 512) (q : Fin 256) :
    (iblk3 V c 1 t : Vec Ideal S512x256 .f32) (ix2 k q) = (V c main_arg9 : Vec Ideal S512x256 .f32) (ix2 k q) := by
  obtain ⟨-, -, e0, e1, -⟩ := idx_facts3 t
  unfold iblk3
  rw [View.read_apply]
  show V c main_arg9 _ = V c main_arg9 _
  congr 1
  funext a
  apply Fin.ext
  match a with
  | ⟨0, _⟩ => show win3_1.index t (0 : Fin 2) * 512 + 1 * k.val = k.val; rw [e0]; omega
  | ⟨1, _⟩ => show win3_1.index t (1 : Fin 2) * 256 + 1 * q.val = q.val; rw [e1]; omega

/-- The bias row's block at any point is the bias row. -/
theorem iblk3_2_apply (c : Dev nD) (t : Fin cfg3.N) (z : Fin 1) (q : Fin 256) :
    (iblk3 V c 2 t : Vec Ideal S1x256 .f32) (ix2 z q) = (V c main_v41 : Vec Ideal S1x256 .f32) (ix2 z q) := by
  obtain ⟨-, -, -, -, e0, e1, -⟩ := idx_facts3 t
  unfold iblk3
  rw [View.read_apply]
  show V c main_v41 _ = V c main_v41 _
  congr 1
  funext a
  apply Fin.ext
  match a with
  | ⟨0, _⟩ => show win3_2.index t (0 : Fin 2) * 1 + 1 * z.val = z.val; rw [e0]; omega
  | ⟨1, _⟩ => show win3_2.index t (1 : Fin 2) * 256 + 1 * q.val = q.val; rw [e1]; omega

/-! ## From the blocks to the array -/

/-- What point `t` writes back is block `t` of the stage of the three arrays as the region finds them. -/
theorem flushed3_eq (c : Dev nD) (t : Fin cfg3.N) :
    (dat3 (F := Ideal) V c).flushed 3 t = ((cfg3.win 3).blk t).view.read (Elt Ideal) (Cert.Spec.stage3 (F := Ideal) (V c main_v40) (V c main_arg9) (V c main_v41)) := by
  show (cfg3.win 3).cut (grid3.coords t) ((dat3 (F := Ideal) V c).after 3 t) = _
  rw [after3_3]
  unfold out3_3
  rw [View.canon_unit_zero hz3]
  simp only [View.ld_unit_zero (S := S2000x512) hz3, View.ld_unit_zero (S := S512x256) hz3, View.ld_unit_zero (S := S1x256) hz3]
  obtain ⟨-, -, -, -, -, -, e0, e1⟩ := idx_facts3 t
  funext j
  obtain ⟨p, q, rfl⟩ : ∃ (p : Fin 2000) (q : Fin 256), j = ix2 p q := ⟨j 0, j 1, eq_ix2 (n0 := 2000) (n1 := 256) j⟩
  have hp : p.val < 2000 := p.isLt
  have ht : t.val < 80 := t.isLt
  rw [View.read_apply]
  have hemb : ((cfg3.win 3).blk t).view.emb (ix2 p q) = (ix2 (⟨2000 * t.val + p.val, by omega⟩ : Fin 160000) q : S160000x256.Idx) := by
    funext a
    apply Fin.ext
    match a with
    | ⟨0, _⟩ => show win3_3.index t (0 : Fin 2) * 2000 + 1 * p.val = 2000 * t.val + p.val; rw [e0]; omega
    | ⟨1, _⟩ => show win3_3.index t (1 : Fin 2) * 256 + 1 * q.val = q.val; rw [e1]; omega
  rw [hemb]
  refine (pay3_apply _ _ _ p q).trans (Eq.trans ?_ (stage3_apply _ _ _ ⟨2000 * t.val + p.val, by omega⟩ q).symm)
  rw [iblk3_2_apply V c t 0 q]
  congr 2
  refine Finset.sum_congr rfl fun k _ => ?_
  rw [iblk3_0_apply V c t p k ⟨2000 * t.val + p.val, by omega⟩ rfl, iblk3_1_apply V c t k q]

/-- An index of the array is in point `t`'s block iff each coordinate is in the block's range on its axis. -/
theorem mem_blk3 (t : Fin cfg3.N) (i : S160000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole (Pipeline.arrRef spec3 3)).slice (win3_3.rect t)).set ↔ _
  rw [View.set_slice_whole, Rect.mem_set_unit]
  exact Iff.rfl

/-- Row `i` lies in the block of point `i / 2000`, which is written back. -/
theorem cover3_rows (i : S160000x256.Idx) :
    ∃ t : Fin cfg3.N, (cfg3.win 3).flush t = true ∧ i ∈ ((cfg3.win 3).blk t).view.set := by
  have hi0 : (i 0).val < 160000 := (i 0).isLt
  have hi1 : (i 1).val < 256 := (i 1).isLt
  have ht : (i 0).val / 2000 < 80 := by omega
  refine ⟨⟨(i 0).val / 2000, ht⟩, flush3_3 _, ?_⟩
  obtain ⟨-, -, -, -, -, -, e0, e1⟩ := idx_facts3 ⟨(i 0).val / 2000, ht⟩
  rw [mem_blk3]
  intro a
  match a with
  | ⟨0, _⟩ => show win3_3.index ⟨(i 0).val / 2000, ht⟩ (0 : Fin 2) * 2000 ≤ (i 0).val ∧ (i 0).val < win3_3.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win3_3.index ⟨(i 0).val / 2000, ht⟩ (1 : Fin 2) * 256 ≤ (i 1).val ∧ (i 1).val < win3_3.index ⟨(i 0).val / 2000, ht⟩ (1 : Fin 2) * 256 + 256; rw [e1]; omega

/-- The array the grid leaves is the stage of the three operand arrays. -/
theorem final3 (c : Dev nD) :
    (dat3 (F := Ideal) V c).arrAt 3 cfg3.N = Cert.Spec.stage3 (F := Ideal) (V c main_v40) (V c main_arg9) (V c main_v41) :=
  (dat3 (F := Ideal) V c).arrAt_eq_of_cover 3 (Cert.Spec.stage3 (F := Ideal) (V c main_v40) (V c main_arg9) (V c main_v41))
    (fun t _ => flushed3_eq V c t) cover3_rows

end Cert.KernelIdeal.Reg

end
-- ==== Proof.ValueKI4.lean ====
/-
  Region 4's result as a whole array, at the exact reals: the 10000 × 256 array the grid leaves is
  `a · w + row` of the three operand arrays as the region found them.

  The body first casts its row block to the shape it already has, which changes nothing.  At the exact reals the
  narrowing to bf16 is the identity and the product into a zero accumulator is the plain sum
  over the contracted axis, so entry (p, q) of what a point stores is `∑ k, x0 (p, k) · x1 (k, q) + x2 (0, q)`
  of its three blocks (`pay4_apply`), and entry (r, q) of the stage is the same expression of the three arrays
  (`stage4_apply`).  Point `t`'s row block is rows `1000 t …` of the operand, its weight and bias blocks are the whole
  weight and bias row, and its result block is rows `1000 t …` of the result (`idx_facts4`, `iblk4_0_apply` …), so what
  point `t` writes back is block `t` of the stage (`flushed4_eq`); row `i` lies in the block of point `i / 1000`
  (`cover4_rows`), so the array ends holding the stage (`final4`).
-/
import proofs.«139872_j38732015076057_1_alg».proof.Proof.RegionKI4
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs4_0 (i : S1000x256.Idx) (q : dot_S1000x768_S768x256_S1000x256_1_0_0_1_n_n.contr.Idx) :
    (dot_S1000x768_S768x256_S1000x256_1_0_0_1_n_n.lhsIdx i q 0).val = (i 0).val := by
  unfold DotDims.lhsIdx
  rw [dif_neg (show ¬(0 : Fin S1000x768.rank) ∈ dot_S1000x768_S768x256_S1000x256_1_0_0_1_n_n.lhsBatch by decide), dif_pos (show (0 : Fin S1000x768.rank) ∈ dot_S1000x768_S768x256_S1000x256_1_0_0_1_n_n.lhsNonContracting by decide)]
  rfl
theorem klhs4_1 (i : S1000x256.Idx) (q : dot_S1000x768_S768x256_S1000x256_1_0_0_1_n_n.contr.Idx) :
    (dot_S1000x768_S768x256_S1000x256_1_0_0_1_n_n.lhsIdx i q 1).val = (q ⟨0, by decide⟩).val :=
  dot_S1000x768_S768x256_S1000x256_1_0_0_1_n_n.lhsIdx_val_of_single rfl i q
theorem krhs4_0 (i : S1000x256.Idx) (q : dot_S1000x768_S768x256_S1000x256_1_0_0_1_n_n.contr.Idx) :
    (dot_S1000x768_S768x256_S1000x256_1_0_0_1_n_n.rhsIdx i q 0).val = (q ⟨0, by decide⟩).val :=
  dot_S1000x768_S768x256_S1000x256_1_0_0_1_n_n.rhsIdx_val_of_single rfl i q
theorem krhs4_1 (i : S1000x256.Idx) (q : dot_S1000x768_S768x256_S1000x256_1_0_0_1_n_n.contr.Idx) :
    (dot_S1000x768_S768x256_S1000x256_1_0_0_1_n_n.rhsIdx i q 1).val = (i 1).val := by
  unfold DotDims.rhsIdx
  rw [dif_neg (show ¬(1 : Fin S768x256.rank) ∈ dot_S1000x768_S768x256_S1000x256_1_0_0_1_n_n.rhsBatch by decide), dif_pos (show (1 : Fin S768x256.rank) ∈ dot_S1000x768_S768x256_S1000x256_1_0_0_1_n_n.rhsNonContracting by decide)]
  rfl

/-- The block's product into the zero accumulator, at row `p` and column `q`: the sum over the contracted axis. -/
theorem matmul4_apply (x : FVec Ideal S1000x768 .bf16) (y : FVec Ideal S768x256 .bf16) (p : Fin 1000) (q : Fin 256) :
    FloatOps.matmul dot_S1000x768_S768x256_S1000x256_1_0_0_1_n_n none x y (constant S1000x256 .f32 0x00000000#32) (ix2 p q)
      = ∑ k : Fin 768, x (ix2 p k) * y (ix2 k q) := by
  rw [Ideal.matmul_constant_zero_apply, ← Equiv.sum_comp (contrEquiv1 dot_S1000x768_S768x256_S1000x256_1_0_0_1_n_n 768 rfl rfl).symm]
  refine Finset.sum_congr rfl fun k _ => ?_
  have hk := contrEquiv1_symm_val dot_S1000x768_S768x256_S1000x256_1_0_0_1_n_n 768 rfl rfl k
  have el : dot_S1000x768_S768x256_S1000x256_1_0_0_1_n_n.lhsIdx (ix2 p q) ((contrEquiv1 dot_S1000x768_S768x256_S1000x256_1_0_0_1_n_n 768 rfl rfl).symm k) = ix2 p k := funext fun a => Fin.ext (by
    match a with
    | ⟨0, _⟩ => exact klhs4_0 _ _
    | ⟨1, _⟩ => exact (klhs4_1 _ _).trans hk)
  have er : dot_S1000x768_S768x256_S1000x256_1_0_0_1_n_n.rhsIdx (ix2 p q) ((contrEquiv1 dot_S1000x768_S768x256_S1000x256_1_0_0_1_n_n 768 rfl rfl).symm k) = ix2 k q := funext fun a => Fin.ext (by
    match a with
    | ⟨0, _⟩ => exact (krhs4_0 _ _).trans hk
    | ⟨1, _⟩ => exact krhs4_1 _ _)
  rw [el, er]

theorem rlhs4_0 (i : S10000x256.Idx) (q : Cert.ReferenceIdeal.dot_S10000x768_S768x256_S10000x256_1_0_0_1_n_n.contr.Idx) :
    (Cert.ReferenceIdeal.dot_S10000x768_S768x256_S10000x256_1_0_0_1_n_n.lhsIdx i q 0).val = (i 0).val := by
  unfold DotDims.lhsIdx
  rw [dif_neg (show ¬(0 : Fin S10000x768.rank) ∈ Cert.ReferenceIdeal.dot_S10000x768_S768x256_S10000x256_1_0_0_1_n_n.lhsBatch by decide), dif_pos (show (0 : Fin S10000x768.rank) ∈ Cert.ReferenceIdeal.dot_S10000x768_S768x256_S10000x256_1_0_0_1_n_n.lhsNonContracting by decide)]
  rfl
theorem rlhs4_1 (i : S10000x256.Idx) (q : Cert.ReferenceIdeal.dot_S10000x768_S768x256_S10000x256_1_0_0_1_n_n.contr.Idx) :
    (Cert.ReferenceIdeal.dot_S10000x768_S768x256_S10000x256_1_0_0_1_n_n.lhsIdx i q 1).val = (q ⟨0, by decide⟩).val :=
  Cert.ReferenceIdeal.dot_S10000x768_S768x256_S10000x256_1_0_0_1_n_n.lhsIdx_val_of_single rfl i q
theorem rrhs4_0 (i : S10000x256.Idx) (q : Cert.ReferenceIdeal.dot_S10000x768_S768x256_S10000x256_1_0_0_1_n_n.contr.Idx) :
    (Cert.ReferenceIdeal.dot_S10000x768_S768x256_S10000x256_1_0_0_1_n_n.rhsIdx i q 0).val = (q ⟨0, by decide⟩).val :=
  Cert.ReferenceIdeal.dot_S10000x768_S768x256_S10000x256_1_0_0_1_n_n.rhsIdx_val_of_single rfl i q
theorem rrhs4_1 (i : S10000x256.Idx) (q : Cert.ReferenceIdeal.dot_S10000x768_S768x256_S10000x256_1_0_0_1_n_n.contr.Idx) :
    (Cert.ReferenceIdeal.dot_S10000x768_S768x256_S10000x256_1_0_0_1_n_n.rhsIdx i q 1).val = (i 1).val := by
  unfold DotDims.rhsIdx
  rw [dif_neg (show ¬(1 : Fin S768x256.rank) ∈ Cert.ReferenceIdeal.dot_S10000x768_S768x256_S10000x256_1_0_0_1_n_n.rhsBatch by decide), dif_pos (show (1 : Fin S768x256.rank) ∈ Cert.ReferenceIdeal.dot_S10000x768_S768x256_S10000x256_1_0_0_1_n_n.rhsNonContracting by decide)]
  rfl

/-- The whole arrays' product, at row `r` and column `q`: the same sum over the contracted axis. -/
theorem dot4_apply (a : FVec Ideal S10000x768 .f32) (w : FVec Ideal S768x256 .f32) (r : Fin 10000) (q : Fin 256) :
    Host.dotGeneral Cert.ReferenceIdeal.dot_S10000x768_S768x256_S10000x256_1_0_0_1_n_n none a w (ix2 r q)
      = ∑ k : Fin 768, a (ix2 r k) * w (ix2 k q) := by
  simp only [Host.dotGeneral]
  rw [Ideal.dotGeneral_apply, ← Equiv.sum_comp (contrEquiv1 Cert.ReferenceIdeal.dot_S10000x768_S768x256_S10000x256_1_0_0_1_n_n 768 rfl rfl).symm]
  refine Finset.sum_congr rfl fun k _ => ?_
  have hk := contrEquiv1_symm_val Cert.ReferenceIdeal.dot_S10000x768_S768x256_S10000x256_1_0_0_1_n_n 768 rfl rfl k
  have el : Cert.ReferenceIdeal.dot_S10000x768_S768x256_S10000x256_1_0_0_1_n_n.lhsIdx (ix2 r q) ((contrEquiv1 Cert.ReferenceIdeal.dot_S10000x768_S768x256_S10000x256_1_0_0_1_n_n 768 rfl rfl).symm k) = ix2 r k := funext fun a => Fin.ext (by
    match a with
    | ⟨0, _⟩ => exact rlhs4_0 _ _
    | ⟨1, _⟩ => exact (rlhs4_1 _ _).trans hk)
  have er : Cert.ReferenceIdeal.dot_S10000x768_S768x256_S10000x256_1_0_0_1_n_n.rhsIdx (ix2 r q) ((contrEquiv1 Cert.ReferenceIdeal.dot_S10000x768_S768x256_S10000x256_1_0_0_1_n_n 768 rfl rfl).symm k) = ix2 k q := funext fun a => Fin.ext (by
    match a with
    | ⟨0, _⟩ => exact (rrhs4_0 _ _).trans hk
    | ⟨1, _⟩ => exact rrhs4_1 _ _)
  rw [el, er]

/-! ## The body's arithmetic and the stage, each at an index -/

/-- What the body stores, at row `p` and column `q` of the block. -/
theorem pay4_apply (x0 : Vec Ideal S1000x768 .f32) (x1 : Vec Ideal S768x256 .f32) (x2 : Vec Ideal S1x256 .f32) (p : Fin 1000) (q : Fin 256) :
    k4_pay1 (F := Ideal) x0 x1 x2 (ix2 p q)
      = (∑ k : Fin 768, x0 (ix2 p k) * x1 (ix2 k q)) + x2 (ix2 (0 : Fin 1) q) := by
  unfold k4_pay1
  simp only [shapeCast_self]
  show FloatOps.matmul (F := Ideal) dot_S1000x768_S768x256_S1000x256_1_0_0_1_n_n none (truncf (F := Ideal) .bf16 x0 bitsLt_bf16_f32) (truncf (F := Ideal) .bf16 x1 bitsLt_bf16_f32) (constant (F := Ideal) S1000x256 .f32 0x00000000#32) (ix2 p q)
      + broadcastTo S1000x256 x2 broadcasts_S1x256_S1000x256 (ix2 p q) = _
  rw [matmul4_apply, broadcastTo_1b_ab_apply]
  rfl

/-- The stage, at row `r` and column `q` of the array. -/
theorem stage4_apply (a : FVec Ideal S10000x768 .f32) (w : FVec Ideal S768x256 .f32) (row : FVec Ideal S1x256 .f32) (r : Fin 10000) (q : Fin 256) :
    Cert.Spec.stage4 (F := Ideal) a w row (ix2 r q)
      = (∑ k : Fin 768, a (ix2 r k) * w (ix2 k q)) + row (ix2 (0 : Fin 1) q) := by
  unfold Cert.Spec.stage4
  show Host.dotGeneral Cert.ReferenceIdeal.dot_S10000x768_S768x256_S10000x256_1_0_0_1_n_n none a w (ix2 r q)
      + broadcastInDim S10000x256 ![0, 1] Cert.ReferenceIdeal.Gen.bcast_S1x256_S10000x256_0_1 row (ix2 r q) = _
  rw [dot4_apply, broadcastInDim_oneRow_apply]

/-! ## Where the blocks lie in the arrays -/

theorem hz4 : (![0, 0] : Fin 2 → Nat) = fun _ => 0 := funext fun a => by fin_cases a <;> rfl

/-- The printed index maps, decided over the grid: the row block and the result block are at block row `t`, the weight
    and the bias row do not move. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The row block at point `t` is rows `1000 t …` of the operand. -/
theorem iblk4_0_apply (c : Dev nD) (t : Fin cfg4.N) (p : Fin 1000) (k : Fin 768) (r : Fin 10000) (hr : r.val = 1000 * t.val + p.val) :
    (iblk4 V c 0 t : Vec Ideal S1000x768 .f32) (ix2 p k) = (V c main_v51 : Vec Ideal S10000x768 .f32) (ix2 r k) := by
  obtain ⟨e0, e1, -⟩ := idx_facts4 t
  unfold iblk4
  rw [View.read_apply]
  show V c main_v51 _ = V c main_v51 _
  congr 1
  funext a
  apply Fin.ext
  match a with
  | ⟨0, _⟩ => show win4_0.index t (0 : Fin 2) * 1000 + 1 * p.val = r.val; rw [e0, hr]; omega
  | ⟨1, _⟩ => show win4_0.index t (1 : Fin 2) * 768 + 1 * k.val = k.val; rw [e1]; omega

/-- The weight's block at any point is the weight. -/
theorem iblk4_1_apply (c : Dev nD) (t : Fin cfg4.N) (k : Fin 768) (q : Fin 256) :
    (iblk4 V c 1 t : Vec Ideal S768x256 .f32) (ix2 k q) = (V c main_arg11 : Vec Ideal S768x256 .f32) (ix2 k q) := by
  obtain ⟨-, -, e0, e1, -⟩ := idx_facts4 t
  unfold iblk4
  rw [View.read_apply]
  show V c main_arg11 _ = V c main_arg11 _
  congr 1
  funext a
  apply Fin.ext
  match a with
  | ⟨0, _⟩ => show win4_1.index t (0 : Fin 2) * 768 + 1 * k.val = k.val; rw [e0]; omega
  | ⟨1, _⟩ => show win4_1.index t (1 : Fin 2) * 256 + 1 * q.val = q.val; rw [e1]; omega

/-- The bias row's block at any point is the bias row. -/
theorem iblk4_2_apply (c : Dev nD) (t : Fin cfg4.N) (z : Fin 1) (q : Fin 256) :
    (iblk4 V c 2 t : Vec Ideal S1x256 .f32) (ix2 z q) = (V c main_v52 : Vec Ideal S1x256 .f32) (ix2 z q) := by
  obtain ⟨-, -, -, -, e0, e1, -⟩ := idx_facts4 t
  unfold iblk4
  rw [View.read_apply]
  show V c main_v52 _ = V c main_v52 _
  congr 1
  funext a
  apply Fin.ext
  match a with
  | ⟨0, _⟩ => show win4_2.index t (0 : Fin 2) * 1 + 1 * z.val = z.val; rw [e0]; omega
  | ⟨1, _⟩ => show win4_2.index t (1 : Fin 2) * 256 + 1 * q.val = q.val; rw [e1]; omega

/-! ## From the blocks to the array -/

/-- What point `t` writes back is block `t` of the stage of the three arrays as the region finds them. -/
theorem flushed4_eq (c : Dev nD) (t : Fin cfg4.N) :
    (dat4 (F := Ideal) V c).flushed 3 t = ((cfg4.win 3).blk t).view.read (Elt Ideal) (Cert.Spec.stage4 (F := Ideal) (V c main_v51) (V c main_arg11) (V c main_v52)) := by
  show (cfg4.win 3).cut (grid4.coords t) ((dat4 (F := Ideal) V c).after 3 t) = _
  rw [after4_3]
  unfold out4_3
  rw [View.canon_unit_zero hz4]
  simp only [View.ld_unit_zero (S := S1000x768) hz4, View.ld_unit_zero (S := S768x256) hz4, View.ld_unit_zero (S := S1x256) hz4]
  obtain ⟨-, -, -, -, -, -, e0, e1⟩ := idx_facts4 t
  funext j
  obtain ⟨p, q, rfl⟩ : ∃ (p : Fin 1000) (q : Fin 256), j = ix2 p q := ⟨j 0, j 1, eq_ix2 (n0 := 1000) (n1 := 256) j⟩
  have hp : p.val < 1000 := p.isLt
  have ht : t.val < 10 := t.isLt
  rw [View.read_apply]
  have hemb : ((cfg4.win 3).blk t).view.emb (ix2 p q) = (ix2 (⟨1000 * t.val + p.val, by omega⟩ : Fin 10000) q : S10000x256.Idx) := by
    funext a
    apply Fin.ext
    match a with
    | ⟨0, _⟩ => show win4_3.index t (0 : Fin 2) * 1000 + 1 * p.val = 1000 * t.val + p.val; rw [e0]; omega
    | ⟨1, _⟩ => show win4_3.index t (1 : Fin 2) * 256 + 1 * q.val = q.val; rw [e1]; omega
  rw [hemb]
  refine (pay4_apply _ _ _ p q).trans (Eq.trans ?_ (stage4_apply _ _ _ ⟨1000 * t.val + p.val, by omega⟩ q).symm)
  rw [iblk4_2_apply V c t 0 q]
  congr 1
  refine Finset.sum_congr rfl fun k _ => ?_
  rw [iblk4_0_apply V c t p k ⟨1000 * t.val + p.val, by omega⟩ rfl, iblk4_1_apply V c t k q]

/-- An index of the array is in point `t`'s block iff each coordinate is in the block's range on its axis. -/
theorem mem_blk4 (t : Fin cfg4.N) (i : S10000x256.Idx) :
    i ∈ ((cfg4.win 3).blk t).view.set ↔ ∀ a : Fin 2, win4_3.index t a * S1000x256.size a ≤ (i a).val ∧ (i a).val < win4_3.index t a * S1000x256.size a + S1000x256.size a := by
  show i ∈ ((View.whole (Pipeline.arrRef spec4 3)).slice (win4_3.rect t)).set ↔ _
  rw [View.set_slice_whole, Rect.mem_set_unit]
  exact Iff.rfl

/-- Row `i` lies in the block of point `i / 1000`, which is written back. -/
theorem cover4_rows (i : S10000x256.Idx) :
    ∃ t : Fin cfg4.N, (cfg4.win 3).flush t = true ∧ i ∈ ((cfg4.win 3).blk t).view.set := by
  have hi0 : (i 0).val < 10000 := (i 0).isLt
  have hi1 : (i 1).val < 256 := (i 1).isLt
  have ht : (i 0).val / 1000 < 10 := by omega
  refine ⟨⟨(i 0).val / 1000, ht⟩, flush4_3 _, ?_⟩
  obtain ⟨-, -, -, -, -, -, e0, e1⟩ := idx_facts4 ⟨(i 0).val / 1000, ht⟩
  rw [mem_blk4]
  intro a
  match a with
  | ⟨0, _⟩ => show win4_3.index ⟨(i 0).val / 1000, ht⟩ (0 : Fin 2) * 1000 ≤ (i 0).val ∧ (i 0).val < win4_3.index ⟨(i 0).val / 1000, ht⟩ (0 : Fin 2) * 1000 + 1000; rw [e0]; show (i 0).val / 1000 * 1000 ≤ (i 0).val ∧ (i 0).val < (i 0).val / 1000 * 1000 + 1000; omega
  | ⟨1, _⟩ => show win4_3.index ⟨(i 0).val / 1000, ht⟩ (1 : Fin 2) * 256 ≤ (i 1).val ∧ (i 1).val < win4_3.index ⟨(i 0).val / 1000, ht⟩ (1 : Fin 2) * 256 + 256; rw [e1]; omega

/-- The array the grid leaves is the stage of the three operand arrays. -/
theorem final4 (c : Dev nD) :
    (dat4 (F := Ideal) V c).arrAt 3 cfg4.N = Cert.Spec.stage4 (F := Ideal) (V c main_v51) (V c main_arg11) (V c main_v52) :=
  (dat4 (F := Ideal) V c).arrAt_eq_of_cover 3 (Cert.Spec.stage4 (F := Ideal) (V c main_v51) (V c main_arg11) (V c main_v52))
    (fun t _ => flushed4_eq V c t) cover4_rows

end Cert.KernelIdeal.Reg

end
-- ==== Proof.ValueKI5.lean ====
/- Region 5 of the program computes the edge output, `[pre_n[src], pre_e, pre_n[dst]] · Wet + bet` (no relu): its 160000 × 256 result, as a whole array at the exact reals, is that function of the region's three operand arrays.
  The text below is region 4's with the names and sizes of this region. -/
import proofs.«139872_j38732015076057_1_alg».proof.Proof.RegionKI5
import proofs.«139872_j38732015076057_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The two products read at an index -/

theorem klhs5_0 (i : S2000x256.Idx) (q : dot_S2000x768_S768x256_S2000x256_1_0_0_1_n_n.contr.Idx) :
    (dot_S2000x768_S768x256_S2000x256_1_0_0_1_n_n.lhsIdx i q 0).val = (i 0).val := by
  unfold DotDims.lhsIdx
  rw [dif_neg (show ¬(0 : Fin S2000x768.rank) ∈ dot_S2000x768_S768x256_S2000x256_1_0_0_1_n_n.lhsBatch by decide), dif_pos (show (0 : Fin S2000x768.rank) ∈ dot_S2000x768_S768x256_S2000x256_1_0_0_1_n_n.lhsNonContracting by decide)]
  rfl
theorem klhs5_1 (i : S2000x256.Idx) (q : dot_S2000x768_S768x256_S2000x256_1_0_0_1_n_n.contr.Idx) :
    (dot_S2000x768_S768x256_S2000x256_1_0_0_1_n_n.lhsIdx i q 1).val = (q ⟨0, by decide⟩).val :=
  dot_S2000x768_S768x256_S2000x256_1_0_0_1_n_n.lhsIdx_val_of_single rfl i q
theorem krhs5_0 (i : S2000x256.Idx) (q : dot_S2000x768_S768x256_S2000x256_1_0_0_1_n_n.contr.Idx) :
    (dot_S2000x768_S768x256_S2000x256_1_0_0_1_n_n.rhsIdx i q 0).val = (q ⟨0, by decide⟩).val :=
  dot_S2000x768_S768x256_S2000x256_1_0_0_1_n_n.rhsIdx_val_of_single rfl i q
theorem krhs5_1 (i : S2000x256.Idx) (q : dot_S2000x768_S768x256_S2000x256_1_0_0_1_n_n.contr.Idx) :
    (dot_S2000x768_S768x256_S2000x256_1_0_0_1_n_n.rhsIdx i q 1).val = (i 1).val := by
  unfold DotDims.rhsIdx
  rw [dif_neg (show ¬(1 : Fin S768x256.rank) ∈ dot_S2000x768_S768x256_S2000x256_1_0_0_1_n_n.rhsBatch by decide), dif_pos (show (1 : Fin S768x256.rank) ∈ dot_S2000x768_S768x256_S2000x256_1_0_0_1_n_n.rhsNonContracting by decide)]
  rfl

/-- The block's product into the zero accumulator, at row `p` and column `q`: the sum over the contracted axis. -/
theorem matmul5_apply (x : FVec Ideal S2000x768 .bf16) (y : FVec Ideal S768x256 .bf16) (p : Fin 2000) (q : Fin 256) :
    FloatOps.matmul dot_S2000x768_S768x256_S2000x256_1_0_0_1_n_n none x y (constant S2000x256 .f32 0x00000000#32) (ix2 p q)
      = ∑ k : Fin 768, x (ix2 p k) * y (ix2 k q) := by
  rw [Ideal.matmul_constant_zero_apply, ← Equiv.sum_comp (contrEquiv1 dot_S2000x768_S768x256_S2000x256_1_0_0_1_n_n 768 rfl rfl).symm]
  refine Finset.sum_congr rfl fun k _ => ?_
  have hk := contrEquiv1_symm_val dot_S2000x768_S768x256_S2000x256_1_0_0_1_n_n 768 rfl rfl k
  have el : dot_S2000x768_S768x256_S2000x256_1_0_0_1_n_n.lhsIdx (ix2 p q) ((contrEquiv1 dot_S2000x768_S768x256_S2000x256_1_0_0_1_n_n 768 rfl rfl).symm k) = ix2 p k := funext fun a => Fin.ext (by
    match a with
    | ⟨0, _⟩ => exact klhs5_0 _ _
    | ⟨1, _⟩ => exact (klhs5_1 _ _).trans hk)
  have er : dot_S2000x768_S768x256_S2000x256_1_0_0_1_n_n.rhsIdx (ix2 p q) ((contrEquiv1 dot_S2000x768_S768x256_S2000x256_1_0_0_1_n_n 768 rfl rfl).symm k) = ix2 k q := funext fun a => Fin.ext (by
    match a with
    | ⟨0, _⟩ => exact (krhs5_0 _ _).trans hk
    | ⟨1, _⟩ => exact krhs5_1 _ _)
  rw [el, er]

theorem rlhs5_0 (i : S160000x256.Idx) (q : Cert.ReferenceIdeal.dot_S160000x768_S768x256_S160000x256_1_0_0_1_n_n.contr.Idx) :
    (Cert.ReferenceIdeal.dot_S160000x768_S768x256_S160000x256_1_0_0_1_n_n.lhsIdx i q 0).val = (i 0).val := by
  unfold DotDims.lhsIdx
  rw [dif_neg (show ¬(0 : Fin S160000x768.rank) ∈ Cert.ReferenceIdeal.dot_S160000x768_S768x256_S160000x256_1_0_0_1_n_n.lhsBatch by decide), dif_pos (show (0 : Fin S160000x768.rank) ∈ Cert.ReferenceIdeal.dot_S160000x768_S768x256_S160000x256_1_0_0_1_n_n.lhsNonContracting by decide)]
  rfl
theorem rlhs5_1 (i : S160000x256.Idx) (q : Cert.ReferenceIdeal.dot_S160000x768_S768x256_S160000x256_1_0_0_1_n_n.contr.Idx) :
    (Cert.ReferenceIdeal.dot_S160000x768_S768x256_S160000x256_1_0_0_1_n_n.lhsIdx i q 1).val = (q ⟨0, by decide⟩).val :=
  Cert.ReferenceIdeal.dot_S160000x768_S768x256_S160000x256_1_0_0_1_n_n.lhsIdx_val_of_single rfl i q
theorem rrhs5_0 (i : S160000x256.Idx) (q : Cert.ReferenceIdeal.dot_S160000x768_S768x256_S160000x256_1_0_0_1_n_n.contr.Idx) :
    (Cert.ReferenceIdeal.dot_S160000x768_S768x256_S160000x256_1_0_0_1_n_n.rhsIdx i q 0).val = (q ⟨0, by decide⟩).val :=
  Cert.ReferenceIdeal.dot_S160000x768_S768x256_S160000x256_1_0_0_1_n_n.rhsIdx_val_of_single rfl i q
theorem rrhs5_1 (i : S160000x256.Idx) (q : Cert.ReferenceIdeal.dot_S160000x768_S768x256_S160000x256_1_0_0_1_n_n.contr.Idx) :
    (Cert.ReferenceIdeal.dot_S160000x768_S768x256_S160000x256_1_0_0_1_n_n.rhsIdx i q 1).val = (i 1).val := by
  unfold DotDims.rhsIdx
  rw [dif_neg (show ¬(1 : Fin S768x256.rank) ∈ Cert.ReferenceIdeal.dot_S160000x768_S768x256_S160000x256_1_0_0_1_n_n.rhsBatch by decide), dif_pos (show (1 : Fin S768x256.rank) ∈ Cert.ReferenceIdeal.dot_S160000x768_S768x256_S160000x256_1_0_0_1_n_n.rhsNonContracting by decide)]
  rfl

/-- The whole arrays' product, at row `r` and column `q`: the same sum over the contracted axis. -/
theorem dot5_apply (a : FVec Ideal S160000x768 .f32) (w : FVec Ideal S768x256 .f32) (r : Fin 160000) (q : Fin 256) :
    Host.dotGeneral Cert.ReferenceIdeal.dot_S160000x768_S768x256_S160000x256_1_0_0_1_n_n none a w (ix2 r q)
      = ∑ k : Fin 768, a (ix2 r k) * w (ix2 k q) := by
  simp only [Host.dotGeneral]
  rw [Ideal.dotGeneral_apply, ← Equiv.sum_comp (contrEquiv1 Cert.ReferenceIdeal.dot_S160000x768_S768x256_S160000x256_1_0_0_1_n_n 768 rfl rfl).symm]
  refine Finset.sum_congr rfl fun k _ => ?_
  have hk := contrEquiv1_symm_val Cert.ReferenceIdeal.dot_S160000x768_S768x256_S160000x256_1_0_0_1_n_n 768 rfl rfl k
  have el : Cert.ReferenceIdeal.dot_S160000x768_S768x256_S160000x256_1_0_0_1_n_n.lhsIdx (ix2 r q) ((contrEquiv1 Cert.ReferenceIdeal.dot_S160000x768_S768x256_S160000x256_1_0_0_1_n_n 768 rfl rfl).symm k) = ix2 r k := funext fun a => Fin.ext (by
    match a with
    | ⟨0, _⟩ => exact rlhs5_0 _ _
    | ⟨1, _⟩ => exact (rlhs5_1 _ _).trans hk)
  have er : Cert.ReferenceIdeal.dot_S160000x768_S768x256_S160000x256_1_0_0_1_n_n.rhsIdx (ix2 r q) ((contrEquiv1 Cert.ReferenceIdeal.dot_S160000x768_S768x256_S160000x256_1_0_0_1_n_n 768 rfl rfl).symm k) = ix2 k q := funext fun a => Fin.ext (by
    match a with
    | ⟨0, _⟩ => exact (rrhs5_0 _ _).trans hk
    | ⟨1, _⟩ => exact rrhs5_1 _ _)
  rw [el, er]

/-! ## The body's arithmetic and the stage, each at an index -/

/-- What the body stores, at row `p` and column `q` of the block. -/
theorem pay5_apply (x0 : Vec Ideal S2000x768 .f32) (x1 : Vec Ideal S768x256 .f32) (x2 : Vec Ideal S1x256 .f32) (p : Fin 2000) (q : Fin 256) :
    k5_pay1 (F := Ideal) x0 x1 x2 (ix2 p q)
      = (∑ k : Fin 768, x0 (ix2 p k) * x1 (ix2 k q)) + x2 (ix2 (0 : Fin 1) q) := by
  unfold k5_pay1
  simp only [shapeCast_self]
  show FloatOps.matmul (F := Ideal) dot_S2000x768_S768x256_S2000x256_1_0_0_1_n_n none (truncf (F := Ideal) .bf16 x0 bitsLt_bf16_f32) (truncf (F := Ideal) .bf16 x1 bitsLt_bf16_f32) (constant (F := Ideal) S2000x256 .f32 0x00000000#32) (ix2 p q)
      + broadcastTo S2000x256 x2 broadcasts_S1x256_S2000x256 (ix2 p q) = _
  rw [matmul5_apply, broadcastTo_1b_ab_apply]
  rfl

/-- The stage, at row `r` and column `q` of the array. -/
theorem stage5_apply (a : FVec Ideal S160000x768 .f32) (w : FVec Ideal S768x256 .f32) (row : FVec Ideal S1x256 .f32) (r : Fin 160000) (q : Fin 256) :
    Cert.Spec.stage5 (F := Ideal) a w row (ix2 r q)
      = (∑ k : Fin 768, a (ix2 r k) * w (ix2 k q)) + row (ix2 (0 : Fin 1) q) := by
  unfold Cert.Spec.stage5
  show Host.dotGeneral Cert.ReferenceIdeal.dot_S160000x768_S768x256_S160000x256_1_0_0_1_n_n none a w (ix2 r q)
      + broadcastInDim S160000x256 ![0, 1] Cert.ReferenceIdeal.Gen.bcast_S1x256_S160000x256_0_1 row (ix2 r q) = _
  rw [dot5_apply, broadcastInDim_oneRow_apply]

/-! ## Where the blocks lie in the arrays -/

theorem hz5 : (![0, 0] : Fin 2 → Nat) = fun _ => 0 := funext fun a => by fin_cases a <;> rfl

/-- The printed index maps, decided over the grid: the row block and the result block are at block row `t`, the weight
    and the bias row do not move. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The row block at point `t` is rows `2000 t …` of the operand. -/
theorem iblk5_0_apply (c : Dev nD) (t : Fin cfg5.N) (p : Fin 2000) (k : Fin 768) (r : Fin 160000) (hr : r.val = 2000 * t.val + p.val) :
    (iblk5 V c 0 t : Vec Ideal S2000x768 .f32) (ix2 p k) = (V c main_v54 : Vec Ideal S160000x768 .f32) (ix2 r k) := by
  obtain ⟨e0, e1, -⟩ := idx_facts5 t
  unfold iblk5
  rw [View.read_apply]
  show V c main_v54 _ = V c main_v54 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 768 + 1 * k.val = k.val; rw [e1]; omega

/-- The weight's block at any point is the weight. -/
theorem iblk5_1_apply (c : Dev nD) (t : Fin cfg5.N) (k : Fin 768) (q : Fin 256) :
    (iblk5 V c 1 t : Vec Ideal S768x256 .f32) (ix2 k q) = (V c main_arg13 : Vec Ideal S768x256 .f32) (ix2 k q) := by
  obtain ⟨-, -, e0, e1, -⟩ := idx_facts5 t
  unfold iblk5
  rw [View.read_apply]
  show V c main_arg13 _ = V c main_arg13 _
  congr 1
  funext a
  apply Fin.ext
  match a with
  | ⟨0, _⟩ => show win5_1.index t (0 : Fin 2) * 768 + 1 * k.val = k.val; rw [e0]; omega
  | ⟨1, _⟩ => show win5_1.index t (1 : Fin 2) * 256 + 1 * q.val = q.val; rw [e1]; omega

/-- The bias row's block at any point is the bias row. -/
theorem iblk5_2_apply (c : Dev nD) (t : Fin cfg5.N) (z : Fin 1) (q : Fin 256) :
    (iblk5 V c 2 t : Vec Ideal S1x256 .f32) (ix2 z q) = (V c main_v55 : Vec Ideal S1x256 .f32) (ix2 z q) := by
  obtain ⟨-, -, -, -, e0, e1, -⟩ := idx_facts5 t
  unfold iblk5
  rw [View.read_apply]
  show V c main_v55 _ = V c main_v55 _
  congr 1
  funext a
  apply Fin.ext
  match a with
  | ⟨0, _⟩ => show win5_2.index t (0 : Fin 2) * 1 + 1 * z.val = z.val; rw [e0]; omega
  | ⟨1, _⟩ => show win5_2.index t (1 : Fin 2) * 256 + 1 * q.val = q.val; rw [e1]; omega

/-! ## From the blocks to the array -/

/-- What point `t` writes back is block `t` of the stage of the three arrays as the region finds them. -/
theorem flushed5_eq (c : Dev nD) (t : Fin cfg5.N) :
    (dat5 (F := Ideal) V c).flushed 3 t = ((cfg5.win 3).blk t).view.read (Elt Ideal) (Cert.Spec.stage5 (F := Ideal) (V c main_v54) (V c main_arg13) (V c main_v55)) := by
  show (cfg5.win 3).cut (grid5.coords t) ((dat5 (F := Ideal) V c).after 3 t) = _
  rw [after5_3]
  unfold out5_3
  rw [View.canon_unit_zero hz5]
  simp only [View.ld_unit_zero (S := S2000x768) hz5, View.ld_unit_zero (S := S768x256) hz5, View.ld_unit_zero (S := S1x256) hz5]
  obtain ⟨-, -, -, -, -, -, e0, e1⟩ := idx_facts5 t
  funext j
  obtain ⟨p, q, rfl⟩ : ∃ (p : Fin 2000) (q : Fin 256), j = ix2 p q := ⟨j 0, j 1, eq_ix2 (n0 := 2000) (n1 := 256) j⟩
  have hp : p.val < 2000 := p.isLt
  have ht : t.val < 80 := t.isLt
  rw [View.read_apply]
  have hemb : ((cfg5.win 3).blk t).view.emb (ix2 p q) = (ix2 (⟨2000 * t.val + p.val, by omega⟩ : Fin 160000) q : S160000x256.Idx) := by
    funext a
    apply Fin.ext
    match a with
    | ⟨0, _⟩ => show win5_3.index t (0 : Fin 2) * 2000 + 1 * p.val = 2000 * t.val + p.val; rw [e0]; omega
    | ⟨1, _⟩ => show win5_3.index t (1 : Fin 2) * 256 + 1 * q.val = q.val; rw [e1]; omega
  rw [hemb]
  refine (pay5_apply _ _ _ p q).trans (Eq.trans ?_ (stage5_apply _ _ _ ⟨2000 * t.val + p.val, by omega⟩ q).symm)
  rw [iblk5_2_apply V c t 0 q]
  congr 1
  refine Finset.sum_congr rfl fun k _ => ?_
  rw [iblk5_0_apply V c t p k ⟨2000 * t.val + p.val, by omega⟩ rfl, iblk5_1_apply V c t k q]

/-- An index of the array is in point `t`'s block iff each coordinate is in the block's range on its axis. -/
theorem mem_blk5 (t : Fin cfg5.N) (i : S160000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole (Pipeline.arrRef spec5 3)).slice (win5_3.rect t)).set ↔ _
  rw [View.set_slice_whole, Rect.mem_set_unit]
  exact Iff.rfl

/-- Row `i` lies in the block of point `i / 2000`, which is written back. -/
theorem cover5_rows (i : S160000x256.Idx) :
    ∃ t : Fin cfg5.N, (cfg5.win 3).flush t = true ∧ i ∈ ((cfg5.win 3).blk t).view.set := by
  have hi0 : (i 0).val < 160000 := (i 0).isLt
  have hi1 : (i 1).val < 256 := (i 1).isLt
  have ht : (i 0).val / 2000 < 80 := by omega
  refine ⟨⟨(i 0).val / 2000, ht⟩, flush5_3 _, ?_⟩
  obtain ⟨-, -, -, -, -, -, e0, e1⟩ := idx_facts5 ⟨(i 0).val / 2000, ht⟩
  rw [mem_blk5]
  intro a
  match a with
  | ⟨0, _⟩ => show win5_3.index ⟨(i 0).val / 2000, ht⟩ (0 : Fin 2) * 2000 ≤ (i 0).val ∧ (i 0).val < win5_3.index ⟨(i 0).val / 2000, ht⟩ (0 : Fin 2) * 2000 + 2000; rw [e0]; show (i 0).val / 2000 * 2000 ≤ (i 0).val ∧ (i 0).val < (i 0).val / 2000 * 2000 + 2000; omega
  | ⟨1, _⟩ => show win5_3.index ⟨(i 0).val / 2000, ht⟩ (1 : Fin 2) * 256 ≤ (i 1).val ∧ (i 1).val < win5_3.index ⟨(i 0).val / 2000, ht⟩ (1 : Fin 2) * 256 + 256; rw [e1]; omega

/-- The array the grid leaves is the stage of the three operand arrays. -/
theorem final5 (c : Dev nD) :
    (dat5 (F := Ideal) V c).arrAt 3 cfg5.N = Cert.Spec.stage5 (F := Ideal) (V c main_v54) (V c main_arg13) (V c main_v55) :=
  (dat5 (F := Ideal) V c).arrAt_eq_of_cover 3 (Cert.Spec.stage5 (F := Ideal) (V c main_v54) (V c main_arg13) (V c main_v55))
    (fun t _ => flushed5_eq V c t) cover5_rows

end Cert.KernelIdeal.Reg

end
-- ==== Proof.ResultsKI.lean ====
/-
  The program's run with its two results named: from any launch memory every weakly fair execution terminates, nothing
  faulting, with the node output buffer at the network's node output of the fifteen argument arrays as launched, the
  edge output buffer at its edge output, and the arguments unchanged.  The run gives every buffer at the fold's last
  contents; the two result buffers there are the network's outputs because each region leaves its dense stage of its
  operands (the six value facts) and the host stretches between them are the network's other operations.
-/
import proofs.«139872_j38732015076057_1_alg».proof.Proof.RunKI
import proofs.«139872_j38732015076057_1_alg».proof.Proof.HostKI
import proofs.«139872_j38732015076057_1_alg».proof.Proof.ValueKI0
import proofs.«139872_j38732015076057_1_alg».proof.Proof.ValueKI1
import proofs.«139872_j38732015076057_1_alg».proof.Proof.ValueKI2
import proofs.«139872_j38732015076057_1_alg».proof.Proof.ValueKI3
import proofs.«139872_j38732015076057_1_alg».proof.Proof.ValueKI4
import proofs.«139872_j38732015076057_1_alg».proof.Proof.ValueKI5

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The six regions' value facts together. -/
theorem stageFacts : StageFacts :=
  ⟨fun V c => final0 V c, fun V c => final1 V c, fun V c => final2 V c, fun V c => final3 V c, fun V c => final4 V c, fun V c => final5 V c⟩

/-- The run, with the two results at the network's outputs of the launch arguments and the arguments kept. -/
theorem value_run : θ_run defs (onTc (τ := τ) (main (F := Ideal))) ⟨m, fun _ => 0, ρ⟩ (fun r => ∀ c : Dev nD,
      r.2.mem ((c.tc : Thread nD τ).loc main_v53) = Cert.Net.nodeOut (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12)
      ∧ r.2.mem ((c.tc : Thread nD τ).loc main_v56) = Cert.Net.edgeOut (F := Ideal) (argAt m c main_arg0) (argAt m c main_arg1) (argAt m c main_arg2) (argAt m c main_arg3) (argAt m c main_arg4) (argAt m c main_arg5) (argAt m c main_arg6) (argAt m c main_arg13) (argAt m c main_arg14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v53 (by decide))).trans (nodeOut_eq m stageFacts c),
     (h c _ (mem_uc main_v56 (by decide))).trans (edgeOut_eq m stageFacts c),
     arg_kept m h c main_arg0 (by decide) (by decide) (by decide) (by decide) (by decide) (by decide) (by decide) (by decide) (by decide) (by decide) (by decide) (by decide) (by decide),
     arg_kept m h c main_arg1 (by decide) (by decide) (by decide) (by decide) (by decide) (by decide) (by decide) (by decide) (by decide) (by decide) (by decide) (by decide) (by decide),
     arg_kept m h c main_arg2 (by decide) (by decide) (by decide) (by decide) (by decide) (by decide) (by decide) (by decide) (by decide) (by decide) (by decide) (by decide) (by decide),
     arg_kept m h c main_arg3 (by decide) (by decide) (by decide) (by decide) (by decide) (by decide) (by decide) (by decide) (by decide) (by decide) (by decide) (by decide) (by decide),
     arg_kept m h c main_arg4 (by decide) (by decide) (by decide) (by decide) (by decide) (by decide) (by decide) (by decide) (by decide) (by decide) (by decide) (by decide) (by decide),
     arg_kept m h c main_arg5 (by decide) (by decide) (by decide) (by decide) (by decide) (by decide) (by decide) (by decide) (by decide) (by decide) (by decide) (by decide) (by decide),
     arg_kept m h c main_arg6 (by decide) (by decide) (by decide) (by decide) (by decide) (by decide) (by decide) (by decide) (by decide) (by decide) (by decide) (by decide) (by decide),
     arg_kept m h c main_arg7 (by decide) (by decide) (by decide) (by decide) (by decide) (by decide) (by decide) (by decide) (by decide) (by decide) (by decide) (by decide) (by decide),
     arg_kept m h c main_arg8 (by decide) (by decide) (by decide) (by decide) (by decide) (by decide) (by decide) (by decide) (by decide) (by decide) (by decide) (by decide) (by decide),
     arg_kept m h c main_arg9 (by decide) (by decide) (by decide) (by decide) (by decide) (by decide) (by decide) (by decide) (by decide) (by decide) (by decide) (by decide) (by decide),
     arg_kept m h c main_arg10 (by decide) (by decide) (by decide) (by decide) (by decide) (by decide) (by decide) (by decide) (by decide) (by decide) (by decide) (by decide) (by decide),
     arg_kept m h c main_arg11 (by decide) (by decide) (by decide) (by decide) (by decide) (by decide) (by decide) (by decide) (by decide) (by decide) (by decide) (by decide) (by decide),
     arg_kept m h c main_arg12 (by decide) (by decide) (by decide) (by decide) (by decide) (by decide) (by decide) (by decide) (by decide) (by decide) (by decide) (by decide) (by decide),
     arg_kept m h c main_arg13 (by decide) (by decide) (by decide) (by decide) (by decide) (by decide) (by decide) (by decide) (by decide) (by decide) (by decide) (by decide) (by decide),
     arg_kept m h c main_arg14 (by decide) (by decide) (by decide) (by decide) (by decide) (by decide) (by decide) (by decide) (by decide) (by decide) (by decide) (by decide) (by decide)⟩)
    (run m ρ)

end Cert.KernelIdeal.Reg

end
-- ==== Proof.RefNet.lean ====
/-
  The reference program's run with its two results named: the node result is the network's node output of the
  fifteen argument arrays, the edge result its edge output.  The specification was written in the reference's own
  wording, operation for operation, so each equation is the unfolding of the definitions on both sides.
-/
import proofs.«139872_j38732015076057_1_alg».proof.Proof.Gen.ReferenceIdeal.Run
import proofs.«139872_j38732015076057_1_alg».proof.Proof.Net

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ)

/-- Core `c`'s argument `b` in the launch memory. -/
abbrev argAt (c : Dev nD) (b : Ref sig .tc) : Buf (Elt Ideal) ((c.tc : Thread nD τ).loc b) := m ((c.tc : Thread nD τ).loc b)

/-- The node result's term is the network's node output. -/
theorem node_eq (c : Dev nD) :
    res_main_v67 (F := Ideal) m c = Cert.Net.nodeOut (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) := by
  unfold res_main_v67
  rfl

/-- The run, with the two results at the network's outputs of the launch arguments and the arguments kept. -/
theorem run (ρ : Dev nD → PrngReg) :
    θ_run defs (onTc (τ := τ) (main (F := Ideal))) ⟨m, fun _ => 0, ρ⟩ fun r => ∀ c : Dev nD,
      r.2.mem ((c.tc : Thread nD τ).loc main_v67) = Cert.Net.nodeOut (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12)
      ∧ r.2.mem ((c.tc : Thread nD τ).loc main_v86) = Cert.Net.edgeOut (F := Ideal) (argAt m c main_arg0) (argAt m c main_arg1) (argAt m c main_arg2) (argAt m c main_arg3) (argAt m c main_arg4) (argAt m c main_arg5) (argAt m c main_arg6) (argAt m c main_arg13) (argAt m c main_arg14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (node_eq m c), (h c).2.1.trans rfl, (h c).2.2⟩) (Value.run (F := Ideal) m ρ)

end Cert.ReferenceIdeal.RefValue

end
-- ==== Proof.lean ====
/-
  The certificate of a graph-network layer whose six dense stages (a matrix product with a weight, a bias row added,
  for four of them `max (·) 0`) are kernel calls tiled over rows, against the same layer written with plain matrix
  products.  Between the calls both programs do the same things: take the two rows of the edge index, gather node
  rows at edge ends, count and sum edges into nodes, divide by the counts, concatenate.

  * The three frames.  The kernel program (read at machine words and at the exact reals) is twelve items, a host
    stretch then a call, six times; its run is the chain of those items over the contents of the core's buffers, and
    no item writes an argument.  The reference is host operations only; its frame is its run with the results dropped.
  * The idealization rewrote nothing, so there is nothing to preserve.
  * Equal results at the exact reals.  A call's grid writes, block of rows by block of rows, exactly the rows of
    `a · w + row` (then `max · 0`) of its three operand arrays: a change of float format is the identity there, and a
    product into a zero accumulator is the sum over the contracted axis.  Read through the host stretches, the two
    result buffers are the layer's node and edge outputs as functions of the fifteen arguments; the reference's two
    results are the same two functions, written operation for operation; and the arguments agree.
-/
import proofs.«139872_j38732015076057_1_alg».proof.Defs
import proofs.«139872_j38732015076057_1_alg».proof.Proof.Gen.Kernel
import proofs.«139872_j38732015076057_1_alg».proof.Proof.Gen.KernelIdeal
import proofs.«139872_j38732015076057_1_alg».proof.Proof.Gen.ReferenceIdeal
import proofs.«139872_j38732015076057_1_alg».proof.Proof.Gen.Pre_finite_inputs
import proofs.«139872_j38732015076057_1_alg».proof.Proof.RunK
import proofs.«139872_j38732015076057_1_alg».proof.Proof.ResultsKI
import proofs.«139872_j38732015076057_1_alg».proof.Proof.RefNet
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Reg.frame m ρ

theorem frame_ki : Cert.frame_KernelIdeal (hKernelIdeal := Cert.KernelIdeal.Gen.facts) (hPre_finite_inputs := Cert.Pre_finite_inputs.Gen.facts) :=
  fun m ρ _ => Cert.KernelIdeal.Reg.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the layer's two outputs of their own arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Reg.value_run m ρ, ?_⟩
  refine (θ_run Cert.ReferenceIdeal.defs _ _).mono (fun r h c => ?_) (Cert.ReferenceIdeal.RefValue.run m' ρ')
  obtain ⟨h0, h1, hk⟩ := h c
  obtain ⟨a0, a1, a2, a3, a4, a5, a6, a7, a8, a9, a10, a11, a12, a13, a14⟩ := hagree c
  refine ⟨h0.trans ?_, h1.trans ?_, hk⟩
  · dsimp only [Cert.ReferenceIdeal.RefValue.argAt, Cert.KernelIdeal.Reg.argAt]
    rw [a0, a1, a2, a3, a4, a5, a6, a7, a8, a9, a10, a11, a12]
  · dsimp only [Cert.ReferenceIdeal.RefValue.argAt, Cert.KernelIdeal.Reg.argAt]
    rw [a0, a1, a2, a3, a4, a5, a6, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
